-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S2x800000 32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg2 main_v79
  let main_c_31 : IVec S_ 32 := constantI S_ 32 50000#32
  let main_v81 : IVec S2x800000 32 := broadcastInDim S2x800000 ![] bcast_S_S2x800000 main_c_31
  let main_v82 : IVec S2x800000 1 := cmpi .slt main_arg2 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg2 : IVec S2x800000 32) (main_arg12 : FVec F S128 .f32) (main_arg13 : FVec F S128 .f32) (main_arg14 : FVec F S128 .f32) (main_arg15 : FVec F S128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_v63 main_v67

def fn_part2 {F : FTy → Type} [FloatOps F] (main_arg2 : IVec S2x800000 32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_v48 main_v49 main_v50

def fn_part1 {F : FTy → Type} [FloatOps F] (main_arg2 : IVec S2x800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S50000x128 .f32) (main_arg1 : FVec F S800000x128 .f32) (main_arg2 : IVec S2x800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S1600x128 : Shape := ⟨2, ![1600, 128]⟩
abbrev S4000x128 : Shape := ⟨2, ![4000, 128]⟩
abbrev S4000x256 : Shape := ⟨2, ![4000, 256]⟩
abbrev S8x128 : Shape := ⟨2, ![8, 128]⟩
abbrev S200x8x128 : Shape := ⟨3, ![200, 8, 128]⟩
abbrev S200x1x128 : Shape := ⟨3, ![200, 1, 128]⟩
abbrev S200x128 : Shape := ⟨2, ![200, 128]⟩
abbrev S80x128 : Shape := ⟨2, ![80, 128]⟩
abbrev S10x8x128 : Shape := ⟨3, ![10, 8, 128]⟩
abbrev S10x1x128 : Shape := ⟨3, ![10, 1, 128]⟩
abbrev S10x128 : Shape := ⟨2, ![10, 128]⟩

abbrev nBuf : Space → Nat
  | .hbm => 132
  | .vmem => 62
  | .smem => 0
  | _ => 0

abbrev hbmTy0_0 (i : Nat) : BufTy := match i % 128 with
  | 0 => ⟨S50000x128, .f32⟩
  | 1 => ⟨S800000x128, .f32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S1x128, .f32⟩
  | 22 => ⟨S1x128, .f32⟩
  | 23 => ⟨S1x128, .f32⟩
  | 24 => ⟨S1x128, .f32⟩
  | 25 => ⟨S50000x128, .f32⟩
  | 26 => ⟨S50000x256, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x128, .f32⟩
  | 47 => ⟨S800000x128, .i1⟩
  | 48 => ⟨S_, .f32⟩
  | 49 => ⟨S800000x128, .f32⟩
  | 50 => ⟨S800000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x256, .f32⟩
  | 70 => ⟨S800000x256, .i1⟩
  | 71 => ⟨S_, .f32⟩
  | 72 => ⟨S800000x256, .f32⟩
  | 73 => ⟨S800000x256, .f32⟩
  | 74 => ⟨S1x128, .f32⟩
  | 75 => ⟨S800000x128, .f32⟩
  | 76 => ⟨S800000x256, .f32⟩
  | 77 => ⟨S1600x128, .f32⟩
  | 78 => ⟨S1600x128, .f32⟩
  | 79 => ⟨S200x8x128, .f32⟩
  | 80 => ⟨S200x1x128, .f32⟩
  | 81 => ⟨S200x128, .f32⟩
  | 82 => ⟨S_, .f32⟩
  | 83 => ⟨S128, .f32⟩
  | 84 => ⟨S200x8x128, .f32⟩
  | 85 => ⟨S200x1x128, .f32⟩
  | 86 => ⟨S200x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S_, .f32⟩
  | 94 => ⟨S128, .f32⟩
  | 95 => ⟨S128, .f32⟩
  | 96 => ⟨S1x128, .f32⟩
  | 97 => ⟨S1x128, .f32⟩
  | 98 => ⟨S1x128, .f32⟩
  | 99 => ⟨S_, .f32⟩
  | 100 => ⟨S50000x256, .f32⟩
  | 101 => ⟨S800000x1, .i32⟩
  | 102 => ⟨S50000x256, .f32⟩
  | 103 => ⟨S50000x128, .f32⟩
  | 104 => ⟨S80x128, .f32⟩
  | 105 => ⟨S80x128, .f32⟩
  | 106 => ⟨S10x8x128, .f32⟩
  | 107 => ⟨S10x1x128, .f32⟩
  | 108 => ⟨S10x128, .f32⟩
  | 109 => ⟨S_, .f32⟩
  | 110 => ⟨S128, .f32⟩
  | 111 => ⟨S10x8x128, .f32⟩
  | 112 => ⟨S10x1x128, .f32⟩
  | 113 => ⟨S10x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S_, .f32⟩
  | 121 => ⟨S128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S50000x128, .f32⟩
  | 3 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S5000x128, .f32⟩
  | .local _ .vmem, ⟨15, _⟩ => ⟨S5000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x256, .f32⟩
  | .local _ .vmem, ⟨21, _⟩ => ⟨S4000x256, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x256, .f32⟩
  | .local _ .vmem, ⟨27, _⟩ => ⟨S4000x256, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S5000x128, .f32⟩
  | .local _ .vmem, ⟨33, _⟩ => ⟨S5000x128, .f32⟩
  | .local _ .vmem, ⟨34, _⟩ => ⟨S5000x256, .f32⟩
  | .local _ .vmem, ⟨35, _⟩ => ⟨S5000x256, .f32⟩
  | .local _ .vmem, ⟨36, _⟩ => ⟨S5000x128, .f32⟩
  | .local _ .vmem, ⟨37, _⟩ => ⟨S5000x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S8x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S4000x128, .f32⟩
  | .local _ .vmem, ⟨61, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v9 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v10 : Ref sig .tc := ⟨.hbm, 73, rfl⟩
abbrev main_v11 : Ref sig .tc := ⟨.hbm, 74, rfl⟩
abbrev main_v12_0 : Ref sig .tc := ⟨.hbm, 75, rfl⟩
abbrev main_v12_1 : Ref sig .tc := ⟨.hbm, 76, rfl⟩
abbrev main_v12_2 : Ref sig .tc := ⟨.hbm, 77, rfl⟩
abbrev main_v12_3 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_cst_0 : Ref sig .tc := ⟨.hbm, 87, rfl⟩
abbrev main_v20 : Ref sig .tc := ⟨.hbm, 88, rfl⟩
abbrev main_cst_1 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_cst_2 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_cst_3 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32_0 : Ref sig .tc := ⟨.hbm, 103, rfl⟩
abbrev main_v32_1 : Ref sig .tc := ⟨.hbm, 104, rfl⟩
abbrev main_v32_2 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_cst_4 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_5 : Ref sig .tc := ⟨.hbm, 114, rfl⟩
abbrev main_v40 : Ref sig .tc := ⟨.hbm, 115, rfl⟩
abbrev main_cst_6 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_cst_7 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg6_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem6_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem6_1 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x256_0 : S800000.BroadcastsInDim S800000x256 (![0] : Fin 1 → Fin S800000x256.rank)
  bcast_S_S800000x256 : S_.BroadcastsInDim S800000x256 (![] : Fin 0 → Fin S800000x256.rank)
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  inb_S4000x256_S4000x128_0_0 : ∀ a, (![0, 0] : Fin 2 → Nat) a + S4000x128.size a ≤ S4000x256.size a
  shapeCasts_S4000x128_S4000x128 : S4000x128.ShapeCasts S4000x128
  inb_S4000x256_S4000x128_0_128 : ∀ a, (![0, 128] : Fin 2 → Nat) a + S4000x128.size a ≤ S4000x256.size a
  reduces_S4000x128_S128 : S4000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S1600x128_S200x8x128 : S1600x128.ShapeCasts S200x8x128
  slices_S200x8x128_S200x1x128_0_0_0 : S200x8x128.Slices ![0, 0, 0] S200x1x128
  shapeCasts_S200x1x128_S200x128 : S200x1x128.ShapeCasts S200x128
  reducesTo_S200x128_S128_d0 : S200x128.ReducesTo [0] S128
  bcast_S_S128 : S_.BroadcastsInDim S128 (![] : Fin 0 → Fin S128.rank)
  bcast_S_S50000x256 : S_.BroadcastsInDim S50000x256 (![] : Fin 0 → Fin S50000x256.rank)
  shapeCasts_S5000x128_S5000x128 : S5000x128.ShapeCasts S5000x128
  reduces_S5000x128_S128 : S5000x128.Reduces [0] S128
  shapeCasts_S80x128_S10x8x128 : S80x128.ShapeCasts S10x8x128
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  gather_S50000x256_S800000x1_S800000x256_1_0_n_n_0_1_1256_wf : GatherDims.WF S50000x256 S800000x1 S800000x256 [1] [0] [] [0] [] 1 ![1, 256]
  dot_S4000x128_S128x128_S4000x128_1_0_0_1_n_n_wf : DotDims.WF S4000x128 S128x128 S4000x128 [1] [0] [0] [1] [] []
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x256.size a ≤ S50000x256.size a
  hwx0_10 : ∀ i : grid0.Coords, EltTy.bits .f32 = 32 ∨ (Rect.block (s := S50000x256) S5000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S800000x256.size a
  hwx1_2 : ∀ i : grid1.Coords, EltTy.bits .f32 = 32 ∨ (Rect.block (s := S800000x256) S4000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x256.size a ≤ S800000x256.size a
  hwx1_6 : ∀ i : grid1.Coords, EltTy.bits .f32 = 32 ∨ (Rect.block (s := S800000x256) S4000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S1600x128.size a
  hwx1_7 : ∀ i : grid1.Coords, EltTy.bits .f32 = 32 ∨ (Rect.block (s := S1600x128) S8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S1600x128.size a
  hwx1_8 : ∀ i : grid1.Coords, EltTy.bits .f32 = 32 ∨ (Rect.block (s := S1600x128) S8x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x128.size a ≤ S80x128.size a
  hwx2_3 : ∀ i : grid2.Coords, EltTy.bits .f32 = 32 ∨ (Rect.block (s := S80x128) S8x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S80x128.size a
  hwx2_4 : ∀ i : grid2.Coords, EltTy.bits .f32 = 32 ∨ (Rect.block (s := S80x128) S8x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S800000x128.size a
  hwx4_0 : ∀ i : grid4.Coords, EltTy.bits .f32 = 32 ∨ (Rect.block (s := S800000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S800000x128.size a
  hwx4_6 : ∀ i : grid4.Coords, EltTy.bits .f32 = 32 ∨ (Rect.block (s := S800000x128) S4000x128.size (cc4_transform_6 i) (hinb4_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S5000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_2) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_1) S4000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12_2) S8x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_3) S8x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v8_2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32_1) S8x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32_2) S8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v32_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v12_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v54) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩

abbrev nBuf : Space → Nat
  | .hbm => 205
  | .vmem => 0
  | .smem => 0
  | _ => 0

abbrev hbmTy0_0 (i : Nat) : BufTy := match i % 128 with
  | 0 => ⟨S50000x128, .f32⟩
  | 1 => ⟨S800000x128, .f32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S128x128, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S128x128, .f32⟩
  | 51 => ⟨S800000x128, .f32⟩
  | 52 => ⟨S1x128, .f32⟩
  | 53 => ⟨S800000x128, .f32⟩
  | 54 => ⟨S800000x128, .f32⟩
  | 55 => ⟨S800000x128, .f32⟩
  | 56 => ⟨S800000x128, .f32⟩
  | 57 => ⟨S800000x128, .f32⟩
  | 58 => ⟨S_, .f32⟩
  | 59 => ⟨S800000x128, .f32⟩
  | 60 => ⟨S800000x128, .f32⟩
  | 61 => ⟨S_, .f32⟩
  | 62 => ⟨S800000x128, .f32⟩
  | 63 => ⟨S800000x128, .f32⟩
  | 64 => ⟨S128x128, .f32⟩
  | 65 => ⟨S50000x128, .f32⟩
  | 66 => ⟨S1x128, .f32⟩
  | 67 => ⟨S50000x128, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S128x128, .f32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S800000x128, .f32⟩
  | 35 => ⟨S800000x128, .f32⟩
  | 36 => ⟨S800000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S800000x128, .f32⟩
  | 52 => ⟨S800000x128, .f32⟩
  | 53 => ⟨S_, .f32⟩
  | 54 => ⟨S128, .f32⟩
  | 55 => ⟨S128, .f32⟩
  | 56 => ⟨S128, .f32⟩
  | 57 => ⟨S1x128, .f32⟩
  | 58 => ⟨S800000x128, .f32⟩
  | 59 => ⟨S800000x128, .f32⟩
  | 60 => ⟨S1x128, .f32⟩
  | 61 => ⟨S800000x128, .f32⟩
  | 62 => ⟨S800000x128, .f32⟩
  | 63 => ⟨S1x128, .f32⟩
  | 64 => ⟨S800000x128, .f32⟩
  | 65 => ⟨S800000x128, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S800000x128, .f32⟩
  | 75 => ⟨S50000x128, .f32⟩
  | 76 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_c_11 : Ref sig .tc := ⟨.hbm, 102, rfl⟩
abbrev main_call0_cst : Ref sig .tc := ⟨.hbm, 103, rfl⟩
abbrev main_call0_v0 : Ref sig .tc := ⟨.hbm, 104, rfl⟩
abbrev main_call0_v1 : Ref sig .tc := ⟨.hbm, 105, rfl⟩
abbrev main_call0_cst_0 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_cst_1 : Ref sig .tc := ⟨.hbm, 113, rfl⟩
abbrev main_call0_v8 : Ref sig .tc := ⟨.hbm, 114, rfl⟩
abbrev main_call0_cst_2 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_cst_3 : Ref sig .tc := ⟨.hbm, 119, rfl⟩
abbrev main_call0_v12 : Ref sig .tc := ⟨.hbm, 120, rfl⟩
abbrev main_call0_cst_4 : Ref sig .tc := ⟨.hbm, 121, rfl⟩
abbrev main_call0_call0_v0 : Ref sig .tc := ⟨.hbm, 122, rfl⟩
abbrev main_call0_call0_v1 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_12 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_call1_v0 : Ref sig .tc := ⟨.hbm, 141, rfl⟩
abbrev main_call1_v1 : Ref sig .tc := ⟨.hbm, 142, rfl⟩
abbrev main_call1_cst : Ref sig .tc := ⟨.hbm, 143, rfl⟩
abbrev main_call1_v2 : Ref sig .tc := ⟨.hbm, 144, rfl⟩
abbrev main_call1_v3 : Ref sig .tc := ⟨.hbm, 145, rfl⟩
abbrev main_call1_cst_0 : Ref sig .tc := ⟨.hbm, 146, rfl⟩
abbrev main_call1_v4 : Ref sig .tc := ⟨.hbm, 147, rfl⟩
abbrev main_call1_v5 : Ref sig .tc := ⟨.hbm, 148, rfl⟩
abbrev main_v88 : Ref sig .tc := ⟨.hbm, 149, rfl⟩
abbrev main_cst_13 : Ref sig .tc := ⟨.hbm, 150, rfl⟩
abbrev main_v89 : Ref sig .tc := ⟨.hbm, 151, rfl⟩
abbrev main_cst_14 : Ref sig .tc := ⟨.hbm, 152, rfl⟩
abbrev main_v90 : Ref sig .tc := ⟨.hbm, 153, rfl⟩
abbrev main_v91 : Ref sig .tc := ⟨.hbm, 154, rfl⟩
abbrev main_c_15 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_cst_3 : Ref sig .tc := ⟨.hbm, 172, rfl⟩
abbrev main_call2_v12 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_cst_16 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_call3_v0 : Ref sig .tc := ⟨.hbm, 194, rfl⟩
abbrev main_call3_v1 : Ref sig .tc := ⟨.hbm, 195, rfl⟩
abbrev main_call3_cst : Ref sig .tc := ⟨.hbm, 196, rfl⟩
abbrev main_call3_v2 : Ref sig .tc := ⟨.hbm, 197, rfl⟩
abbrev main_call3_v3 : Ref sig .tc := ⟨.hbm, 198, rfl⟩
abbrev main_call3_cst_0 : Ref sig .tc := ⟨.hbm, 199, rfl⟩
abbrev main_call3_v4 : Ref sig .tc := ⟨.hbm, 200, rfl⟩
abbrev main_call3_v5 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S800000x128_S128_d0 : S800000x128.ReducesTo [0] S128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The graph layer as mathematics, index by index, on the extended reals.

  A node table `nf : 50000 × 128`, an edge table `ef : 800000 × 128`, for every edge `e` its source node `src e`
  and destination node `dst e`, five affine maps (`W`, `b`) and two pairs of batch-norm parameters.
  Every edge forms the gate pre-activation `y e = A_sg (nf (src e)) + A_dg (nf (dst e)) + A_eg (ef e)`, the gate
  `σ (y e)` and the message `A_du (nf (dst e)) · σ (y e)`; every node `n` sums the messages and the gates of the
  edges that leave it and takes `A_su (nf n) + (Σ messages) / (Σ gates + ε)`. Both tables are then normalised
  column by column over the whole batch (mean and biased variance), scaled, shifted, passed through
  `z ↦ z · σ z` and added to the input table.

  The variance is written twice: `varR`, the mean of the squared deviations, and `varK`, the mean of the squares
  minus the squared mean. On finite data they are one number (Algebra.lean).
-/
import Idealize.ShloMosaic.PureOps.Ideal

noncomputable section

open scoped BigOperators

namespace EdgeGate

open Idealize.ShloMosaic

/-- The layer's data, by coordinates. -/
structure Inputs where
  nf : Fin 50000 → Fin 128 → EReal
  ef : Fin 800000 → Fin 128 → EReal
  src : Fin 800000 → Fin 50000
  dst : Fin 800000 → Fin 50000
  Wsg : Fin 128 → Fin 128 → EReal
  bsg : Fin 128 → EReal
  Wdg : Fin 128 → Fin 128 → EReal
  bdg : Fin 128 → EReal
  Weg : Fin 128 → Fin 128 → EReal
  beg : Fin 128 → EReal
  Wsu : Fin 128 → Fin 128 → EReal
  bsu : Fin 128 → EReal
  Wdu : Fin 128 → Fin 128 → EReal
  bdu : Fin 128 → EReal
  gn : Fin 128 → EReal
  bn : Fin 128 → EReal
  ge : Fin 128 → EReal
  be : Fin 128 → EReal

/-- The small number under the quotient of the two node sums (the float `1e-6`). -/
def eps6 : EReal := Ideal.ofBits .f32 0x358637BD#32
/-- The small number under the batch norm's root (the float `1e-5`). -/
def eps5 : EReal := Ideal.ofBits .f32 0x3727C5AC#32
/-- The number of nodes, as the float the programs divide by. -/
def cntN : EReal := Ideal.ofBits .f32 0x47435000#32
/-- The number of edges, as the float the programs divide by. -/
def cntE : EReal := Ideal.ofBits .f32 0x49435000#32

/-- An affine map applied to row `r`: entry `q` is `Σ_k x r k · W q k + b q`. -/
def lin {n : Nat} (x : Fin n → Fin 128 → EReal) (W : Fin 128 → Fin 128 → EReal) (b : Fin 128 → EReal)
    (r : Fin n) (q : Fin 128) : EReal :=
  (∑ k : Fin 128, x r k * W q k) + b q

variable (I : Inputs)

def psg : Fin 50000 → Fin 128 → EReal := lin I.nf I.Wsg I.bsg
def pdg : Fin 50000 → Fin 128 → EReal := lin I.nf I.Wdg I.bdg
def pdu : Fin 50000 → Fin 128 → EReal := lin I.nf I.Wdu I.bdu
def psu : Fin 50000 → Fin 128 → EReal := lin I.nf I.Wsu I.bsu
def peg : Fin 800000 → Fin 128 → EReal := lin I.ef I.Weg I.beg

/-- The gate's pre-activation on edge `e`. -/
def y (e : Fin 800000) (q : Fin 128) : EReal := (psg I (I.src e) q + pdg I (I.dst e) q) + peg I e q
/-- The gate. -/
def sg (e : Fin 800000) (q : Fin 128) : EReal := Ideal.logistic (y I e q)
/-- The gated message. -/
def mm (e : Fin 800000) (q : Fin 128) : EReal := pdu I (I.dst e) q * sg I e q
/-- The sum of the messages of the edges leaving node `n`. -/
def ssh (n : Fin 50000) (q : Fin 128) : EReal := ∑ e ∈ Finset.univ.filter (fun e => I.src e = n), mm I e q
/-- The sum of the gates of the edges leaving node `n`. -/
def ss (n : Fin 50000) (q : Fin 128) : EReal := ∑ e ∈ Finset.univ.filter (fun e => I.src e = n), sg I e q
/-- The node's new features before normalisation. -/
def xp (n : Fin 50000) (q : Fin 128) : EReal := psu I n q + Ideal.div (ssh I n q) (ss I n q + eps6)

/-- A column's sum. -/
def colsum {n : Nat} (v : Fin n → Fin 128 → EReal) (q : Fin 128) : EReal := ∑ r : Fin n, v r q
/-- A column's mean, the count given as the number `N`. -/
def mean {n : Nat} (N : EReal) (v : Fin n → Fin 128 → EReal) (q : Fin 128) : EReal := Ideal.div (colsum v q) N
/-- A column's biased variance: the mean of the squared deviations. -/
def varR {n : Nat} (N : EReal) (v : Fin n → Fin 128 → EReal) (q : Fin 128) : EReal :=
  Ideal.div (∑ r : Fin n, (v r q - mean N v q) * (v r q - mean N v q)) N
/-- The same number as the mean of the squares minus the squared mean. -/
def varK {n : Nat} (N : EReal) (v : Fin n → Fin 128 → EReal) (q : Fin 128) : EReal :=
  Ideal.div (∑ r : Fin n, v r q * v r q) N - mean N v q * mean N v q

/-- Normalise, scale, shift, then `z ↦ z · σ z`. -/
def act (v mu var g b : EReal) : EReal :=
  ((v - mu) * Ideal.rsqrt (var + eps5) * g + b) * Ideal.logistic ((v - mu) * Ideal.rsqrt (var + eps5) * g + b)

/-- The layer's node output, variance as the mean of squared deviations. -/
def xoutR (n : Fin 50000) (q : Fin 128) : EReal :=
  I.nf n q + act (xp I n q) (mean cntN (xp I) q) (varR cntN (xp I) q) (I.gn q) (I.bn q)
/-- The layer's edge output, variance as the mean of squared deviations. -/
def youtR (e : Fin 800000) (q : Fin 128) : EReal :=
  I.ef e q + act (y I e q) (mean cntE (y I) q) (varR cntE (y I) q) (I.ge q) (I.be q)
/-- The node output with the variance as mean of squares minus squared mean. -/
def xoutK (n : Fin 50000) (q : Fin 128) : EReal :=
  I.nf n q + act (xp I n q) (mean cntN (xp I) q) (varK cntN (xp I) q) (I.gn q) (I.bn q)
/-- The edge output with the variance as mean of squares minus squared mean. -/
def youtK (e : Fin 800000) (q : Fin 128) : EReal :=
  I.ef e q + act (y I e q) (mean cntE (y I) q) (varK cntE (y I) q) (I.ge q) (I.be q)

/-- Every number of the data is a real. -/
structure Inputs.Finite : Prop where
  nf : ∀ r k, ∃ x : ℝ, I.nf r k = x
  ef : ∀ r k, ∃ x : ℝ, I.ef r k = x
  Wsg : ∀ r k, ∃ x : ℝ, I.Wsg r k = x
  bsg : ∀ k, ∃ x : ℝ, I.bsg k = x
  Wdg : ∀ r k, ∃ x : ℝ, I.Wdg r k = x
  bdg : ∀ k, ∃ x : ℝ, I.bdg k = x
  Weg : ∀ r k, ∃ x : ℝ, I.Weg r k = x
  beg : ∀ k, ∃ x : ℝ, I.beg k = x
  Wsu : ∀ r k, ∃ x : ℝ, I.Wsu r k = x
  bsu : ∀ k, ∃ x : ℝ, I.bsu k = x
  Wdu : ∀ r k, ∃ x : ℝ, I.Wdu r k = x
  bdu : ∀ k, ∃ x : ℝ, I.bdu k = x

/-- A 32-bit word read as a signed row number and kept inside the node table. -/
def rowOf (w : BitVec 32) : Fin 50000 := ⟨min w.toInt.toNat 49999, by omega⟩

end EdgeGate

end
-- ==== Proof.KInputs.lean ====
/-
  The kernel program's argument arrays read by coordinates: the layer's data, the source and destination rows of an
  edge being the two rows of the index table read as signed row numbers.
-/
import proofs.«400967_j64424509440774_3_alg».proof.KernelIdeal
import proofs.«400967_j64424509440774_3_alg».proof.Proof.Spec
import Idealize.ShloMosaic.Lib.ValueIdx

noncomputable section

namespace Cert.KernelIdeal.Val

open Idealize.ShloMosaic Idealize.ShloMosaic.ValueIdx Cert.KernelIdeal

/-- A memory of the kernel program at the exact instance. -/
abbrev Mem := (ℓ : Loc nD τ sig) → Buf (Elt Ideal) ℓ

/-- The layer's data as the kernel program's memory holds it on core `c`. -/
def inputsOf (m : Mem) (c : Dev nD) : EdgeGate.Inputs where
  nf r k := (m ((c.tc : Thread nD τ).loc main_arg0) : (⟨2, ![50000, 128]⟩ : Shape).Idx → EReal) (ix2 r k)
  ef r k := (m ((c.tc : Thread nD τ).loc main_arg1) : (⟨2, ![800000, 128]⟩ : Shape).Idx → EReal) (ix2 r k)
  src e := EdgeGate.rowOf ((m ((c.tc : Thread nD τ).loc main_arg2) : (⟨2, ![2, 800000]⟩ : Shape).Idx → BitVec 32) (ix2 0 e))
  dst e := EdgeGate.rowOf ((m ((c.tc : Thread nD τ).loc main_arg2) : (⟨2, ![2, 800000]⟩ : Shape).Idx → BitVec 32) (ix2 1 e))
  Wsg r k := (m ((c.tc : Thread nD τ).loc main_arg3) : (⟨2, ![128, 128]⟩ : Shape).Idx → EReal) (ix2 r k)
  bsg k := (m ((c.tc : Thread nD τ).loc main_arg4) : (⟨1, ![128]⟩ : Shape).Idx → EReal) (ix1 k)
  Wdg r k := (m ((c.tc : Thread nD τ).loc main_arg5) : (⟨2, ![128, 128]⟩ : Shape).Idx → EReal) (ix2 r k)
  bdg k := (m ((c.tc : Thread nD τ).loc main_arg6) : (⟨1, ![128]⟩ : Shape).Idx → EReal) (ix1 k)
  Weg r k := (m ((c.tc : Thread nD τ).loc main_arg7) : (⟨2, ![128, 128]⟩ : Shape).Idx → EReal) (ix2 r k)
  beg k := (m ((c.tc : Thread nD τ).loc main_arg8) : (⟨1, ![128]⟩ : Shape).Idx → EReal) (ix1 k)
  Wsu r k := (m ((c.tc : Thread nD τ).loc main_arg9) : (⟨2, ![128, 128]⟩ : Shape).Idx → EReal) (ix2 r k)
  bsu k := (m ((c.tc : Thread nD τ).loc main_arg10) : (⟨1, ![128]⟩ : Shape).Idx → EReal) (ix1 k)
  Wdu r k := (m ((c.tc : Thread nD τ).loc main_arg11) : (⟨2, ![128, 128]⟩ : Shape).Idx → EReal) (ix2 r k)
  bdu k := (m ((c.tc : Thread nD τ).loc main_arg12) : (⟨1, ![128]⟩ : Shape).Idx → EReal) (ix1 k)
  gn k := (m ((c.tc : Thread nD τ).loc main_arg13) : (⟨1, ![128]⟩ : Shape).Idx → EReal) (ix1 k)
  bn k := (m ((c.tc : Thread nD τ).loc main_arg14) : (⟨1, ![128]⟩ : Shape).Idx → EReal) (ix1 k)
  ge k := (m ((c.tc : Thread nD τ).loc main_arg15) : (⟨1, ![128]⟩ : Shape).Idx → EReal) (ix1 k)
  be k := (m ((c.tc : Thread nD τ).loc main_arg16) : (⟨1, ![128]⟩ : Shape).Idx → EReal) (ix1 k)

/-- Every entry of the index table is a row number of the node table. -/
def InRange (m : Mem) (c : Dev nD) : Prop :=
  ∀ (a : Fin 2) (e : Fin 800000),
    0 ≤ ((m ((c.tc : Thread nD τ).loc main_arg2) : (⟨2, ![2, 800000]⟩ : Shape).Idx → BitVec 32) (ix2 a e)).toInt
    ∧ ((m ((c.tc : Thread nD τ).loc main_arg2) : (⟨2, ![2, 800000]⟩ : Shape).Idx → BitVec 32) (ix2 a e)).toInt < 50000

end Cert.KernelIdeal.Val

end
-- ==== Proof.KStage0.lean ====
/-
  After the first launch: the four affine maps of the node table, entry by entry. The launch runs over ten tiles of
  5000 rows; tile `t` multiplies its rows with each transposed weight matrix, adds the bias row, and writes the source
  gate map, the destination gate map beside the destination update map (columns 0–127 and 128–255 of one array), and the
  source update map. Before it the host only re-lays the bias vectors as rows and cuts the index table into its two rows.
-/
import proofs.«400967_j64424509440774_3_alg».proof.Proof.KInputs
import proofs.«400967_j64424509440774_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

namespace Stage0

/-! ## One tile's affine map, entry by entry -/

/-- The product's left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summed position on its columns; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summed position on its rows … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile's product into a zero accumulator: entry `(p, q)` is the sum over `k` of row `p` of the left factor times
    column `q` of the right one. -/
theorem tile_product (x : FVec Ideal S5000x128 .bf16) (w : FVec Ideal S128x128 .bf16) (p : Fin 5000) (q : Fin 128) :
    (matmul dot_S5000x128_S128x128_S5000x128_1_0_0_1_n_n none x w (constant S5000x128 .f32 0x00000000#32) : S5000x128.Idx → EReal) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- What every one of the launch's four stores writes: the tile's rows against the transposed weight matrix, plus the
    bias row under every row. -/
def affTile (x : Vec Ideal S5000x128 .f32) (W : Vec Ideal S128x128 .f32) (b : Vec Ideal S1x128 .f32) : FVec Ideal S5000x128 .f32 :=
  addf (matmul dot_S5000x128_S128x128_S5000x128_1_0_0_1_n_n none (truncf .bf16 x bitsLt_bf16_f32)
      (transpose S128x128 [1, 0] (truncf .bf16 W bitsLt_bf16_f32) transposes_S128x128_p1_0_S128x128) (constant S5000x128 .f32 0x00000000#32))
    (broadcastTo S5000x128 (shapeCast S1x128 b shapeCasts_S1x128_S1x128) broadcasts_S1x128_S5000x128)

theorem pay3_eq (x : Vec Ideal S5000x128 .f32) (W : Vec Ideal S128x128 .f32) (b : Vec Ideal S1x128 .f32) :
    k0_pay3 (F := Ideal) x W b = affTile x W b := rfl
theorem pay4_eq (x : Vec Ideal S5000x128 .f32) (W : Vec Ideal S128x128 .f32) (b : Vec Ideal S1x128 .f32) :
    k0_pay4 (F := Ideal) x W b = affTile x W b := rfl
theorem pay5_eq (x : Vec Ideal S5000x128 .f32) (W : Vec Ideal S128x128 .f32) (b : Vec Ideal S1x128 .f32) :
    k0_pay5 (F := Ideal) x W b = affTile x W b := rfl
theorem pay1_eq (x : Vec Ideal S5000x128 .f32) (W : Vec Ideal S128x128 .f32) (b : Vec Ideal S1x128 .f32) :
    k0_pay1 (F := Ideal) (k0_pay2 x) (k0_pay6 W) b = affTile x W b := rfl

/-- Entry `(p, q)` of the tile's affine map. -/
theorem affTile_apply (x : Vec Ideal S5000x128 .f32) (W : Vec Ideal S128x128 .f32) (b : Vec Ideal S1x128 .f32)
    (p : Fin 5000) (q : Fin 128) :
    (affTile x W b : S5000x128.Idx → EReal) (ix2 p q)
      = (∑ k : Fin 128, (x : S5000x128.Idx → EReal) (ix2 p k) * (W : S128x128.Idx → EReal) (ix2 q k)) + (b : S1x128.Idx → EReal) (ix2 0 q) := by
  unfold affTile
  rw [addf_apply, tile_product, shapeCast_self, broadcastTo_1b_ab_apply]
  refine congrArg (· + _) (Finset.sum_congr rfl fun k _ => ?_)
  rw [truncf_apply, transpose_ix2_apply, truncf_apply]

variable (m : Mem) (ρ : Dev nD → PrngReg) (c : Dev nD)

/-! ## What the host leaves before the launch -/

/-- A bias vector re-laid as a one-row matrix. -/
theorem v4_eq : (V1 (F := Ideal) m ρ c main_v4 : S1x128.Idx → EReal)
    = shapeCast S1x128 (m ((c.tc : Thread nD τ).loc main_arg4) : S128.Idx → EReal) shapeCasts_S128_S1x128 := by
  dsimp only [V1, W1, hostOps0]; after_results; rfl
theorem v5_eq : (V1 (F := Ideal) m ρ c main_v5 : S1x128.Idx → EReal)
    = shapeCast S1x128 (m ((c.tc : Thread nD τ).loc main_arg6) : S128.Idx → EReal) shapeCasts_S128_S1x128 := by
  dsimp only [V1, W1, hostOps0]; after_results; rfl
theorem v6_eq : (V1 (F := Ideal) m ρ c main_v6 : S1x128.Idx → EReal)
    = shapeCast S1x128 (m ((c.tc : Thread nD τ).loc main_arg10) : S128.Idx → EReal) shapeCasts_S128_S1x128 := by
  dsimp only [V1, W1, hostOps0]; after_results; rfl
theorem v7_eq : (V1 (F := Ideal) m ρ c main_v7 : S1x128.Idx → EReal)
    = shapeCast S1x128 (m ((c.tc : Thread nD τ).loc main_arg12) : S128.Idx → EReal) shapeCasts_S128_S1x128 := by
  dsimp only [V1, W1, hostOps0]; after_results; rfl

/-- A row of the index table cut out and flattened. -/
theorem v1_eq : (V1 (F := Ideal) m ρ c main_v1 : S800000.Idx → BitVec 32)
    = shapeCast S800000 (extractStridedSlice S1x800000 ![0, 0] (m ((c.tc : Thread nD τ).loc main_arg2) : S2x800000.Idx → BitVec 32) slices_S2x800000_S1x800000_0_0) shapeCasts_S1x800000_S800000 := by
  dsimp only [V1, W1, hostOps0]; after_results; rfl
theorem v3_eq : (V1 (F := Ideal) m ρ c main_v3 : S800000.Idx → BitVec 32)
    = shapeCast S800000 (extractStridedSlice S1x800000 ![1, 0] (m ((c.tc : Thread nD τ).loc main_arg2) : S2x800000.Idx → BitVec 32) slices_S2x800000_S1x800000_1_0) shapeCasts_S1x800000_S800000 := by
  dsimp only [V1, W1, hostOps0]; after_results; rfl

/-- The host writes none of the launch's argument arrays. -/
theorem arg0_eq : (V1 (F := Ideal) m ρ c main_arg0 : S50000x128.Idx → EReal)
    = (m ((c.tc : Thread nD τ).loc main_arg0) : S50000x128.Idx → EReal) := by
  dsimp only [V1, W1, hostOps0]; after_results
theorem arg3_eq : (V1 (F := Ideal) m ρ c main_arg3 : S128x128.Idx → EReal)
    = (m ((c.tc : Thread nD τ).loc main_arg3) : S128x128.Idx → EReal) := by
  dsimp only [V1, W1, hostOps0]; after_results
theorem arg5_eq : (V1 (F := Ideal) m ρ c main_arg5 : S128x128.Idx → EReal)
    = (m ((c.tc : Thread nD τ).loc main_arg5) : S128x128.Idx → EReal) := by
  dsimp only [V1, W1, hostOps0]; after_results
theorem arg9_eq : (V1 (F := Ideal) m ρ c main_arg9 : S128x128.Idx → EReal)
    = (m ((c.tc : Thread nD τ).loc main_arg9) : S128x128.Idx → EReal) := by
  dsimp only [V1, W1, hostOps0]; after_results
theorem arg11_eq : (V1 (F := Ideal) m ρ c main_arg11 : S128x128.Idx → EReal)
    = (m ((c.tc : Thread nD τ).loc main_arg11) : S128x128.Idx → EReal) := by
  dsimp only [V1, W1, hostOps0]; after_results

/-! ## The tiles' blocks -/

theorem hz : (![0, 0] : Fin 2 → Nat) = fun _ => 0 := funext fun a => by fin_cases a <;> rfl

/-- Tile `t`'s block of a row-tiled window starts at row block `t`; a weight or bias window's block is its whole array. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)
theorem idx_consts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Tile `t`'s block of the node table is its rows `5000 t … 5000 t + 4999`. -/
theorem nf_block (t : Fin cfg0.N) (y : S5000x128.Idx) (k : S50000x128.Idx)
    (hk0 : (k 0).val = 5000 * t.val + (y 0).val) (hk1 : (k 1).val = (y 1).val) :
    (iblk0 (V1 (F := Ideal) m ρ) c 0 t : Vec Ideal S5000x128 .f32) y = (m ((c.tc : Thread nD τ).loc main_arg0) : S50000x128.Idx → EReal) k := by
  obtain ⟨e0, e1, -⟩ := idx_facts t
  unfold iblk0
  rw [View.read_apply]
  show (V1 (F := Ideal) m ρ c main_arg0 : S50000x128.Idx → EReal) _ = _
  rw [arg0_eq]
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- A weight window's block is the whole matrix, a bias window's block the host's one-row copy of the vector. -/
theorem wsg_block (t : Fin cfg0.N) (y : S128x128.Idx) :
    (iblk0 (V1 (F := Ideal) m ρ) c 1 t : Vec Ideal S128x128 .f32) y = (m ((c.tc : Thread nD τ).loc main_arg3) : S128x128.Idx → EReal) y := by
  have e0 : win0_1.index t (0 : Fin 2) = 0 := (idx_consts t).1
  have e1 : win0_1.index t (1 : Fin 2) = 0 := (idx_consts t).2.1
  unfold iblk0
  rw [View.read_apply]
  show (V1 (F := Ideal) m ρ c main_arg3 : S128x128.Idx → EReal) _ = _
  rw [arg3_eq]
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

theorem bsg_block (t : Fin cfg0.N) (q : Fin 128) :
    (iblk0 (V1 (F := Ideal) m ρ) c 2 t : Vec Ideal S1x128 .f32) (ix2 0 q) = (m ((c.tc : Thread nD τ).loc main_arg4) : S128.Idx → EReal) (ix1 q) := by
  have e0 : win0_2.index t (0 : Fin 2) = 0 := (idx_consts t).2.2.1
  have e1 : win0_2.index t (1 : Fin 2) = 0 := (idx_consts t).2.2.2.1
  unfold iblk0
  rw [View.read_apply]
  show (V1 (F := Ideal) m ρ c main_v4 : S1x128.Idx → EReal) _ = _
  rw [v4_eq]
  refine Eq.trans (congrArg _ ?_) (shapeCast_a_1a_apply _ shapeCasts_S128_S1x128 (0 : Fin 1) q)
  funext a
  apply Fin.ext
  match a with
  | ⟨0, _⟩ => show win0_2.index t 0 * 1 + 1 * 0 = 0; rw [e0]
  | ⟨1, _⟩ => show win0_2.index t 1 * 128 + 1 * q.val = q.val; rw [e1]; omega

theorem wdg_block (t : Fin cfg0.N) (y : S128x128.Idx) :
    (iblk0 (V1 (F := Ideal) m ρ) c 3 t : Vec Ideal S128x128 .f32) y = (m ((c.tc : Thread nD τ).loc main_arg5) : S128x128.Idx → EReal) y := by
  have e0 : win0_3.index t (0 : Fin 2) = 0 := (idx_consts t).2.2.2.2.1
  have e1 : win0_3.index t (1 : Fin 2) = 0 := (idx_consts t).2.2.2.2.2.1
  unfold iblk0
  rw [View.read_apply]
  show (V1 (F := Ideal) m ρ c main_arg5 : S128x128.Idx → EReal) _ = _
  rw [arg5_eq]
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem bdg_block (t : Fin cfg0.N) (q : Fin 128) :
    (iblk0 (V1 (F := Ideal) m ρ) c 4 t : Vec Ideal S1x128 .f32) (ix2 0 q) = (m ((c.tc : Thread nD τ).loc main_arg6) : S128.Idx → EReal) (ix1 q) := by
  have e0 : win0_4.index t (0 : Fin 2) = 0 := (idx_consts t).2.2.2.2.2.2.1
  have e1 : win0_4.index t (1 : Fin 2) = 0 := (idx_consts t).2.2.2.2.2.2.2.1
  unfold iblk0
  rw [View.read_apply]
  show (V1 (F := Ideal) m ρ c main_v5 : S1x128.Idx → EReal) _ = _
  rw [v5_eq]
  refine Eq.trans (congrArg _ ?_) (shapeCast_a_1a_apply _ shapeCasts_S128_S1x128 (0 : Fin 1) q)
  funext a
  apply Fin.ext
  match a with
  | ⟨0, _⟩ => show win0_4.index t 0 * 1 + 1 * 0 = 0; rw [e0]
  | ⟨1, _⟩ => show win0_4.index t 1 * 128 + 1 * q.val = q.val; rw [e1]; omega

theorem wsu_block (t : Fin cfg0.N) (y : S128x128.Idx) :
    (iblk0 (V1 (F := Ideal) m ρ) c 5 t : Vec Ideal S128x128 .f32) y = (m ((c.tc : Thread nD τ).loc main_arg9) : S128x128.Idx → EReal) y := by
  have e0 : win0_5.index t (0 : Fin 2) = 0 := (idx_consts t).2.2.2.2.2.2.2.2.1
  have e1 : win0_5.index t (1 : Fin 2) = 0 := (idx_consts t).2.2.2.2.2.2.2.2.2.1
  unfold iblk0
  rw [View.read_apply]
  show (V1 (F := Ideal) m ρ c main_arg9 : S128x128.Idx → EReal) _ = _
  rw [arg9_eq]
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

theorem bsu_block (t : Fin cfg0.N) (q : Fin 128) :
    (iblk0 (V1 (F := Ideal) m ρ) c 6 t : Vec Ideal S1x128 .f32) (ix2 0 q) = (m ((c.tc : Thread nD τ).loc main_arg10) : S128.Idx → EReal) (ix1 q) := by
  have e0 : win0_6.index t (0 : Fin 2) = 0 := (idx_consts t).2.2.2.2.2.2.2.2.2.2.1
  have e1 : win0_6.index t (1 : Fin 2) = 0 := (idx_consts t).2.2.2.2.2.2.2.2.2.2.2.1
  unfold iblk0
  rw [View.read_apply]
  show (V1 (F := Ideal) m ρ c main_v6 : S1x128.Idx → EReal) _ = _
  rw [v6_eq]
  refine Eq.trans (congrArg _ ?_) (shapeCast_a_1a_apply _ shapeCasts_S128_S1x128 (0 : Fin 1) q)
  funext a
  apply Fin.ext
  match a with
  | ⟨0, _⟩ => show win0_6.index t 0 * 1 + 1 * 0 = 0; rw [e0]
  | ⟨1, _⟩ => show win0_6.index t 1 * 128 + 1 * q.val = q.val; rw [e1]; omega

theorem wdu_block (t : Fin cfg0.N) (y : S128x128.Idx) :
    (iblk0 (V1 (F := Ideal) m ρ) c 7 t : Vec Ideal S128x128 .f32) y = (m ((c.tc : Thread nD τ).loc main_arg11) : S128x128.Idx → EReal) y := by
  have e0 : win0_7.index t (0 : Fin 2) = 0 := (idx_consts t).2.2.2.2.2.2.2.2.2.2.2.2.1
  have e1 : win0_7.index t (1 : Fin 2) = 0 := (idx_consts t).2.2.2.2.2.2.2.2.2.2.2.2.2.1
  unfold iblk0
  rw [View.read_apply]
  show (V1 (F := Ideal) m ρ c main_arg11 : S128x128.Idx → EReal) _ = _
  rw [arg11_eq]
  congr 1
  funext a
  apply Fin.ext
  match a with
  | ⟨0, _⟩ => show win0_7.index t 0 * 128 + 1 * (y 0).val = (y 0).val; rw [e0]; omega
  | ⟨1, _⟩ => show win0_7.index t 1 * 128 + 1 * (y 1).val = (y 1).val; rw [e1]; omega

theorem bdu_block (t : Fin cfg0.N) (q : Fin 128) :
    (iblk0 (V1 (F := Ideal) m ρ) c 8 t : Vec Ideal S1x128 .f32) (ix2 0 q) = (m ((c.tc : Thread nD τ).loc main_arg12) : S128.Idx → EReal) (ix1 q) := by
  have e0 : win0_8.index t (0 : Fin 2) = 0 := (idx_consts t).2.2.2.2.2.2.2.2.2.2.2.2.2.2.1
  have e1 : win0_8.index t (1 : Fin 2) = 0 := (idx_consts t).2.2.2.2.2.2.2.2.2.2.2.2.2.2.2
  unfold iblk0
  rw [View.read_apply]
  show (V1 (F := Ideal) m ρ c main_v7 : S1x128.Idx → EReal) _ = _
  rw [v7_eq]
  refine Eq.trans (congrArg _ ?_) (shapeCast_a_1a_apply _ shapeCasts_S128_S1x128 (0 : Fin 1) q)
  funext a
  apply Fin.ext
  match a with
  | ⟨0, _⟩ => show win0_8.index t 0 * 1 + 1 * 0 = 0; rw [e0]
  | ⟨1, _⟩ => show win0_8.index t 1 * 128 + 1 * q.val = q.val; rw [e1]; omega

/-! ## A tile's entries are the table's -/

/-- If a tile holds rows `5000 t …` of the table and the windows hold a weight matrix and a bias vector, the tile's
    affine map at local entry `j` is the table's affine map at row `5000 t + j₀`, column `j₁`. -/
theorem tile_entry (nf : Fin 50000 → Fin 128 → EReal) (W : Fin 128 → Fin 128 → EReal) (b : Fin 128 → EReal)
    (t : Nat) (x : Vec Ideal S5000x128 .f32) (Wv : Vec Ideal S128x128 .f32) (bv : Vec Ideal S1x128 .f32)
    (hx : ∀ (p : Fin 5000) (k : Fin 128) (r : Fin 50000), r.val = 5000 * t + p.val → (x : S5000x128.Idx → EReal) (ix2 p k) = nf r k)
    (hW : ∀ q k : Fin 128, (Wv : S128x128.Idx → EReal) (ix2 q k) = W q k)
    (hb : ∀ q : Fin 128, (bv : S1x128.Idx → EReal) (ix2 0 q) = b q)
    (j : S5000x128.Idx) (r : Fin 50000) (q : Fin 128) (hr : r.val = 5000 * t + (j 0).val) (hq : q.val = (j 1).val) :
    (affTile x Wv bv : S5000x128.Idx → EReal) j = EdgeGate.lin nf W b r q := by
  obtain ⟨p, q', rfl⟩ : ∃ (p : Fin 5000) (q' : Fin 128), j = ix2 p q' := ⟨j 0, j 1, eq_ix2 j⟩
  obtain rfl : q = q' := Fin.ext hq
  rw [affTile_apply]
  unfold EdgeGate.lin
  rw [hb]
  refine congrArg (· + _) (Finset.sum_congr rfl fun k _ => ?_)
  rw [hx p k r hr, hW]

/-- The node table's rows in tile `t`, as the layer's data name them. -/
theorem nf_rows (t : Fin cfg0.N) (p : Fin 5000) (k : Fin 128) (r : Fin 50000) (hr : r.val = 5000 * t.val + p.val) :
    ((iblk0 (V1 (F := Ideal) m ρ) c 0 t) : Vec Ideal S5000x128 .f32) (ix2 p k) = (inputsOf m c).nf r k :=
  nf_block m ρ c t (ix2 p k) (ix2 r k) hr rfl

/-- The source gate map as one array: what the first whole-width output window ends holding. -/
def sgArr : S50000x128.Idx → EReal := fun i => EdgeGate.lin (inputsOf m c).nf (inputsOf m c).Wsg (inputsOf m c).bsg (i 0) (i 1)

/-- Tile `t` writes back its block of that array. -/
theorem flushed9_eq (t : Fin cfg0.N) :
    (dat0 (V1 (F := Ideal) m ρ) c).flushed 9 t = ((cfg0.win 9).blk t).view.read (Elt Ideal) (sgArr m c) := by
  show (cfg0.win 9).cut (grid0.coords t) ((dat0 (V1 (F := Ideal) m ρ) c).after 9 t) = _
  rw [after0_9]
  unfold out0_9
  rw [View.canon_unit_zero hz]
  simp only [View.ld_unit_zero (S := S5000x128) hz, View.ld_unit_zero (S := S128x128) hz, View.ld_unit_zero (S := S1x128) hz]
  rw [pay3_eq]
  have e0 : win0_9.index t (0 : Fin 2) = t.val := (idx_facts t).2.2.1
  have e1 : win0_9.index t (1 : Fin 2) = 0 := (idx_facts t).2.2.2.1
  funext j
  show (affTile (iblk0 (V1 (F := Ideal) m ρ) c 0 t) (iblk0 (V1 (F := Ideal) m ρ) c 1 t) (iblk0 (V1 (F := Ideal) m ρ) c 2 t) : S5000x128.Idx → EReal) j = sgArr m c (((cfg0.win 9).blk t).view.emb j)
  refine tile_entry (inputsOf m c).nf (inputsOf m c).Wsg (inputsOf m c).bsg t.val (iblk0 (V1 (F := Ideal) m ρ) c 0 t) (iblk0 (V1 (F := Ideal) m ρ) c 1 t) (iblk0 (V1 (F := Ideal) m ρ) c 2 t)
    (nf_rows m ρ c t) (fun q k => wsg_block m ρ c t (ix2 q k)) (fun q => bsg_block m ρ c t q) j _ _ ?_ ?_
  · show win0_9.index t 0 * 5000 + 1 * (j 0).val = 5000 * t.val + (j 0).val
    rw [e0]; omega
  · show win0_9.index t 1 * 128 + 1 * (j 1).val = (j 1).val
    rw [e1]; omega

theorem mem_blk9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v8_0).slice (win0_9.rect t)).set ↔ _
  rw [View.set_slice_whole, Rect.mem_set_unit]
  exact Iff.rfl

/-- Row `r` lies in tile `r / 5000`. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  have e0 : win0_9.index t (0 : Fin 2) = t.val := (idx_facts t).2.2.1
  have e1 : win0_9.index t (1 : Fin 2) = 0 := (idx_facts t).2.2.2.1
  refine ⟨t, flush0_9 t, ?_⟩
  rw [mem_blk9]
  intro a
  match a with
  | ⟨0, _⟩ => show win0_9.index t 0 * 5000 ≤ (i 0).val ∧ (i 0).val < win0_9.index t 0 * 5000 + 5000; rw [e0, ht]; omega
  | ⟨1, _⟩ => show win0_9.index t 1 * 128 ≤ (i 1).val ∧ (i 1).val < win0_9.index t 1 * 128 + 128; rw [e1]; omega

theorem final9 : (dat0 (V1 (F := Ideal) m ρ) c).arrAt 9 cfg0.N = sgArr m c :=
  (dat0 (V1 (F := Ideal) m ρ) c).arrAt_eq_of_cover 9 (sgArr m c) (fun t _ => flushed9_eq m ρ c t) (cover9)

/-- The source update map as one array: what the last output window ends holding. -/
def suArr : S50000x128.Idx → EReal := fun i => EdgeGate.lin (inputsOf m c).nf (inputsOf m c).Wsu (inputsOf m c).bsu (i 0) (i 1)

/-- Tile `t` writes back its block of that array. -/
theorem flushed11_eq (t : Fin cfg0.N) :
    (dat0 (V1 (F := Ideal) m ρ) c).flushed 11 t = ((cfg0.win 11).blk t).view.read (Elt Ideal) (suArr m c) := by
  show (cfg0.win 11).cut (grid0.coords t) ((dat0 (V1 (F := Ideal) m ρ) c).after 11 t) = _
  rw [after0_11]
  unfold out0_11
  rw [View.canon_unit_zero hz]
  simp only [View.ld_unit_zero (S := S5000x128) hz, View.ld_unit_zero (S := S128x128) hz, View.ld_unit_zero (S := S1x128) hz]
  rw [pay1_eq]
  have e0 : win0_11.index t (0 : Fin 2) = t.val := (idx_facts t).2.2.2.2.2.2.1
  have e1 : win0_11.index t (1 : Fin 2) = 0 := (idx_facts t).2.2.2.2.2.2.2
  funext j
  show (affTile (iblk0 (V1 (F := Ideal) m ρ) c 0 t) (iblk0 (V1 (F := Ideal) m ρ) c 5 t) (iblk0 (V1 (F := Ideal) m ρ) c 6 t) : S5000x128.Idx → EReal) j = suArr m c (((cfg0.win 11).blk t).view.emb j)
  refine tile_entry (inputsOf m c).nf (inputsOf m c).Wsu (inputsOf m c).bsu t.val (iblk0 (V1 (F := Ideal) m ρ) c 0 t) (iblk0 (V1 (F := Ideal) m ρ) c 5 t) (iblk0 (V1 (F := Ideal) m ρ) c 6 t)
    (nf_rows m ρ c t) (fun q k => wsu_block m ρ c t (ix2 q k)) (fun q => bsu_block m ρ c t q) j _ _ ?_ ?_
  · show win0_11.index t 0 * 5000 + 1 * (j 0).val = 5000 * t.val + (j 0).val
    rw [e0]; omega
  · show win0_11.index t 1 * 128 + 1 * (j 1).val = (j 1).val
    rw [e1]; omega

theorem mem_blk11 (t : Fin cfg0.N) (i : S50000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v8_2).slice (win0_11.rect t)).set ↔ _
  rw [View.set_slice_whole, Rect.mem_set_unit]
  exact Iff.rfl

/-- Row `r` lies in tile `r / 5000`. -/
theorem cover11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  have e0 : win0_11.index t (0 : Fin 2) = t.val := (idx_facts t).2.2.2.2.2.2.1
  have e1 : win0_11.index t (1 : Fin 2) = 0 := (idx_facts t).2.2.2.2.2.2.2
  refine ⟨t, flush0_11 t, ?_⟩
  rw [mem_blk11]
  intro a
  match a with
  | ⟨0, _⟩ => show win0_11.index t 0 * 5000 ≤ (i 0).val ∧ (i 0).val < win0_11.index t 0 * 5000 + 5000; rw [e0, ht]; omega
  | ⟨1, _⟩ => show win0_11.index t 1 * 128 ≤ (i 1).val ∧ (i 1).val < win0_11.index t 1 * 128 + 128; rw [e1]; omega

theorem final11 : (dat0 (V1 (F := Ideal) m ρ) c).arrAt 11 cfg0.N = suArr m c :=
  (dat0 (V1 (F := Ideal) m ρ) c).arrAt_eq_of_cover 11 (suArr m c) (fun t _ => flushed11_eq m ρ c t) (cover11)

/-! ## The packed window: two maps side by side -/

/-- The array the packed window ends holding: columns 0–127 the destination gate map, 128–255 the destination update map. -/
def dArr : S50000x256.Idx → EReal := fun i =>
  if h : (i 1).val < 128 then EdgeGate.lin (inputsOf m c).nf (inputsOf m c).Wdg (inputsOf m c).bdg (i 0) ⟨(i 1).val, h⟩
  else EdgeGate.lin (inputsOf m c).nf (inputsOf m c).Wdu (inputsOf m c).bdu (i 0) ⟨(i 1).val - 128, by have : (i 1).val < 256 := (i 1).isLt; omega⟩

/-- Two half-width stores, the right half stored last, leave a function `G` of the packed tile as soon as each payload
    is `G` on its half. -/
theorem packed_tile (G : S5000x256.Idx → EReal) (L R : FVec Ideal S5000x128 .f32)
    (hL : ∀ (p : Fin 5000) (q : Fin 128), (L : S5000x128.Idx → EReal) (ix2 p q) = G (ix2 p (Fin.castAdd 128 q)))
    (hR : ∀ (p : Fin 5000) (q : Fin 128), (R : S5000x128.Idx → EReal) (ix2 p q) = G (ix2 p (Fin.natAdd 128 q)))
    (j : S5000x256.Idx) :
    (View.canon ([⟨r0_4, R⟩, ⟨r0_3, L⟩] : List (View.Piece (Elt Ideal) S5000x256 .f32)) : S5000x256.Idx → EReal) j = G j := by
  have hy := cover0_10 (F := Ideal) R L j
  refine View.canon_apply_of_pieces G ([⟨r0_4, R⟩, ⟨r0_3, L⟩] : List (View.Piece (Elt Ideal) S5000x256 .f32)) ?_ j hy
  intro pc hpc x
  rcases List.mem_cons.mp hpc with rfl | hpc
  · obtain ⟨p, q, rfl⟩ : ∃ (p : Fin 5000) (q : Fin 128), x = ix2 p q := ⟨x 0, x 1, eq_ix2 x⟩
    refine (hR p q).trans (congrArg G ?_)
    funext a
    apply Fin.ext
    match a with
    | ⟨0, _⟩ => show p.val = 0 + 1 * p.val; omega
    | ⟨1, _⟩ => show 128 + q.val = 128 + 1 * q.val; omega
  · rcases List.mem_cons.mp hpc with rfl | hpc
    · obtain ⟨p, q, rfl⟩ : ∃ (p : Fin 5000) (q : Fin 128), x = ix2 p q := ⟨x 0, x 1, eq_ix2 x⟩
      refine (hL p q).trans (congrArg G ?_)
      funext a
      apply Fin.ext
      match a with
      | ⟨0, _⟩ => show p.val = 0 + 1 * p.val; omega
      | ⟨1, _⟩ => show q.val = 0 + 1 * q.val; omega
    · exact absurd hpc List.not_mem_nil

/-- Tile `t` writes back its block of the packed array. -/
theorem flushed10_eq (t : Fin cfg0.N) :
    (dat0 (V1 (F := Ideal) m ρ) c).flushed 10 t = ((cfg0.win 10).blk t).view.read (Elt Ideal) (dArr m c) := by
  show (cfg0.win 10).cut (grid0.coords t) ((dat0 (V1 (F := Ideal) m ρ) c).after 10 t) = _
  rw [after0_10]
  unfold out0_10
  simp only [View.ld_unit_zero (S := S5000x128) hz, View.ld_unit_zero (S := S128x128) hz, View.ld_unit_zero (S := S1x128) hz]
  rw [pay5_eq, pay4_eq]
  have e0 : win0_10.index t (0 : Fin 2) = t.val := (idx_facts t).2.2.2.2.1
  have e1 : win0_10.index t (1 : Fin 2) = 0 := (idx_facts t).2.2.2.2.2.1
  have hN : t.val < 10 := Nat.lt_of_lt_of_eq t.isLt N_0
  funext j
  show (View.canon ([⟨r0_4, affTile (iblk0 (V1 (F := Ideal) m ρ) c 0 t) (iblk0 (V1 (F := Ideal) m ρ) c 7 t) (iblk0 (V1 (F := Ideal) m ρ) c 8 t)⟩, ⟨r0_3, affTile (iblk0 (V1 (F := Ideal) m ρ) c 0 t) (iblk0 (V1 (F := Ideal) m ρ) c 3 t) (iblk0 (V1 (F := Ideal) m ρ) c 4 t)⟩] : List (View.Piece (Elt Ideal) S5000x256 .f32)) : S5000x256.Idx → EReal) j
    = dArr m c (((cfg0.win 10).blk t).view.emb j)
  refine (packed_tile (fun y : S5000x256.Idx => dArr m c (ix2 (⟨5000 * t.val + (y 0).val, by have : (y 0).val < 5000 := (y 0).isLt; omega⟩ : Fin 50000) (y 1)))
    (affTile (iblk0 (V1 (F := Ideal) m ρ) c 0 t) (iblk0 (V1 (F := Ideal) m ρ) c 3 t) (iblk0 (V1 (F := Ideal) m ρ) c 4 t)) (affTile (iblk0 (V1 (F := Ideal) m ρ) c 0 t) (iblk0 (V1 (F := Ideal) m ρ) c 7 t) (iblk0 (V1 (F := Ideal) m ρ) c 8 t)) ?_ ?_ j).trans ?_
  · intro p q
    have h1 : ((ix2 (⟨5000 * t.val + p.val, by omega⟩ : Fin 50000) (Fin.castAdd 128 q) : S50000x256.Idx) 1).val < 128 := q.isLt
    show _ = dArr m c (ix2 (⟨5000 * t.val + p.val, _⟩ : Fin 50000) (Fin.castAdd 128 q))
    unfold dArr
    rw [dif_pos h1]
    exact tile_entry (inputsOf m c).nf (inputsOf m c).Wdg (inputsOf m c).bdg t.val (iblk0 (V1 (F := Ideal) m ρ) c 0 t) (iblk0 (V1 (F := Ideal) m ρ) c 3 t) (iblk0 (V1 (F := Ideal) m ρ) c 4 t)
      (nf_rows m ρ c t) (fun q k => wdg_block m ρ c t (ix2 q k)) (fun q => bdg_block m ρ c t q) (ix2 p q) _ _ rfl rfl
  · intro p q
    have h1 : ¬ ((ix2 (⟨5000 * t.val + p.val, by omega⟩ : Fin 50000) (Fin.natAdd 128 q) : S50000x256.Idx) 1).val < 128 := by
      show ¬ (128 + q.val < 128); omega
    show _ = dArr m c (ix2 (⟨5000 * t.val + p.val, _⟩ : Fin 50000) (Fin.natAdd 128 q))
    unfold dArr
    rw [dif_neg h1]
    refine tile_entry (inputsOf m c).nf (inputsOf m c).Wdu (inputsOf m c).bdu t.val (iblk0 (V1 (F := Ideal) m ρ) c 0 t) (iblk0 (V1 (F := Ideal) m ρ) c 7 t) (iblk0 (V1 (F := Ideal) m ρ) c 8 t)
      (nf_rows m ρ c t) (fun q k => wdu_block m ρ c t (ix2 q k)) (fun q => bdu_block m ρ c t q) (ix2 p q) _ _ rfl ?_
    show 128 + q.val - 128 = q.val; omega
  · refine congrArg (dArr m c) ?_
    funext a
    apply Fin.ext
    match a with
    | ⟨0, _⟩ => show 5000 * t.val + (j 0).val = win0_10.index t 0 * 5000 + 1 * (j 0).val; rw [e0]; omega
    | ⟨1, _⟩ => show (j 1).val = win0_10.index t 1 * 256 + 1 * (j 1).val; rw [e1]; omega

theorem mem_blk10 (t : Fin cfg0.N) (i : S50000x256.Idx) :
    i ∈ ((cfg0.win 10).blk t).view.set ↔ ∀ a : Fin 2, win0_10.index t a * S5000x256.size a ≤ (i a).val ∧ (i a).val < win0_10.index t a * S5000x256.size a + S5000x256.size a := by
  show i ∈ ((View.whole main_v8_1).slice (win0_10.rect t)).set ↔ _
  rw [View.set_slice_whole, Rect.mem_set_unit]
  exact Iff.rfl

theorem cover10 (i : S50000x256.Idx) : ∃ t : Fin cfg0.N, (cfg0.win 10).flush t = true ∧ i ∈ ((cfg0.win 10).blk t).view.set := by
  have hi0 : (i 0).val < 50000 := (i 0).isLt
  have hi1 : (i 1).val < 256 := (i 1).isLt
  obtain ⟨t, ht⟩ : ∃ t : Fin cfg0.N, t.val = (i 0).val / 5000 := ⟨⟨(i 0).val / 5000, by rw [show cfg0.N = 10 from N_0]; omega⟩, rfl⟩
  have e0 : win0_10.index t (0 : Fin 2) = t.val := (idx_facts t).2.2.2.2.1
  have e1 : win0_10.index t (1 : Fin 2) = 0 := (idx_facts t).2.2.2.2.2.1
  refine ⟨t, flush0_10 t, ?_⟩
  rw [mem_blk10]
  intro a
  match a with
  | ⟨0, _⟩ => show win0_10.index t 0 * 5000 ≤ (i 0).val ∧ (i 0).val < win0_10.index t 0 * 5000 + 5000; rw [e0, ht]; omega
  | ⟨1, _⟩ => show win0_10.index t 1 * 256 ≤ (i 1).val ∧ (i 1).val < win0_10.index t 1 * 256 + 256; rw [e1]; omega

theorem final10 : (dat0 (V1 (F := Ideal) m ρ) c).arrAt 10 cfg0.N = dArr m c :=
  (dat0 (V1 (F := Ideal) m ρ) c).arrAt_eq_of_cover 10 (dArr m c) (fun t _ => flushed10_eq m ρ c t) (cover10)

theorem packed_eq : (V2 (F := Ideal) m ρ c main_v8_1 : S50000x256.Idx → EReal) = dArr m c :=
  (hF0 (F := Ideal) m ρ c 10).symm.trans (final10 m ρ c)

end Stage0

open Stage0

variable (m : Mem) (ρ : Dev nD → PrngReg) (c : Dev nD)

/-- The source gate map after the first launch. -/
theorem s0_sg (r : Fin 50000) (q : Fin 128) :
    (V2 (F := Ideal) m ρ c main_v8_0 : (⟨2, ![50000, 128]⟩ : Shape).Idx → EReal) (ix2 r q) = EdgeGate.psg (inputsOf m c) r q := by
  have h : (V2 (F := Ideal) m ρ c main_v8_0 : S50000x128.Idx → EReal) = sgArr m c :=
    (hF0 (F := Ideal) m ρ c 9).symm.trans (final9 m ρ c)
  rw [h]; rfl
/-- The destination gate map: the left half of the packed array. -/
theorem s0_dg (r : Fin 50000) (q : Fin 128) :
    (V2 (F := Ideal) m ρ c main_v8_1 : (⟨2, ![50000, 256]⟩ : Shape).Idx → EReal) (ix2 r (Fin.castAdd 128 q)) = EdgeGate.pdg (inputsOf m c) r q := by
  have h1 : ((ix2 r (Fin.castAdd 128 q) : S50000x256.Idx) 1).val < 128 := q.isLt
  rw [packed_eq]
  unfold dArr
  rw [dif_pos h1]
  rfl
/-- The destination update map: the right half of the packed array. -/
theorem s0_du (r : Fin 50000) (q : Fin 128) :
    (V2 (F := Ideal) m ρ c main_v8_1 : (⟨2, ![50000, 256]⟩ : Shape).Idx → EReal) (ix2 r (Fin.natAdd 128 q)) = EdgeGate.pdu (inputsOf m c) r q := by
  have h1 : ¬ ((ix2 r (Fin.natAdd 128 q) : S50000x256.Idx) 1).val < 128 := by
    show ¬ (128 + q.val < 128); omega
  rw [packed_eq]
  unfold dArr
  rw [dif_neg h1]
  show EdgeGate.lin _ _ _ r _ = EdgeGate.lin _ _ _ r q
  congr 1
  exact Fin.ext (by show 128 + q.val - 128 = q.val; omega)
/-- The source update map. -/
theorem s0_su (r : Fin 50000) (q : Fin 128) :
    (V2 (F := Ideal) m ρ c main_v8_2 : (⟨2, ![50000, 128]⟩ : Shape).Idx → EReal) (ix2 r q) = EdgeGate.psu (inputsOf m c) r q := by
  have h : (V2 (F := Ideal) m ρ c main_v8_2 : S50000x128.Idx → EReal) = suArr m c :=
    (hF0 (F := Ideal) m ρ c 11).symm.trans (final11 m ρ c)
  rw [h]; rfl
/-- The index table's first row, cut out before the launch and untouched by it. -/
theorem s0_src (e : Fin 800000) :
    (V2 (F := Ideal) m ρ c main_v1 : (⟨1, ![800000]⟩ : Shape).Idx → BitVec 32) (ix1 e)
      = (m ((c.tc : Thread nD τ).loc main_arg2) : (⟨2, ![2, 800000]⟩ : Shape).Idx → BitVec 32) (ix2 0 e) := by
  have h : (V2 (F := Ideal) m ρ c main_v1 : S800000.Idx → BitVec 32) = V1 (F := Ideal) m ρ c main_v1 :=
    W2_of_ne (F := Ideal) m ρ c main_v1 (by decide)
  rw [h, v1_eq, shapeCast_1a_a_apply]
  exact slice2_axis0_apply 0 _ slices_S2x800000_S1x800000_0_0 (0 : Fin 1) e (0 : Fin 2) rfl
/-- The index table's second row. -/
theorem s0_dst (e : Fin 800000) :
    (V2 (F := Ideal) m ρ c main_v3 : (⟨1, ![800000]⟩ : Shape).Idx → BitVec 32) (ix1 e)
      = (m ((c.tc : Thread nD τ).loc main_arg2) : (⟨2, ![2, 800000]⟩ : Shape).Idx → BitVec 32) (ix2 1 e) := by
  have h : (V2 (F := Ideal) m ρ c main_v3 : S800000.Idx → BitVec 32) = V1 (F := Ideal) m ρ c main_v3 :=
    W2_of_ne (F := Ideal) m ρ c main_v3 (by decide)
  rw [h, v3_eq, shapeCast_1a_a_apply]
  exact slice2_axis0_apply 1 _ slices_S2x800000_S1x800000_1_0 (0 : Fin 1) e (1 : Fin 2) rfl

end Cert.KernelIdeal.Val

end
-- ==== Proof.KStage1Host.lean ====
/-
  Before the second launch: the host takes, for every edge, the source node's row of the source gate map and the
  destination node's row of the packed (destination gate | destination update) map. The take wraps a negative row
  number, tests the range, gathers, and replaces a row outside the range by the fill value; a row number in range is
  not wrapped, passes the test, and reads the row it names. The edge bias is re-laid as a row; nothing else changes.
-/
import proofs.«400967_j64424509440774_3_alg».proof.Proof.KInputs
import proofs.«400967_j64424509440774_3_alg».proof.Proof.Gen.KernelIdeal.Frame
import proofs.«400967_j64424509440774_3_alg».proof.Proof.KStage0
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

variable (m : Mem) (ρ : Dev nD → PrngReg) (c : Dev nD)

namespace Stage1Host

/-! ## A row take read at an entry (no program named) -/

/-- The one entry of a singleton list of axes. -/
theorem getElem_of_eq_singleton {κ : Type} (l : List κ) (a : κ) (hl : l = [a]) (k : Nat) (h : k < l.length) : l[k] = a := by
  subst hl
  have hk : k = 0 := by simpa using h
  subst hk; rfl

/-- A ROW TAKE read at (e, q): a gather of whole rows of an [N × C] table at an [n × 1] column of start indices
    (offset axis 1, collapsed axis 0, start index map [0], index vector on axis 1) reads row
    "start index of e, signed, clamped into the table" at column q. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : ∀ (k : Nat) (h : k < d.batchDims.length), d.batchDims[k] = (0 : Fin 2) := by
        intro k h
        exact getElem_of_eq_singleton d.batchDims 0 (by
          show (⟨2, ![n, C]⟩ : Shape).kept d.offsetDims = [0]
          rw [hoff]
          exact (by decide : ((List.finRange 2).filter (fun a => a ∉ [(1 : Fin 2)])) = [0])) k h
      rw [hbd]
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll]; exact ⟨by simp, hb 1⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [GatherDims.start, dif_neg hm, GatherDims.offCoord, dif_pos hk, Nat.add_zero, Nat.zero_add]
    have hod : ∀ (k : Nat) (h : k < d.offsetDims.length), d.offsetDims[k] = (1 : Fin 2) :=
      fun k h => getElem_of_eq_singleton d.offsetDims 1 hoff k h
    rw [hod]

/-- A vector laid along the rows of an [n × C] rectangle (a column when C = 1) reads, at (e, q), the vector at e. -/
theorem bcast_rows_apply {α : Type} {n C : Nat} (h : (⟨1, ![n]⟩ : Shape).BroadcastsInDim ⟨2, ![n, C]⟩ ![0])
    (v : (⟨1, ![n]⟩ : Shape).Idx → α) (e : Fin n) (q : Fin C) :
    broadcastInDim ⟨2, ![n, C]⟩ ![0] h v (ix2 e q) = v (ix1 e) := by
  simp only [broadcastInDim]
  congr 1
  funext a
  have ha : a = 0 := Subsingleton.elim _ _
  subst ha
  apply Fin.ext
  have hp := e.isLt
  split
  · next h1 => change n = 1 at h1; show (0 : Nat) = e.val; omega
  · rfl

/-- The conjunction of one-bit words with 1 is the word. -/
theorem andi_one (a : BitVec 1) : IntOp.andi a 1#1 = a := by revert a; decide

/-- An and-reduction of an [n × 1] mask along its unit axis, started at 1, is the mask's column. -/
theorem reduce_andi_col {n : Nat} {u : Shape} (x : IVec ⟨2, ![n, 1]⟩ 1) (init : u.Idx → BitVec 1)
    (h : (⟨2, ![n, 1]⟩ : Shape).ReducesTo [1] ⟨1, ![n]⟩) (hu : 0 < u.numel) (hinit : init (Shape.Idx.first hu) = 1#1) (e : Fin n) :
    Host.reduce IntOp.andi x init h hu (ix1 e) = x (ix2 e (0 : Fin 1)) := by
  rw [Host.reduce_eq_fold]
  have hset : (Finset.univ.filter fun i : (⟨2, ![n, 1]⟩ : Shape).Idx => h.drop i = ix1 e) = {ix2 e (0 : Fin 1)} := by
    ext i
    simp only [Finset.mem_filter, Finset.mem_univ, true_and, Finset.mem_singleton]
    have hv : (h.drop i 0 : Nat) = i 0 := Shape.ReducesTo.drop_apply_val h i 0
    constructor
    · intro e'
      funext b
      match b with
      | ⟨0, _⟩ =>
        apply Fin.ext
        show (i 0).val = e.val
        rw [← hv, e']
        rfl
      | ⟨1, _⟩ =>
        apply Fin.ext
        have hlt : (i 1).val < 1 := (i 1).isLt
        show (i 1).val = 0
        omega
    · intro e'
      subst e'
      funext b
      have hb : b = 0 := Subsingleton.elim _ _
      subst hb
      exact Fin.ext hv
  rw [hset, Finset.fold_singleton, hinit, andi_one]

/-- A word that reads non-negative is not below zero … -/
theorem slt_zero_of_nonneg (w : BitVec 32) (h : 0 ≤ w.toInt) : IntOp.cmpi .slt w 0#32 = 0#1 := by
  have h0 : (0#32 : BitVec 32).toInt = 0 := by decide
  simp only [IntOp.cmpi, BitVec.slt, h0]
  rw [decide_eq_false (by omega)]; rfl
/-- … is at least zero … -/
theorem sge_zero_of_nonneg (w : BitVec 32) (h : 0 ≤ w.toInt) : IntOp.cmpi .sge w 0#32 = 1#1 := by
  have h0 : (0#32 : BitVec 32).toInt = 0 := by decide
  simp only [IntOp.cmpi, BitVec.sle, h0]
  rw [decide_eq_true (by omega)]; rfl
/-- … and one that reads below 50000 is at most 49999. -/
theorem sle_last_of_lt (w : BitVec 32) (h : w.toInt < 50000) : IntOp.cmpi .sle w 49999#32 = 1#1 := by
  have h0 : (49999#32 : BitVec 32).toInt = 49999 := by decide
  simp only [IntOp.cmpi, BitVec.sle, h0]
  rw [decide_eq_true (by omega)]; rfl

/-- The column of row numbers the host's take gathers at: a negative number is wrapped by the table's height, and the
    vector is laid as an [n × 1] column. -/
abbrev wrapCol (b0 : (⟨0, ![]⟩ : Shape).BroadcastsInDim ⟨1, ![800000]⟩ ![])
    (b1 : (⟨1, ![800000]⟩ : Shape).BroadcastsInDim ⟨2, ![800000, 1]⟩ ![0])
    (idx : IVec ⟨1, ![800000]⟩ 32) : IVec ⟨2, ![800000, 1]⟩ 32 :=
  broadcastInDim ⟨2, ![800000, 1]⟩ ![0] b1
    (select (cmpi .slt idx (broadcastInDim ⟨1, ![800000]⟩ ![] b0 (constantI ⟨0, ![]⟩ 32 0#32)))
      (addi idx (broadcastInDim ⟨1, ![800000]⟩ ![] b0 (constantI ⟨0, ![]⟩ 32 50000#32))) idx)

/-- The take's range test, per edge: 0 ≤ row number ≤ 49999, and-reduced along the column's unit axis. -/
abbrev rowMask (b2 : (⟨0, ![]⟩ : Shape).BroadcastsInDim ⟨2, ![800000, 1]⟩ ![])
    (b3 : (⟨1, ![1]⟩ : Shape).BroadcastsInDim ⟨2, ![1, 1]⟩ ![1])
    (b4 : (⟨2, ![1, 1]⟩ : Shape).BroadcastsInDim ⟨2, ![800000, 1]⟩ ![0, 1])
    (hr : (⟨2, ![800000, 1]⟩ : Shape).ReducesTo [1] ⟨1, ![800000]⟩) (hu : 0 < (⟨0, ![]⟩ : Shape).numel)
    (col : IVec ⟨2, ![800000, 1]⟩ 32) : IVec ⟨1, ![800000]⟩ 1 :=
  Host.reduce IntOp.andi
    (andi
      (cmpi .sge col (broadcastInDim ⟨2, ![800000, 1]⟩ ![] b2 (constantI ⟨0, ![]⟩ 32 0#32)))
      (cmpi .sle col
        (broadcastInDim ⟨2, ![800000, 1]⟩ ![0, 1] b4 (broadcastInDim ⟨2, ![1, 1]⟩ ![1] b3 (constantI ⟨1, ![1]⟩ 32 49999#32)))))
    (constantI ⟨0, ![]⟩ 1 1#1) hr hu

/-- The take's result: where the test passes the gathered row, elsewhere the fill value. -/
abbrev guarded {C : Nat} (b5 : (⟨1, ![800000]⟩ : Shape).BroadcastsInDim ⟨2, ![800000, C]⟩ ![0])
    (b6 : (⟨0, ![]⟩ : Shape).BroadcastsInDim ⟨2, ![800000, C]⟩ ![])
    (d : GatherDims ⟨2, ![50000, C]⟩ ⟨2, ![800000, 1]⟩ ⟨2, ![800000, C]⟩)
    (mask : IVec ⟨1, ![800000]⟩ 1) (x : (⟨2, ![50000, C]⟩ : Shape).Idx → EReal) (col : IVec ⟨2, ![800000, 1]⟩ 32) :
    (⟨2, ![800000, C]⟩ : Shape).Idx → EReal :=
  select (broadcastInDim ⟨2, ![800000, C]⟩ ![0] b5 mask) (Host.gather d x col)
    (broadcastInDim ⟨2, ![800000, C]⟩ ![] b6 (constant (F := Ideal) ⟨0, ![]⟩ .f32 0x7FC00000#32))

/-- A row number in range is not wrapped. -/
theorem wrapCol_apply (b0 b1) (idx : IVec ⟨1, ![800000]⟩ 32) (e : Fin 800000) (hlo : 0 ≤ (idx (ix1 e)).toInt) :
    wrapCol b0 b1 idx (ix2 e (0 : Fin 1)) = idx (ix1 e) := by
  unfold wrapCol
  rw [bcast_rows_apply]
  show Scalar.select (IntOp.cmpi .slt (idx (ix1 e)) 0#32) (IntOp.addi (idx (ix1 e)) 50000#32) (idx (ix1 e)) = idx (ix1 e)
  rw [slt_zero_of_nonneg _ hlo]
  exact select_zero _ _

/-- A column entry in range passes the test. -/
theorem rowMask_apply (b2 b3 b4 hr hu) (col : IVec ⟨2, ![800000, 1]⟩ 32) (e : Fin 800000)
    (hlo : 0 ≤ (col (ix2 e (0 : Fin 1))).toInt) (hhi : (col (ix2 e (0 : Fin 1))).toInt < 50000) :
    rowMask b2 b3 b4 hr hu col (ix1 e) = 1#1 := by
  unfold rowMask
  rw [reduce_andi_col _ _ _ _ rfl]
  show IntOp.andi (IntOp.cmpi .sge (col (ix2 e (0 : Fin 1))) 0#32) (IntOp.cmpi .sle (col (ix2 e (0 : Fin 1))) 49999#32) = 1#1
  rw [sge_zero_of_nonneg _ hlo, sle_last_of_lt _ hhi]
  rfl

/-- THE HOST'S ROW TAKE AT (e, q): wrap, range test 0 ≤ i ≤ 49999, gather, fill. With the row number of `e` in range
    nothing is wrapped, the test passes, and the entry is the table's at that row. -/
theorem take_rows_apply {C : Nat}
    (d : GatherDims ⟨2, ![50000, C]⟩ ⟨2, ![800000, 1]⟩ ⟨2, ![800000, C]⟩)
    (hoff : d.offsetDims = [1]) (hcoll : d.collapsedSliceDims = [0]) (hob : d.operandBatchingDims = [])
    (hsim : d.startIndexMap = [0]) (hivd : d.indexVectorDim = 1)
    (b0 b1 b2 b3 b4 hr hu) (b5 : (⟨1, ![800000]⟩ : Shape).BroadcastsInDim ⟨2, ![800000, C]⟩ ![0])
    (b6 : (⟨0, ![]⟩ : Shape).BroadcastsInDim ⟨2, ![800000, C]⟩ ![])
    (x : (⟨2, ![50000, C]⟩ : Shape).Idx → EReal) (idx : IVec ⟨1, ![800000]⟩ 32)
    (e : Fin 800000) (q : Fin C)
    (hlo : 0 ≤ (idx (ix1 e)).toInt) (hhi : (idx (ix1 e)).toInt < 50000) :
    guarded b5 b6 d (rowMask b2 b3 b4 hr hu (wrapCol b0 b1 idx)) x (wrapCol b0 b1 idx) (ix2 e q)
      = x (ix2 (EdgeGate.rowOf (idx (ix1 e))) q) := by
  have hcol := wrapCol_apply b0 b1 idx e hlo
  have hmask := rowMask_apply b2 b3 b4 hr hu (wrapCol b0 b1 idx) e (by rw [hcol]; exact hlo) (by rw [hcol]; exact hhi)
  unfold guarded
  rw [select_apply, bcast_rows_apply, hmask, select_one, gather_rows d hoff hcoll hob hsim hivd x _ e q (by decide)]
  refine congrArg (fun r => x (ix2 r q)) (Fin.ext ?_)
  show min (wrapCol b0 b1 idx (ix2 e (0 : Fin 1))).toInt.toNat (50000 - 1) = min (idx (ix1 e)).toInt.toNat 49999
  rw [hcol]

/-- A line of host operations run in two parts. -/
theorem after_split {Val : EltTy → Type} (ops : List (HloOp τ sig Val)) (n : Nat) (V : Valuation τ sig Val) :
    StableHlo.after ops V = StableHlo.after (ops.drop n) (StableHlo.after (ops.take n) V) := by
  rw [← StableHlo.after_append, List.take_append_drop]

/-! ## The buffers the stretch does not write -/

/-- The edge table is not written between the two launches. -/
theorem keep_ef : W5 (F := Ideal) m ρ c (Proc.devRef .tc main_arg1) = W2 m ρ c (Proc.devRef .tc main_arg1) :=
  calc W5 (F := Ideal) m ρ c (Proc.devRef .tc main_arg1)
    _ = W4 m ρ c (Proc.devRef .tc main_arg1) := StableHlo.after_of_forall_not_mem (b := Proc.devRef .tc main_arg1) _ _ (List.forall_iff_forall_mem.mp (by
      simp only [hostOps1_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W3 m ρ c (Proc.devRef .tc main_arg1) := StableHlo.after_of_forall_not_mem (b := Proc.devRef .tc main_arg1) _ _ (List.forall_iff_forall_mem.mp (by
      simp only [hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W2 m ρ c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- Nor is the edge weight matrix … -/
theorem keep_Weg : W5 (F := Ideal) m ρ c (Proc.devRef .tc main_arg7) = W2 m ρ c (Proc.devRef .tc main_arg7) :=
  calc W5 (F := Ideal) m ρ c (Proc.devRef .tc main_arg7)
    _ = W4 m ρ c (Proc.devRef .tc main_arg7) := StableHlo.after_of_forall_not_mem (b := Proc.devRef .tc main_arg7) _ _ (List.forall_iff_forall_mem.mp (by
      simp only [hostOps1_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W3 m ρ c (Proc.devRef .tc main_arg7) := StableHlo.after_of_forall_not_mem (b := Proc.devRef .tc main_arg7) _ _ (List.forall_iff_forall_mem.mp (by
      simp only [hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W2 m ρ c (Proc.devRef .tc main_arg7) := StableHlo.after_of_forall_not_mem (b := Proc.devRef .tc main_arg7) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- … the source update map … -/
theorem keep_su : W5 (F := Ideal) m ρ c (Proc.devRef .tc main_v8_2) = W2 m ρ c (Proc.devRef .tc main_v8_2) :=
  calc W5 (F := Ideal) m ρ c (Proc.devRef .tc main_v8_2)
    _ = W4 m ρ c (Proc.devRef .tc main_v8_2) := StableHlo.after_of_forall_not_mem (b := Proc.devRef .tc main_v8_2) _ _ (List.forall_iff_forall_mem.mp (by
      simp only [hostOps1_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W3 m ρ c (Proc.devRef .tc main_v8_2) := StableHlo.after_of_forall_not_mem (b := Proc.devRef .tc main_v8_2) _ _ (List.forall_iff_forall_mem.mp (by
      simp only [hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W2 m ρ c (Proc.devRef .tc main_v8_2) := StableHlo.after_of_forall_not_mem (b := Proc.devRef .tc main_v8_2) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- … or the index table's first row. -/
theorem keep_src : W5 (F := Ideal) m ρ c (Proc.devRef .tc main_v1) = W2 m ρ c (Proc.devRef .tc main_v1) :=
  calc W5 (F := Ideal) m ρ c (Proc.devRef .tc main_v1)
    _ = W4 m ρ c (Proc.devRef .tc main_v1) := StableHlo.after_of_forall_not_mem (b := Proc.devRef .tc main_v1) _ _ (List.forall_iff_forall_mem.mp (by
      simp only [hostOps1_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W3 m ρ c (Proc.devRef .tc main_v1) := StableHlo.after_of_forall_not_mem (b := Proc.devRef .tc main_v1) _ _ (List.forall_iff_forall_mem.mp (by
      simp only [hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W2 m ρ c (Proc.devRef .tc main_v1) := StableHlo.after_of_forall_not_mem (b := Proc.devRef .tc main_v1) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- The first take's result is not written after it. -/
theorem keep_take0 : W5 (F := Ideal) m ρ c (Proc.devRef .tc main_v9) = W3 m ρ c (Proc.devRef .tc main_v9) :=
  calc W5 (F := Ideal) m ρ c (Proc.devRef .tc main_v9)
    _ = W4 m ρ c (Proc.devRef .tc main_v9) := StableHlo.after_of_forall_not_mem (b := Proc.devRef .tc main_v9) _ _ (List.forall_iff_forall_mem.mp (by
      simp only [hostOps1_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W3 m ρ c (Proc.devRef .tc main_v9) := StableHlo.after_of_forall_not_mem (b := Proc.devRef .tc main_v9) _ _ (List.forall_iff_forall_mem.mp (by
      simp only [hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- Nor is the second take's. -/
theorem keep_take1 : W5 (F := Ideal) m ρ c (Proc.devRef .tc main_v10) = W4 m ρ c (Proc.devRef .tc main_v10) :=
  calc W5 (F := Ideal) m ρ c (Proc.devRef .tc main_v10)
    _ = W4 m ρ c (Proc.devRef .tc main_v10) := StableHlo.after_of_forall_not_mem (b := Proc.devRef .tc main_v10) _ _ (List.forall_iff_forall_mem.mp (by
      simp only [hostOps1_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- The edge bias vector is not written by the two takes. -/
theorem keep_beg : W4 (F := Ideal) m ρ c (Proc.devRef .tc main_arg8) = W2 m ρ c (Proc.devRef .tc main_arg8) :=
  calc W4 (F := Ideal) m ρ c (Proc.devRef .tc main_arg8)
    _ = W3 m ρ c (Proc.devRef .tc main_arg8) := StableHlo.after_of_forall_not_mem (b := Proc.devRef .tc main_arg8) _ _ (List.forall_iff_forall_mem.mp (by
      simp only [hostOps1_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = W2 m ρ c (Proc.devRef .tc main_arg8) := StableHlo.after_of_forall_not_mem (b := Proc.devRef .tc main_arg8) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- The first take writes neither the index table's second row … -/
theorem keep_dst : W3 (F := Ideal) m ρ c (Proc.devRef .tc main_v3) = W2 m ρ c (Proc.devRef .tc main_v3) :=
  calc W3 (F := Ideal) m ρ c (Proc.devRef .tc main_v3)
    _ = W2 m ρ c (Proc.devRef .tc main_v3) := StableHlo.after_of_forall_not_mem (b := Proc.devRef .tc main_v3) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- … nor the packed destination maps. -/
theorem keep_dgu : W3 (F := Ideal) m ρ c (Proc.devRef .tc main_v8_1) = W2 m ρ c (Proc.devRef .tc main_v8_1) :=
  calc W3 (F := Ideal) m ρ c (Proc.devRef .tc main_v8_1)
    _ = W2 m ρ c (Proc.devRef .tc main_v8_1) := StableHlo.after_of_forall_not_mem (b := Proc.devRef .tc main_v8_1) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- Up to the first launch's end the edge table is as launched … -/
theorem launch_ef : W2 (F := Ideal) m ρ c (Proc.devRef .tc main_arg1) = m ((c.tc : Thread nD τ).loc main_arg1) :=
  calc W2 (F := Ideal) m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = m ((c.tc : Thread nD τ).loc main_arg1) := rfl

/-- … and so are the edge weight matrix … -/
theorem launch_Weg : W2 (F := Ideal) m ρ c (Proc.devRef .tc main_arg7) = m ((c.tc : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = m ((c.tc : Thread nD τ).loc main_arg7) := rfl

/-- … and the edge bias vector. -/
theorem launch_beg : W2 (F := Ideal) m ρ c (Proc.devRef .tc main_arg8) = m ((c.tc : Thread nD τ).loc main_arg8) :=
  calc W2 (F := Ideal) m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
    _ = m ((c.tc : Thread nD τ).loc main_arg8) := rfl

/-! ### The first take (`hostOps1`) in three parts: the wrapped column, the range test, the guarded gather -/

/-- After the first eight operations the column buffer holds the wrapped row numbers as a column. -/
theorem take0_col (V : Valuation τ sig (Elt Ideal)) :
    (StableHlo.after ((hostOps1 (F := Ideal)).take 8) V (Proc.devRef .tc main_call0_v5) : (⟨2, ![800000, 1]⟩ : Shape).Idx → BitVec 32)
      = wrapCol bcast_S_S800000 bcast_S800000_S800000x1_0 (V (Proc.devRef .tc main_v1)) := by
  simp only [hostOps1, List.take]
  after_results_simp <;> (try simp only [StableHlo.TRef.ofBuf, StableHlo.TRef.toBuf, cast_eq]) <;> with_reducible rfl
/-- They do not write the table. -/
theorem take0_tblA (V : Valuation τ sig (Elt Ideal)) :
    StableHlo.after ((hostOps1 (F := Ideal)).take 8) V (Proc.devRef .tc main_v8_0) = V (Proc.devRef .tc main_v8_0) :=
  StableHlo.after_of_forall_not_mem (b := Proc.devRef .tc main_v8_0) _ _ (List.forall_iff_forall_mem.mp (by
      simp only [hostOps1, List.take, List.drop, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
/-- After the next ten the test buffer holds the range test of the column. -/
theorem take0_mask (V : Valuation τ sig (Elt Ideal)) :
    (StableHlo.after (((hostOps1 (F := Ideal)).drop 8).take 10) V (Proc.devRef .tc main_call0_v12) : (⟨1, ![800000]⟩ : Shape).Idx → BitVec 1)
      = rowMask bcast_S_S800000x1 bcast_S1_S1x1_1 bcast_S1x1_S800000x1_0_1 reducesTo_S800000x1_S800000_d1 h_S_
          (V (Proc.devRef .tc main_call0_v5)) := by
  simp only [hostOps1, List.take, List.drop]
  after_results_simp <;> (try simp only [StableHlo.TRef.ofBuf, StableHlo.TRef.toBuf, cast_eq]) <;> with_reducible rfl
/-- They write neither the column … -/
theorem take0_colB (V : Valuation τ sig (Elt Ideal)) :
    StableHlo.after (((hostOps1 (F := Ideal)).drop 8).take 10) V (Proc.devRef .tc main_call0_v5) = V (Proc.devRef .tc main_call0_v5) :=
  StableHlo.after_of_forall_not_mem (b := Proc.devRef .tc main_call0_v5) _ _ (List.forall_iff_forall_mem.mp (by
      simp only [hostOps1, List.take, List.drop, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
/-- … nor the table. -/
theorem take0_tblB (V : Valuation τ sig (Elt Ideal)) :
    StableHlo.after (((hostOps1 (F := Ideal)).drop 8).take 10) V (Proc.devRef .tc main_v8_0) = V (Proc.devRef .tc main_v8_0) :=
  StableHlo.after_of_forall_not_mem (b := Proc.devRef .tc main_v8_0) _ _ (List.forall_iff_forall_mem.mp (by
      simp only [hostOps1, List.take, List.drop, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
/-- The last five gather the table's rows at the column and keep them where the test passed. -/
theorem take0_out (V : Valuation τ sig (Elt Ideal)) :
    (StableHlo.after (((hostOps1 (F := Ideal)).drop 8).drop 10) V (Proc.devRef .tc main_v9) : (⟨2, ![800000, 128]⟩ : Shape).Idx → EReal)
      = guarded bcast_S800000_S800000x128_0 bcast_S_S800000x128 gather_S50000x128_S800000x1_S800000x128_1_0_n_n_0_1_1128
          (V (Proc.devRef .tc main_call0_v12)) (V (Proc.devRef .tc main_v8_0)) (V (Proc.devRef .tc main_call0_v5)) := by
  simp only [hostOps1, List.drop]
  after_results_simp <;> (try simp only [StableHlo.TRef.ofBuf, StableHlo.TRef.toBuf, cast_eq]) <;> with_reducible rfl

/-- The first take, from any contents: at an edge whose source row number is in range, the source gate map's row of that number. -/
theorem take0_apply (V : Valuation τ sig (Elt Ideal)) (e : Fin 800000) (q : Fin 128)
    (hlo : 0 ≤ ((V (Proc.devRef .tc main_v1) : (⟨1, ![800000]⟩ : Shape).Idx → BitVec 32) (ix1 e)).toInt)
    (hhi : ((V (Proc.devRef .tc main_v1) : (⟨1, ![800000]⟩ : Shape).Idx → BitVec 32) (ix1 e)).toInt < 50000) :
    (StableHlo.after hostOps1 V (Proc.devRef .tc main_v9) : (⟨2, ![800000, 128]⟩ : Shape).Idx → EReal) (ix2 e q)
      = (V (Proc.devRef .tc main_v8_0) : (⟨2, ![50000, 128]⟩ : Shape).Idx → EReal)
          (ix2 (EdgeGate.rowOf ((V (Proc.devRef .tc main_v1) : (⟨1, ![800000]⟩ : Shape).Idx → BitVec 32) (ix1 e))) q) := by
  rw [after_split (hostOps1 (F := Ideal)) 8 V, after_split ((hostOps1 (F := Ideal)).drop 8) 10, take0_out, take0_mask, take0_colB,
    take0_tblB, take0_col, take0_tblA]
  exact take_rows_apply gather_S50000x128_S800000x1_S800000x128_1_0_n_n_0_1_1128 rfl rfl rfl rfl rfl _ _ _ _ _ _ _ _ _ _ _ e q hlo hhi

/-! ### The second take (`hostOps1_1`) in three parts: the wrapped column, the range test, the guarded gather -/

/-- After the first eight operations the column buffer holds the wrapped row numbers as a column. -/
theorem take1_col (V : Valuation τ sig (Elt Ideal)) :
    (StableHlo.after ((hostOps1_1 (F := Ideal)).take 8) V (Proc.devRef .tc main_call1_v5) : (⟨2, ![800000, 1]⟩ : Shape).Idx → BitVec 32)
      = wrapCol bcast_S_S800000 bcast_S800000_S800000x1_0 (V (Proc.devRef .tc main_v3)) := by
  simp only [hostOps1_1, List.take]
  after_results_simp <;> (try simp only [StableHlo.TRef.ofBuf, StableHlo.TRef.toBuf, cast_eq]) <;> with_reducible rfl
/-- They do not write the table. -/
theorem take1_tblA (V : Valuation τ sig (Elt Ideal)) :
    StableHlo.after ((hostOps1_1 (F := Ideal)).take 8) V (Proc.devRef .tc main_v8_1) = V (Proc.devRef .tc main_v8_1) :=
  StableHlo.after_of_forall_not_mem (b := Proc.devRef .tc main_v8_1) _ _ (List.forall_iff_forall_mem.mp (by
      simp only [hostOps1_1, List.take, List.drop, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
/-- After the next ten the test buffer holds the range test of the column. -/
theorem take1_mask (V : Valuation τ sig (Elt Ideal)) :
    (StableHlo.after (((hostOps1_1 (F := Ideal)).drop 8).take 10) V (Proc.devRef .tc main_call1_v12) : (⟨1, ![800000]⟩ : Shape).Idx → BitVec 1)
      = rowMask bcast_S_S800000x1 bcast_S1_S1x1_1 bcast_S1x1_S800000x1_0_1 reducesTo_S800000x1_S800000_d1 h_S_
          (V (Proc.devRef .tc main_call1_v5)) := by
  simp only [hostOps1_1, List.take, List.drop]
  after_results_simp <;> (try simp only [StableHlo.TRef.ofBuf, StableHlo.TRef.toBuf, cast_eq]) <;> with_reducible rfl
/-- They write neither the column … -/
theorem take1_colB (V : Valuation τ sig (Elt Ideal)) :
    StableHlo.after (((hostOps1_1 (F := Ideal)).drop 8).take 10) V (Proc.devRef .tc main_call1_v5) = V (Proc.devRef .tc main_call1_v5) :=
  StableHlo.after_of_forall_not_mem (b := Proc.devRef .tc main_call1_v5) _ _ (List.forall_iff_forall_mem.mp (by
      simp only [hostOps1_1, List.take, List.drop, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
/-- … nor the table. -/
theorem take1_tblB (V : Valuation τ sig (Elt Ideal)) :
    StableHlo.after (((hostOps1_1 (F := Ideal)).drop 8).take 10) V (Proc.devRef .tc main_v8_1) = V (Proc.devRef .tc main_v8_1) :=
  StableHlo.after_of_forall_not_mem (b := Proc.devRef .tc main_v8_1) _ _ (List.forall_iff_forall_mem.mp (by
      simp only [hostOps1_1, List.take, List.drop, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
/-- The last five gather the table's rows at the column and keep them where the test passed. -/
theorem take1_out (V : Valuation τ sig (Elt Ideal)) :
    (StableHlo.after (((hostOps1_1 (F := Ideal)).drop 8).drop 10) V (Proc.devRef .tc main_v10) : (⟨2, ![800000, 256]⟩ : Shape).Idx → EReal)
      = guarded bcast_S800000_S800000x256_0 bcast_S_S800000x256 gather_S50000x256_S800000x1_S800000x256_1_0_n_n_0_1_1256
          (V (Proc.devRef .tc main_call1_v12)) (V (Proc.devRef .tc main_v8_1)) (V (Proc.devRef .tc main_call1_v5)) := by
  simp only [hostOps1_1, List.drop]
  after_results_simp <;> (try simp only [StableHlo.TRef.ofBuf, StableHlo.TRef.toBuf, cast_eq]) <;> with_reducible rfl

/-- The second take: at an edge whose destination row number is in range, the packed destination maps' row of that number. -/
theorem take1_apply (V : Valuation τ sig (Elt Ideal)) (e : Fin 800000) (q : Fin 256)
    (hlo : 0 ≤ ((V (Proc.devRef .tc main_v3) : (⟨1, ![800000]⟩ : Shape).Idx → BitVec 32) (ix1 e)).toInt)
    (hhi : ((V (Proc.devRef .tc main_v3) : (⟨1, ![800000]⟩ : Shape).Idx → BitVec 32) (ix1 e)).toInt < 50000) :
    (StableHlo.after hostOps1_1 V (Proc.devRef .tc main_v10) : (⟨2, ![800000, 256]⟩ : Shape).Idx → EReal) (ix2 e q)
      = (V (Proc.devRef .tc main_v8_1) : (⟨2, ![50000, 256]⟩ : Shape).Idx → EReal)
          (ix2 (EdgeGate.rowOf ((V (Proc.devRef .tc main_v3) : (⟨1, ![800000]⟩ : Shape).Idx → BitVec 32) (ix1 e))) q) := by
  rw [after_split (hostOps1_1 (F := Ideal)) 8 V, after_split ((hostOps1_1 (F := Ideal)).drop 8) 10, take1_out, take1_mask, take1_colB,
    take1_tblB, take1_col, take1_tblA]
  exact take_rows_apply gather_S50000x256_S800000x1_S800000x256_1_0_n_n_0_1_1256 rfl rfl rfl rfl rfl _ _ _ _ _ _ _ _ _ _ _ e q hlo hhi

end Stage1Host

/-- The source node's row of the source gate map, per edge. -/
theorem h1_esrc (hr : InRange m c) (e : Fin 800000) (q : Fin 128) :
    (V5 (F := Ideal) m ρ c main_v9 : (⟨2, ![800000, 128]⟩ : Shape).Idx → EReal) (ix2 e q) = EdgeGate.psg (inputsOf m c) ((inputsOf m c).src e) q := by
  have hsrc : (W2 (F := Ideal) m ρ c (Proc.devRef .tc main_v1) : (⟨1, ![800000]⟩ : Shape).Idx → BitVec 32) (ix1 e)
      = (m ((c.tc : Thread nD τ).loc main_arg2) : (⟨2, ![2, 800000]⟩ : Shape).Idx → BitVec 32) (ix2 0 e) := s0_src m ρ c e
  have h : V5 (F := Ideal) m ρ c main_v9 = StableHlo.after hostOps1 (W2 (F := Ideal) m ρ c) (Proc.devRef .tc main_v9) :=
    Stage1Host.keep_take0 m ρ c
  rw [h, Stage1Host.take0_apply (W2 (F := Ideal) m ρ c) e q (by rw [hsrc]; exact (hr 0 e).1) (by rw [hsrc]; exact (hr 0 e).2), hsrc]
  exact s0_sg m ρ c _ q
/-- The destination node's row of the packed destination maps, per edge. -/
theorem Stage1Host.edge_dst_row (hr : InRange m c) (e : Fin 800000) (j : Fin 256) :
    (V5 (F := Ideal) m ρ c main_v10 : (⟨2, ![800000, 256]⟩ : Shape).Idx → EReal) (ix2 e j)
      = (V2 (F := Ideal) m ρ c main_v8_1 : (⟨2, ![50000, 256]⟩ : Shape).Idx → EReal) (ix2 ((inputsOf m c).dst e) j) := by
  have hdst : (W3 (F := Ideal) m ρ c (Proc.devRef .tc main_v3) : (⟨1, ![800000]⟩ : Shape).Idx → BitVec 32) (ix1 e)
      = (m ((c.tc : Thread nD τ).loc main_arg2) : (⟨2, ![2, 800000]⟩ : Shape).Idx → BitVec 32) (ix2 1 e) := by
    rw [Stage1Host.keep_dst]; exact s0_dst m ρ c e
  have h : V5 (F := Ideal) m ρ c main_v10 = StableHlo.after hostOps1_1 (W3 (F := Ideal) m ρ c) (Proc.devRef .tc main_v10) :=
    Stage1Host.keep_take1 m ρ c
  rw [h, Stage1Host.take1_apply (W3 (F := Ideal) m ρ c) e j (by rw [hdst]; exact (hr 1 e).1) (by rw [hdst]; exact (hr 1 e).2), hdst,
    Stage1Host.keep_dgu]
  rfl
/-- The destination node's row of the destination gate map, per edge. -/
theorem h1_edg (hr : InRange m c) (e : Fin 800000) (q : Fin 128) :
    (V5 (F := Ideal) m ρ c main_v10 : (⟨2, ![800000, 256]⟩ : Shape).Idx → EReal) (ix2 e (Fin.castAdd 128 q)) = EdgeGate.pdg (inputsOf m c) ((inputsOf m c).dst e) q := by
  rw [Stage1Host.edge_dst_row m ρ c hr e (Fin.castAdd 128 q)]
  exact s0_dg m ρ c _ q
/-- The destination node's row of the destination update map, per edge. -/
theorem h1_edu (hr : InRange m c) (e : Fin 800000) (q : Fin 128) :
    (V5 (F := Ideal) m ρ c main_v10 : (⟨2, ![800000, 256]⟩ : Shape).Idx → EReal) (ix2 e (Fin.natAdd 128 q)) = EdgeGate.pdu (inputsOf m c) ((inputsOf m c).dst e) q := by
  rw [Stage1Host.edge_dst_row m ρ c hr e (Fin.natAdd 128 q)]
  exact s0_du m ρ c _ q
/-- The edge bias as a row. -/
theorem h1_beg (q : Fin 128) :
    (V5 (F := Ideal) m ρ c main_v11 : (⟨2, ![1, 128]⟩ : Shape).Idx → EReal) (ix2 0 q) = (inputsOf m c).beg q := by
  have h : (V5 (F := Ideal) m ρ c main_v11 : (⟨2, ![1, 128]⟩ : Shape).Idx → EReal)
      = shapeCast (⟨2, ![1, 128]⟩ : Shape)
          (W4 (F := Ideal) m ρ c (Proc.devRef .tc main_arg8) : (⟨1, ![128]⟩ : Shape).Idx → EReal) shapeCasts_S128_S1x128 := by
    show StableHlo.after hostOps1_2 (W4 (F := Ideal) m ρ c) (Proc.devRef .tc main_v11) = _
    dsimp only [hostOps1_2]
    after_results
    rfl
  rw [h, shapeCast_a_1a_apply, Stage1Host.keep_beg, Stage1Host.launch_beg]
  rfl
/-- The edge table is as launched. -/
theorem h1_ef (e : Fin 800000) (k : Fin 128) :
    (V5 (F := Ideal) m ρ c main_arg1 : (⟨2, ![800000, 128]⟩ : Shape).Idx → EReal) (ix2 e k) = (inputsOf m c).ef e k := by
  have h : V5 (F := Ideal) m ρ c main_arg1 = m ((c.tc : Thread nD τ).loc main_arg1) :=
    (Stage1Host.keep_ef m ρ c).trans (Stage1Host.launch_ef m ρ c)
  rw [h]; rfl
/-- The edge weight matrix is as launched. -/
theorem h1_Weg (r k : Fin 128) :
    (V5 (F := Ideal) m ρ c main_arg7 : (⟨2, ![128, 128]⟩ : Shape).Idx → EReal) (ix2 r k) = (inputsOf m c).Weg r k := by
  have h : V5 (F := Ideal) m ρ c main_arg7 = m ((c.tc : Thread nD τ).loc main_arg7) :=
    (Stage1Host.keep_Weg m ρ c).trans (Stage1Host.launch_Weg m ρ c)
  rw [h]; rfl
/-- The source update map is as the first launch left it. -/
theorem h1_su (r : Fin 50000) (q : Fin 128) :
    (V5 (F := Ideal) m ρ c main_v8_2 : (⟨2, ![50000, 128]⟩ : Shape).Idx → EReal) (ix2 r q) = EdgeGate.psu (inputsOf m c) r q := by
  have h : V5 (F := Ideal) m ρ c main_v8_2 = V2 m ρ c main_v8_2 := Stage1Host.keep_su m ρ c
  rw [h]; exact s0_su m ρ c r q
/-- The index table's first row is still there. -/
theorem h1_src (e : Fin 800000) :
    (V5 (F := Ideal) m ρ c main_v1 : (⟨1, ![800000]⟩ : Shape).Idx → BitVec 32) (ix1 e)
      = (m ((c.tc : Thread nD τ).loc main_arg2) : (⟨2, ![2, 800000]⟩ : Shape).Idx → BitVec 32) (ix2 0 e) := by
  have h : V5 (F := Ideal) m ρ c main_v1 = V2 m ρ c main_v1 := Stage1Host.keep_src m ρ c
  rw [h]; exact s0_src m ρ c e

end Cert.KernelIdeal.Val

end
-- ==== Proof.KStage1.lean ====
/-
  After the second launch: per edge the gate's pre-activation, the gated message beside the gate (columns 0–127 and
  128–255 of one array), and per tile of 4000 edges the column sums of the pre-activations and of their squares (each
  written on all eight rows of the tile's block of the two small arrays). Before the launch the host takes, for every
  edge, the source node's row of the source gate map and the destination node's row of the packed map; a row number in
  range passes the take's range test, so no row is replaced by the fill value.

  The route. The body's arithmetic is read entry by entry: the matrix product into zero is a sum over the contracted
  coordinate, the row reduction is a sum over the 4000 rows, the shape changes and broadcasts move no value. So the four
  output blocks are functions of the five loaded blocks (`yB`, `mB`, and the two column sums). A block of window `w` at
  grid point `t` is rows `4000 t … 4000 t + 3999` of its array (all of it, for the weight matrix and the bias row), so
  what point `t` writes back is block `t` of one whole-array function of the five arrays (`A5` … `A8`); row `r` of the
  long arrays lies in tile `r / 4000` and row `r` of the small ones in tile `r / 8`, so the tiles cover each output array
  and it ends as that function. On the arrays the host prepared the function is the layer's pre-activation.
-/
import proofs.«400967_j64424509440774_3_alg».proof.Proof.KInputs
import proofs.«400967_j64424509440774_3_alg».proof.Proof.Gen.KernelIdeal.Frame
import proofs.«400967_j64424509440774_3_alg».proof.Proof.KStage1Host
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen
open Idealize.ShloMosaic.TcCoe
open Idealize.ShloMosaic.Pipeline (Dat)

/-! ## The body's arithmetic, entry by entry -/

/-- The product's left operand is read at the output's row … -/
theorem dm_lhs_0 (j : S4000x128.Idx) (k : dot_S4000x128_S128x128_S4000x128_1_0_0_1_n_n.contr.Idx) :
    (dot_S4000x128_S128x128_S4000x128_1_0_0_1_n_n.lhsIdx j k 0).val = (j 0).val := rfl
/-- … and at the contracted coordinate; -/
theorem dm_lhs_1 (j : S4000x128.Idx) (k : dot_S4000x128_S128x128_S4000x128_1_0_0_1_n_n.contr.Idx) :
    (dot_S4000x128_S128x128_S4000x128_1_0_0_1_n_n.lhsIdx j k 1).val = (k ⟨0, by decide⟩).val :=
  dot_S4000x128_S128x128_S4000x128_1_0_0_1_n_n.lhsIdx_val_of_single rfl j k
/-- the right operand at the contracted coordinate … -/
theorem dm_rhs_0 (j : S4000x128.Idx) (k : dot_S4000x128_S128x128_S4000x128_1_0_0_1_n_n.contr.Idx) :
    (dot_S4000x128_S128x128_S4000x128_1_0_0_1_n_n.rhsIdx j k 0).val = (k ⟨0, by decide⟩).val :=
  dot_S4000x128_S128x128_S4000x128_1_0_0_1_n_n.rhsIdx_val_of_single rfl j k
/-- … and at the output's column. -/
theorem dm_rhs_1 (j : S4000x128.Idx) (k : dot_S4000x128_S128x128_S4000x128_1_0_0_1_n_n.contr.Idx) :
    (dot_S4000x128_S128x128_S4000x128_1_0_0_1_n_n.rhsIdx j k 1).val = (j 1).val := rfl

/-- The product of a block of rows with a square matrix, into zero, at an entry. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply]
  refine (Equiv.sum_comp (contrEquiv1 dot_S4000x128_S128x128_S4000x128_1_0_0_1_n_n 128 rfl rfl).symm _).symm.trans ?_
  refine Finset.sum_congr rfl fun k _ => ?_
  have hk := contrEquiv1_symm_val dot_S4000x128_S128x128_S4000x128_1_0_0_1_n_n 128 rfl rfl k
  congr 1
  · refine congrArg a (Shape.idx_ext₂ ?_ ?_)
    · exact dm_lhs_0 _ _
    · exact (dm_lhs_1 _ _).trans hk
  · refine congrArg b (Shape.idx_ext₂ ?_ ?_)
    · exact (dm_rhs_0 _ _).trans hk
    · exact dm_rhs_1 _ _

/-- The offsets of a whole-buffer access are zero. -/
theorem offs_zero : (![0, 0] : Fin 2 → Nat) = fun _ => 0 := funext fun a => by fin_cases a <;> rfl

/-- The left half of a packed block of rows. -/
theorem ld_left (x : Vec Ideal S4000x256 .f32) (p : Fin 4000) (q : Fin 128) :
    View.ld x r1_3 (ix2 p q) = x (ix2 p (Fin.castAdd 128 q)) := by
  show x _ = x _
  refine congrArg x (Shape.idx_ext₂ ?_ ?_)
  · show 0 + 1 * p.val = p.val; omega
  · show 0 + 1 * q.val = q.val; omega
/-- The right half of a packed block of rows. -/
theorem ld_right (x : Vec Ideal S4000x256 .f32) (p : Fin 4000) (q : Fin 128) :
    View.ld x r1_4 (ix2 p q) = x (ix2 p (Fin.natAdd 128 q)) := by
  show x _ = x _
  refine congrArg x (Shape.idx_ext₂ ?_ ?_)
  · show 0 + 1 * p.val = p.val; omega
  · show 128 + 1 * q.val = 128 + q.val; omega

/-- The pre-activation block at an entry: the two gathered rows added, then the edge row through the affine map. -/
theorem pay2_ix (v0 : Vec Ideal S4000x128 .f32) (v2 : Vec Ideal S128x128 .f32) (v6 : Vec Ideal S1x128 .f32)
    (v10 v14 : Vec Ideal S4000x128 .f32) (p : Fin 4000) (q : Fin 128) :
    k1_pay2 (F := Ideal) v0 v2 v6 v10 v14 (ix2 p q)
      = (v14 (ix2 p q) + v10 (ix2 p q)) + ((∑ k : Fin 128, v0 (ix2 p k) * v2 (ix2 q k)) + v6 (ix2 0 q)) := by
  unfold k1_pay2
  dsimp only
  rw [shapeCast_self, shapeCast_self, shapeCast_self]
  show (v14 (ix2 p q) + v10 (ix2 p q))
      + (matmul dot_S4000x128_S128x128_S4000x128_1_0_0_1_n_n none (truncf FTy.bf16 v0 bitsLt_bf16_f32)
          (transpose S128x128 [1, 0] (truncf FTy.bf16 v2 bitsLt_bf16_f32) transposes_S128x128_p1_0_S128x128)
          (constant (F := Ideal) S4000x128 FTy.f32 0x00000000#32) (ix2 p q)
        + broadcastTo S4000x128 v6 broadcasts_S1x128_S4000x128 (ix2 p q)) = _
  rw [mm_apply, broadcastTo_apply v6 broadcasts_S1x128_S4000x128 (ix2 p q) (ix2 0 q)
    (fun a => by match a with | ⟨0, _⟩ => rfl | ⟨1, _⟩ => rfl)]
  refine congrArg (fun z => (v14 (ix2 p q) + v10 (ix2 p q)) + (z + v6 (ix2 0 q))) (Finset.sum_congr rfl fun k _ => ?_)
  rw [transpose_apply [1, 0] _ transposes_S128x128_p1_0_S128x128 (ix2 k q) (ix2 q k)
    (fun b => by match b with | ⟨0, _⟩ => rfl | ⟨1, _⟩ => rfl)]
  rfl

/-- The gate block at an entry. -/
theorem pay3_ix (v0 : Vec Ideal S4000x128 .f32) (v2 : Vec Ideal S128x128 .f32) (v6 : Vec Ideal S1x128 .f32)
    (v10 v14 : Vec Ideal S4000x128 .f32) (p : Fin 4000) (q : Fin 128) :
    k1_pay3 (F := Ideal) v0 v2 v6 v10 v14 (ix2 p q) = Ideal.logistic (k1_pay2 (F := Ideal) v0 v2 v6 v10 v14 (ix2 p q)) := rfl
/-- The message block at an entry. -/
theorem pay4_ix (v0 : Vec Ideal S4000x128 .f32) (v2 : Vec Ideal S128x128 .f32) (v6 : Vec Ideal S1x128 .f32)
    (v10 v12 v14 : Vec Ideal S4000x128 .f32) (p : Fin 4000) (q : Fin 128) :
    k1_pay4 (F := Ideal) v0 v2 v6 v10 v12 v14 (ix2 p q)
      = v12 (ix2 p q) * Ideal.logistic (k1_pay2 (F := Ideal) v0 v2 v6 v10 v14 (ix2 p q)) := by
  unfold k1_pay4
  rw [shapeCast_self]
  rfl
/-- A column's sum over the block's rows, as the body lays it on eight rows. -/
theorem colsum_ix (w : FVec Ideal S4000x128 .f32) (j : Fin 8) (q : Fin 128) :
    broadcastTo S8x128 (shapeCast S1x128 (shapeCast S1x128
        (multiReduction (F := Ideal) .add [0] S128 w 0x00000000#32 reduces_S4000x128_S128 (.inl rfl) rfl)
        shapeCasts_S128_S1x128) shapeCasts_S1x128_S1x128) broadcasts_S1x128_S8x128 (ix2 j q)
      = ∑ i : Fin 4000, w (ix2 i q) := by
  rw [shapeCast_self,
    broadcastTo_apply _ broadcasts_S1x128_S8x128 (ix2 j q) (ix2 0 q) (fun a => by match a with | ⟨0, _⟩ => rfl | ⟨1, _⟩ => rfl),
    shapeCast_apply _ shapeCasts_S128_S1x128 (ix2 0 q) (ix1 q) (by rw [Shape.rowMajor_val_one, Shape.rowMajor_val_two]; show q.val = 0 * 128 + q.val; omega)]
  refine (Ideal.multiReduction_add_single w 0x00000000#32 reduces_S4000x128_S128 (.inl rfl) rfl (ix1 q)).trans ?_
  exact Finset.sum_congr rfl fun i _ => congrArg w (Shape.idx_ext₂ rfl rfl)
/-- The column sums of the pre-activation block. -/
theorem pay5_ix (v0 : Vec Ideal S4000x128 .f32) (v2 : Vec Ideal S128x128 .f32) (v6 : Vec Ideal S1x128 .f32)
    (v10 v14 : Vec Ideal S4000x128 .f32) (j : Fin 8) (q : Fin 128) :
    k1_pay5 (F := Ideal) v0 v2 v6 v10 v14 (ix2 j q) = ∑ i : Fin 4000, k1_pay2 (F := Ideal) v0 v2 v6 v10 v14 (ix2 i q) := by
  unfold k1_pay5
  exact colsum_ix _ j q
/-- The column sums of the squared pre-activation block. -/
theorem pay6_ix (v0 : Vec Ideal S4000x128 .f32) (v2 : Vec Ideal S128x128 .f32) (v6 : Vec Ideal S1x128 .f32)
    (v10 v14 : Vec Ideal S4000x128 .f32) (j : Fin 8) (q : Fin 128) :
    k1_pay1 (F := Ideal) (k1_pay6 (F := Ideal) v0 v2 v6 v10 v14) (ix2 j q)
      = ∑ i : Fin 4000, k1_pay2 (F := Ideal) v0 v2 v6 v10 v14 (ix2 i q) * k1_pay2 (F := Ideal) v0 v2 v6 v10 v14 (ix2 i q) := by
  unfold k1_pay1 k1_pay6
  exact colsum_ix (mulf (k1_pay2 (F := Ideal) v0 v2 v6 v10 v14) (k1_pay2 (F := Ideal) v0 v2 v6 v10 v14)) j q

/-! ## The block's mathematics: what the body computes from the five blocks it loads -/

/-- The pre-activation of row `p` of a block of 4000 edges, from the blocks the body loads: the source row, the left
    half of the packed destination row, and the edge row through the affine map. -/
def yB (x0 x1 : Vec Ideal S4000x128 .f32) (x2 : Vec Ideal S4000x256 .f32) (x3 : Vec Ideal S128x128 .f32)
    (x4 : Vec Ideal S1x128 .f32) (p : Fin 4000) (q : Fin 128) : EReal :=
  (x1 (ix2 p q) + x2 (ix2 p (Fin.castAdd 128 q))) + ((∑ k : Fin 128, x0 (ix2 p k) * x3 (ix2 q k)) + x4 (ix2 0 q))

/-- A column of the packed 256-wide arrays folded onto the 128 features. -/
def lo (j : Fin 256) : Fin 128 := ⟨j.val % 128, Nat.mod_lt _ (by decide)⟩

/-- A left-half column folds onto itself, a right-half column onto the column 128 before it. -/
theorem lo_castAdd (q : Fin 128) : lo (Fin.castAdd 128 q) = q :=
  Fin.ext (by show q.val % 128 = q.val; have := q.isLt; omega)
theorem lo_natAdd (q : Fin 128) : lo (Fin.natAdd 128 q) = q :=
  Fin.ext (by show (128 + q.val) % 128 = q.val; have := q.isLt; omega)

/-- The packed output block: the gated message on the left half, the gate on the right half. -/
def mB (x0 x1 : Vec Ideal S4000x128 .f32) (x2 : Vec Ideal S4000x256 .f32) (x3 : Vec Ideal S128x128 .f32)
    (x4 : Vec Ideal S1x128 .f32) (p : Fin 4000) (j : Fin 256) : EReal :=
  if j.val < 128 then x2 (ix2 p (Fin.natAdd 128 (lo j))) * Ideal.logistic (yB x0 x1 x2 x3 x4 p (lo j))
  else Ideal.logistic (yB x0 x1 x2 x3 x4 p (lo j))

/-- The packed block on its left half … -/
theorem mB_left (x0 x1 : Vec Ideal S4000x128 .f32) (x2 : Vec Ideal S4000x256 .f32) (x3 : Vec Ideal S128x128 .f32)
    (x4 : Vec Ideal S1x128 .f32) (p : Fin 4000) (q : Fin 128) :
    mB x0 x1 x2 x3 x4 p (Fin.castAdd 128 q)
      = x2 (ix2 p (Fin.natAdd 128 q)) * Ideal.logistic (yB x0 x1 x2 x3 x4 p q) := by
  unfold mB
  rw [if_pos (show (Fin.castAdd 128 q).val < 128 from q.isLt), lo_castAdd]
/-- … and on its right half. -/
theorem mB_right (x0 x1 : Vec Ideal S4000x128 .f32) (x2 : Vec Ideal S4000x256 .f32) (x3 : Vec Ideal S128x128 .f32)
    (x4 : Vec Ideal S1x128 .f32) (p : Fin 4000) (q : Fin 128) :
    mB x0 x1 x2 x3 x4 p (Fin.natAdd 128 q) = Ideal.logistic (yB x0 x1 x2 x3 x4 p q) := by
  unfold mB
  rw [if_neg (show ¬(Fin.natAdd 128 q).val < 128 from by show ¬(128 + q.val < 128); omega), lo_natAdd]

/-- The body's pre-activation payload over the loaded blocks is `yB`. -/
theorem pay2_blk (x0 x1 : Vec Ideal S4000x128 .f32) (x2 : Vec Ideal S4000x256 .f32) (x3 : Vec Ideal S128x128 .f32)
    (x4 : Vec Ideal S1x128 .f32) (p : Fin 4000) (q : Fin 128) :
    k1_pay2 (F := Ideal) (View.ld x0 r1_0) (View.ld x3 r1_1) (View.ld x4 r1_2) (View.ld x2 r1_3) (View.ld x1 r1_0) (ix2 p q)
      = yB x0 x1 x2 x3 x4 p q := by
  rw [pay2_ix, ld_left, View.ld_unit_zero (S := S4000x128) offs_zero, View.ld_unit_zero (S := S4000x128) offs_zero,
    View.ld_unit_zero (S := S128x128) offs_zero, View.ld_unit_zero (S := S1x128) offs_zero]
  rfl

/-- The first output block. -/
theorem out5_ix (x0 x1 : Vec Ideal S4000x128 .f32) (x2 : Vec Ideal S4000x256 .f32) (x3 : Vec Ideal S128x128 .f32)
    (x4 : Vec Ideal S1x128 .f32) (p : Fin 4000) (q : Fin 128) :
    out1_5 (F := Ideal) x0 x1 x2 x3 x4 (ix2 p q) = yB x0 x1 x2 x3 x4 p q := by
  unfold out1_5
  rw [View.canon_unit_zero offs_zero]
  exact pay2_blk x0 x1 x2 x3 x4 p q

/-- The third output block: each column's sum over the 4000 rows, on all eight rows. -/
theorem out7_ix (x0 x1 : Vec Ideal S4000x128 .f32) (x2 : Vec Ideal S4000x256 .f32) (x3 : Vec Ideal S128x128 .f32)
    (x4 : Vec Ideal S1x128 .f32) (j : Fin 8) (q : Fin 128) :
    out1_7 (F := Ideal) x0 x1 x2 x3 x4 (ix2 j q) = ∑ r : Fin 4000, yB x0 x1 x2 x3 x4 r q := by
  unfold out1_7
  rw [View.canon_unit_zero offs_zero, pay5_ix]
  exact Finset.sum_congr rfl fun r _ => pay2_blk x0 x1 x2 x3 x4 r q

/-- The fourth output block: each column's sum of squares. -/
theorem out8_ix (x0 x1 : Vec Ideal S4000x128 .f32) (x2 : Vec Ideal S4000x256 .f32) (x3 : Vec Ideal S128x128 .f32)
    (x4 : Vec Ideal S1x128 .f32) (j : Fin 8) (q : Fin 128) :
    out1_8 (F := Ideal) x0 x1 x2 x3 x4 (ix2 j q) = ∑ r : Fin 4000, yB x0 x1 x2 x3 x4 r q * yB x0 x1 x2 x3 x4 r q := by
  unfold out1_8
  rw [View.canon_unit_zero offs_zero, pay6_ix]
  exact Finset.sum_congr rfl fun r _ => by rw [pay2_blk x0 x1 x2 x3 x4 r q]

/-- The left and the right half-rectangles place entry `(p, q)` at columns `q` and `128 + q`. -/
theorem emb_left (p : Fin 4000) (q : Fin 128) : r1_3.emb (ix2 p q) = (ix2 p (Fin.castAdd 128 q) : S4000x256.Idx) :=
  Shape.idx_ext₂ (by show 0 + 1 * p.val = p.val; omega) (by show 0 + 1 * q.val = q.val; omega)
theorem emb_right (p : Fin 4000) (q : Fin 128) : r1_4.emb (ix2 p q) = (ix2 p (Fin.natAdd 128 q) : S4000x256.Idx) :=
  Shape.idx_ext₂ (by show 0 + 1 * p.val = p.val; omega) (by show 128 + 1 * q.val = 128 + q.val; omega)

/-- The second output block: two stores, the gate on the right half and the gated message on the left half. -/
theorem out6_ix (x0 x1 : Vec Ideal S4000x128 .f32) (x2 : Vec Ideal S4000x256 .f32) (x3 : Vec Ideal S128x128 .f32)
    (x4 : Vec Ideal S1x128 .f32) (y : S4000x256.Idx) :
    out1_6 (F := Ideal) x0 x1 x2 x3 x4 y = mB x0 x1 x2 x3 x4 (y 0) (y 1) := by
  unfold out1_6
  refine View.canon_apply_of_pieces (Val := Elt Ideal) (S := S4000x256) (e := .f32) (fun y : S4000x256.Idx => mB x0 x1 x2 x3 x4 (y 0) (y 1)) _ ?_ y (cover1_6 _ _ y)
  intro pc hpc
  rcases List.mem_cons.mp hpc with rfl | hpc
  · intro x
    obtain ⟨p, q, rfl⟩ : ∃ (p : Fin 4000) (q : Fin 128), x = ix2 p q := ⟨x 0, x 1, eq_ix2 x⟩
    show k1_pay3 (F := Ideal) _ _ _ _ _ (ix2 p q) = mB x0 x1 x2 x3 x4 ((r1_4.emb (ix2 p q)) 0) ((r1_4.emb (ix2 p q)) 1)
    rw [emb_right, pay3_ix, pay2_blk]
    exact (mB_right x0 x1 x2 x3 x4 p q).symm
  · obtain rfl := List.mem_singleton.mp hpc
    intro x
    obtain ⟨p, q, rfl⟩ : ∃ (p : Fin 4000) (q : Fin 128), x = ix2 p q := ⟨x 0, x 1, eq_ix2 x⟩
    show k1_pay4 (F := Ideal) _ _ _ _ _ _ (ix2 p q) = mB x0 x1 x2 x3 x4 ((r1_3.emb (ix2 p q)) 0) ((r1_3.emb (ix2 p q)) 1)
    rw [emb_left, pay4_ix, pay2_blk, ld_right]
    exact (mB_left x0 x1 x2 x3 x4 p q).symm

/-! ## From blocks to arrays, for any contents `V` of the arrays when the launch starts -/

section Arrays

variable (V : (c : Dev nD) → (b : Ref sig .tc) → Buf (Elt Ideal) ((c : Thread nD τ).loc b)) (c : Dev nD)

/-- Where each window's block sits at grid point t: the edge windows and the outputs at block row t, the two small
    operands at their one block. -/
theorem tile_place : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! Each input window's block at grid point `t`, read at an entry, is its array at the entry the block's place names. -/

theorem blk0 (t : Fin cfg1.N) (y : S4000x128.Idx) (i : S800000x128.Idx)
    (h0 : (i 0).val = 4000 * t.val + (y 0).val) (h1 : (i 1).val = (y 1).val) :
    (iblk1 V c 0 t : Vec Ideal S4000x128 .f32) y = (V c main_arg1 : S800000x128.Idx → EReal) i := by
  obtain ⟨a0, a1, b0, b1, c0, c1, d0, d1, e0, e1, -⟩ := tile_place t
  unfold iblk1
  rw [View.read_apply]
  show V c main_arg1 _ = V c main_arg1 _
  refine congrArg _ (funext fun a => Fin.ext ?_)
  match a with
  | ⟨0, _⟩ => show win1_0.index t (0 : Fin 2) * 4000 + 1 * (y 0).val = (i 0).val; rw [a0, h0]; omega
  | ⟨1, _⟩ => show win1_0.index t (1 : Fin 2) * 128 + 1 * (y 1).val = (i 1).val; rw [a1, h1]; omega

theorem blk1 (t : Fin cfg1.N) (y : S4000x128.Idx) (i : S800000x128.Idx)
    (h0 : (i 0).val = 4000 * t.val + (y 0).val) (h1 : (i 1).val = (y 1).val) :
    (iblk1 V c 1 t : Vec Ideal S4000x128 .f32) y = (V c main_v9 : S800000x128.Idx → EReal) i := by
  obtain ⟨a0, a1, b0, b1, c0, c1, d0, d1, e0, e1, -⟩ := tile_place t
  unfold iblk1
  rw [View.read_apply]
  show V c main_v9 _ = V c main_v9 _
  refine congrArg _ (funext fun a => Fin.ext ?_)
  match a with
  | ⟨0, _⟩ => show win1_1.index t (0 : Fin 2) * 4000 + 1 * (y 0).val = (i 0).val; rw [b0, h0]; omega
  | ⟨1, _⟩ => show win1_1.index t (1 : Fin 2) * 128 + 1 * (y 1).val = (i 1).val; rw [b1, h1]; omega

theorem blk2 (t : Fin cfg1.N) (y : S4000x256.Idx) (i : S800000x256.Idx)
    (h0 : (i 0).val = 4000 * t.val + (y 0).val) (h1 : (i 1).val = (y 1).val) :
    (iblk1 V c 2 t : Vec Ideal S4000x256 .f32) y = (V c main_v10 : S800000x256.Idx → EReal) i := by
  obtain ⟨a0, a1, b0, b1, c0, c1, d0, d1, e0, e1, -⟩ := tile_place t
  unfold iblk1
  rw [View.read_apply]
  show V c main_v10 _ = V c main_v10 _
  refine congrArg _ (funext fun a => Fin.ext ?_)
  match a with
  | ⟨0, _⟩ => show win1_2.index t (0 : Fin 2) * 4000 + 1 * (y 0).val = (i 0).val; rw [c0, h0]; omega
  | ⟨1, _⟩ => show win1_2.index t (1 : Fin 2) * 256 + 1 * (y 1).val = (i 1).val; rw [c1, h1]; omega

theorem blk3 (t : Fin cfg1.N) (y : S128x128.Idx) (i : S128x128.Idx)
    (h0 : (i 0).val = (y 0).val) (h1 : (i 1).val = (y 1).val) :
    (iblk1 V c 3 t : Vec Ideal S128x128 .f32) y = (V c main_arg7 : S128x128.Idx → EReal) i := by
  obtain ⟨a0, a1, b0, b1, c0, c1, d0, d1, e0, e1, -⟩ := tile_place t
  unfold iblk1
  rw [View.read_apply]
  show V c main_arg7 _ = V c main_arg7 _
  refine congrArg _ (funext fun a => Fin.ext ?_)
  match a with
  | ⟨0, _⟩ => show win1_3.index t (0 : Fin 2) * 128 + 1 * (y 0).val = (i 0).val; rw [d0, h0]; omega
  | ⟨1, _⟩ => show win1_3.index t (1 : Fin 2) * 128 + 1 * (y 1).val = (i 1).val; rw [d1, h1]; omega

theorem blk4 (t : Fin cfg1.N) (y : S1x128.Idx) (i : S1x128.Idx)
    (h0 : (i 0).val = (y 0).val) (h1 : (i 1).val = (y 1).val) :
    (iblk1 V c 4 t : Vec Ideal S1x128 .f32) y = (V c main_v11 : S1x128.Idx → EReal) i := by
  obtain ⟨a0, a1, b0, b1, c0, c1, d0, d1, e0, e1, -⟩ := tile_place t
  unfold iblk1
  rw [View.read_apply]
  show V c main_v11 _ = V c main_v11 _
  refine congrArg _ (funext fun a => Fin.ext ?_)
  match a with
  | ⟨0, _⟩ => show win1_4.index t (0 : Fin 2) * 1 + 1 * (y 0).val = (i 0).val; rw [e0, h0]; omega
  | ⟨1, _⟩ => show win1_4.index t (1 : Fin 2) * 128 + 1 * (y 1).val = (i 1).val; rw [e1, h1]; omega

/-- The pre-activation of edge `e` as a function of five arrays: the edge table, the gathered source rows, the packed
    gathered destination rows, the weight matrix and the bias row. -/
def yA (a0 a1 : S800000x128.Idx → EReal) (a2 : S800000x256.Idx → EReal) (a3 : S128x128.Idx → EReal)
    (a4 : S1x128.Idx → EReal) (e : Fin 800000) (q : Fin 128) : EReal :=
  (a1 (ix2 e q) + a2 (ix2 e (Fin.castAdd 128 q))) + ((∑ k : Fin 128, a0 (ix2 e k) * a3 (ix2 q k)) + a4 (ix2 0 q))

/-- The packed array as a function of the same arrays: the gated message on the left half, the gate on the right. -/
def mA (a0 a1 : S800000x128.Idx → EReal) (a2 : S800000x256.Idx → EReal) (a3 : S128x128.Idx → EReal)
    (a4 : S1x128.Idx → EReal) (e : Fin 800000) (j : Fin 256) : EReal :=
  if j.val < 128 then a2 (ix2 e (Fin.natAdd 128 (lo j))) * Ideal.logistic (yA a0 a1 a2 a3 a4 e (lo j))
  else Ideal.logistic (yA a0 a1 a2 a3 a4 e (lo j))

/-- The pre-activation of edge `e` from the arrays the launch reads. -/
def Gy (e : Fin 800000) (q : Fin 128) : EReal :=
  yA (V c main_arg1) (V c main_v9) (V c main_v10) (V c main_arg7) (V c main_v11) e q

/-- The packed output from the arrays the launch reads. -/
def Gm (e : Fin 800000) (j : Fin 256) : EReal :=
  mA (V c main_arg1) (V c main_v9) (V c main_v10) (V c main_arg7) (V c main_v11) e j

/-- The grid has 200 points. -/
theorem t_lt (t : Fin cfg1.N) : t.val < 200 := lt_of_lt_of_eq t.isLt N_1

/-- Row `p` of tile `t`. -/
def erow (t : Fin cfg1.N) (p : Fin 4000) : Fin 800000 :=
  ⟨4000 * t.val + p.val, by have := t_lt t; have := p.isLt; omega⟩
/-- Row `r` of the tile that row `b` of the small arrays belongs to. -/
def trow (b : Fin 1600) (r : Fin 4000) : Fin 800000 :=
  ⟨4000 * (b.val / 8) + r.val, by have := b.isLt; have := r.isLt; omega⟩

/-- The block-level pre-activation at tile `t` is the array-level one on the tile's rows. -/
theorem yB_blk (t : Fin cfg1.N) (p : Fin 4000) (q : Fin 128) :
    yB (iblk1 V c 0 t) (iblk1 V c 1 t) (iblk1 V c 2 t) (iblk1 V c 3 t) (iblk1 V c 4 t) p q = Gy V c (erow t p) q := by
  unfold yB Gy yA
  rw [blk1 V c t (ix2 p q) (ix2 (erow t p) q) rfl rfl,
    blk2 V c t (ix2 p (Fin.castAdd 128 q)) (ix2 (erow t p) (Fin.castAdd 128 q)) rfl rfl,
    blk4 V c t (ix2 0 q) (ix2 0 q) rfl rfl]
  congr 2
  refine Finset.sum_congr rfl fun k _ => ?_
  rw [blk0 V c t (ix2 p k) (ix2 (erow t p) k) rfl rfl, blk3 V c t (ix2 q k) (ix2 q k) rfl rfl]

/-- The same for the packed block. -/
theorem mB_blk (t : Fin cfg1.N) (p : Fin 4000) (j : Fin 256) :
    mB (iblk1 V c 0 t) (iblk1 V c 1 t) (iblk1 V c 2 t) (iblk1 V c 3 t) (iblk1 V c 4 t) p j = Gm V c (erow t p) j := by
  unfold mB Gm mA
  rw [yB_blk V c t p (lo j), show Gy V c (erow t p) (lo j) = yA (V c main_arg1) (V c main_v9) (V c main_v10) (V c main_arg7) (V c main_v11) (erow t p) (lo j) from rfl,
    blk2 V c t (ix2 p (Fin.natAdd 128 (lo j))) (ix2 (erow t p) (Fin.natAdd 128 (lo j))) rfl rfl]

/-- The four output arrays as whole-array functions of the arrays the launch reads. -/
def A5 (i : S800000x128.Idx) : EReal := Gy V c (i 0) (i 1)
def A6 (i : S800000x256.Idx) : EReal := Gm V c (i 0) (i 1)
def A7 (i : S1600x128.Idx) : EReal := ∑ r : Fin 4000, Gy V c (trow (i 0) r) (i 1)
def A8 (i : S1600x128.Idx) : EReal := ∑ r : Fin 4000, Gy V c (trow (i 0) r) (i 1) * Gy V c (trow (i 0) r) (i 1)

/-! What each grid point writes back is its block of one whole-array function. -/

/-- The pre-activation block written back at point `t`. -/
theorem writeback5 (t : Fin cfg1.N) :
    (dat1 V c).flushed 5 t
      = ((cfg1.win 5).blk t).view.read (Elt Ideal) (A5 V c) := by
  obtain ⟨-, -, -, -, -, -, -, -, -, -, f0, f1, -⟩ := tile_place t
  show (cfg1.win 5).cut (grid1.coords t) ((dat1 V c).after 5 t) = _
  rw [after1_5]
  funext j
  obtain ⟨p, q, rfl⟩ : ∃ (p : Fin 4000) (q : Fin 128), j = ix2 p q := ⟨j 0, j 1, eq_ix2 j⟩
  show out1_5 (F := Ideal) _ _ _ _ _ (ix2 p q)
    = Gy V c ((((cfg1.win 5).blk t).view.emb (ix2 p q)) 0) ((((cfg1.win 5).blk t).view.emb (ix2 p q)) 1)
  rw [out5_ix, yB_blk]
  congr 1 <;> apply Fin.ext
  · show 4000 * t.val + p.val = win1_5.index t (0 : Fin 2) * 4000 + 1 * p.val; rw [f0]; omega
  · show q.val = win1_5.index t (1 : Fin 2) * 128 + 1 * q.val; rw [f1]; omega

/-- The packed block written back at point `t`. -/
theorem writeback6 (t : Fin cfg1.N) :
    (dat1 V c).flushed 6 t
      = ((cfg1.win 6).blk t).view.read (Elt Ideal) (A6 V c) := by
  obtain ⟨-, -, -, -, -, -, -, -, -, -, -, -, g0, g1, -⟩ := tile_place t
  show (cfg1.win 6).cut (grid1.coords t) ((dat1 V c).after 6 t) = _
  rw [after1_6]
  funext j
  obtain ⟨p, q, rfl⟩ : ∃ (p : Fin 4000) (q : Fin 256), j = ix2 p q := ⟨j 0, j 1, eq_ix2 j⟩
  show out1_6 (F := Ideal) _ _ _ _ _ (ix2 p q)
    = Gm V c ((((cfg1.win 6).blk t).view.emb (ix2 p q)) 0) ((((cfg1.win 6).blk t).view.emb (ix2 p q)) 1)
  rw [out6_ix]
  show mB _ _ _ _ _ p q = _
  rw [mB_blk]
  congr 1 <;> apply Fin.ext
  · show 4000 * t.val + p.val = win1_6.index t (0 : Fin 2) * 4000 + 1 * p.val; rw [g0]; omega
  · show q.val = win1_6.index t (1 : Fin 2) * 256 + 1 * q.val; rw [g1]; omega

/-- The column sums written back at point `t`: rows `8 t … 8 t + 7` of the small array. -/
theorem writeback7 (t : Fin cfg1.N) :
    (dat1 V c).flushed 7 t
      = ((cfg1.win 7).blk t).view.read (Elt Ideal) (A7 V c) := by
  obtain ⟨-, -, -, -, -, -, -, -, -, -, -, -, -, -, h0, h1, -⟩ := tile_place t
  have ht := t_lt t
  show (cfg1.win 7).cut (grid1.coords t) ((dat1 V c).after 7 t) = _
  rw [after1_7]
  funext j
  obtain ⟨p, q, rfl⟩ : ∃ (p : Fin 8) (q : Fin 128), j = ix2 p q := ⟨j 0, j 1, eq_ix2 j⟩
  show out1_7 (F := Ideal) _ _ _ _ _ (ix2 p q)
    = ∑ r : Fin 4000, Gy V c (trow ((((cfg1.win 7).blk t).view.emb (ix2 p q)) 0) r) ((((cfg1.win 7).blk t).view.emb (ix2 p q)) 1)
  rw [out7_ix]
  refine Finset.sum_congr rfl fun r _ => ?_
  rw [yB_blk]
  congr 1 <;> apply Fin.ext
  · show 4000 * t.val + r.val = 4000 * ((win1_7.index t (0 : Fin 2) * 8 + 1 * p.val) / 8) + r.val
    rw [h0]; have := p.isLt; omega
  · show q.val = win1_7.index t (1 : Fin 2) * 128 + 1 * q.val; rw [h1]; omega

/-- The column sums of squares written back at point `t`. -/
theorem writeback8 (t : Fin cfg1.N) :
    (dat1 V c).flushed 8 t
      = ((cfg1.win 8).blk t).view.read (Elt Ideal) (A8 V c) := by
  obtain ⟨-, -, -, -, -, -, -, -, -, -, -, -, -, -, -, -, k0, k1⟩ := tile_place t
  have ht := t_lt t
  show (cfg1.win 8).cut (grid1.coords t) ((dat1 V c).after 8 t) = _
  rw [after1_8]
  funext j
  obtain ⟨p, q, rfl⟩ : ∃ (p : Fin 8) (q : Fin 128), j = ix2 p q := ⟨j 0, j 1, eq_ix2 j⟩
  show out1_8 (F := Ideal) _ _ _ _ _ (ix2 p q)
    = ∑ r : Fin 4000, Gy V c (trow ((((cfg1.win 8).blk t).view.emb (ix2 p q)) 0) r) ((((cfg1.win 8).blk t).view.emb (ix2 p q)) 1)
        * Gy V c (trow ((((cfg1.win 8).blk t).view.emb (ix2 p q)) 0) r) ((((cfg1.win 8).blk t).view.emb (ix2 p q)) 1)
  rw [out8_ix]
  refine Finset.sum_congr rfl fun r _ => ?_
  rw [yB_blk]
  have e : Gy V c (erow t r) q
      = Gy V c (trow ((((cfg1.win 8).blk t).view.emb (ix2 p q)) 0) r) ((((cfg1.win 8).blk t).view.emb (ix2 p q)) 1) := by
    congr 1 <;> apply Fin.ext
    · show 4000 * t.val + r.val = 4000 * ((win1_8.index t (0 : Fin 2) * 8 + 1 * p.val) / 8) + r.val
      rw [k0]; have := p.isLt; omega
    · show q.val = win1_8.index t (1 : Fin 2) * 128 + 1 * q.val; rw [k1]; omega
  rw [e]

/-! The blocks tile each output array, so each array ends as its whole-array function. -/

/-- An entry is in point `t`'s block of window 5 iff each coordinate is in the block's range. -/
theorem mem_tile5 (t : Fin cfg1.N) (i : S800000x128.Idx) :
    i ∈ ((cfg1.win 5).blk t).view.set
      ↔ ∀ a : Fin 2, win1_5.index t a * S4000x128.size a ≤ (i a).val ∧ (i a).val < win1_5.index t a * S4000x128.size a + S4000x128.size a := by
  show i ∈ ((View.whole main_v12_0).slice (win1_5.rect t)).set ↔ _
  rw [View.set_slice_whole, Rect.mem_set_unit]
  exact Iff.rfl

/-- Row `r` of the array lies in the block of grid point `r / 4000`. -/
theorem tiles_cover5 (i : S800000x128.Idx) :
    ∃ t : Fin cfg1.N, (cfg1.win 5).flush t = true ∧ i ∈ ((cfg1.win 5).blk t).view.set := by
  have hi0 : (i 0).val < 800000 := (i 0).isLt
  have hi1 : (i 1).val < 128 := (i 1).isLt
  have hlt : (i 0).val / 4000 < cfg1.N := lt_of_lt_of_eq (show (i 0).val / 4000 < 200 by omega) N_1.symm
  obtain ⟨-, -, -, -, -, -, -, -, -, -, f0, f1, g0, g1, h0, h1, k0, k1⟩ := tile_place ⟨(i 0).val / 4000, hlt⟩
  refine ⟨⟨(i 0).val / 4000, hlt⟩, flush1_5 _, ?_⟩
  rw [mem_tile5]
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    rw [f0]; show (i 0).val / 4000 * 4000 ≤ (i 0).val ∧ (i 0).val < (i 0).val / 4000 * 4000 + 4000; omega
  | ⟨1, _⟩ =>
    show win1_5.index ⟨(i 0).val / 4000, hlt⟩ (1 : Fin 2) * 128 ≤ (i 1).val
      ∧ (i 1).val < win1_5.index ⟨(i 0).val / 4000, hlt⟩ (1 : Fin 2) * 128 + 128
    rw [f1]; omega

/-- An entry is in point `t`'s block of window 6 iff each coordinate is in the block's range. -/
theorem mem_tile6 (t : Fin cfg1.N) (i : S800000x256.Idx) :
    i ∈ ((cfg1.win 6).blk t).view.set
      ↔ ∀ a : Fin 2, win1_6.index t a * S4000x256.size a ≤ (i a).val ∧ (i a).val < win1_6.index t a * S4000x256.size a + S4000x256.size a := by
  show i ∈ ((View.whole main_v12_1).slice (win1_6.rect t)).set ↔ _
  rw [View.set_slice_whole, Rect.mem_set_unit]
  exact Iff.rfl

/-- Row `r` of the array lies in the block of grid point `r / 4000`. -/
theorem tiles_cover6 (i : S800000x256.Idx) :
    ∃ t : Fin cfg1.N, (cfg1.win 6).flush t = true ∧ i ∈ ((cfg1.win 6).blk t).view.set := by
  have hi0 : (i 0).val < 800000 := (i 0).isLt
  have hi1 : (i 1).val < 256 := (i 1).isLt
  have hlt : (i 0).val / 4000 < cfg1.N := lt_of_lt_of_eq (show (i 0).val / 4000 < 200 by omega) N_1.symm
  obtain ⟨-, -, -, -, -, -, -, -, -, -, f0, f1, g0, g1, h0, h1, k0, k1⟩ := tile_place ⟨(i 0).val / 4000, hlt⟩
  refine ⟨⟨(i 0).val / 4000, hlt⟩, flush1_6 _, ?_⟩
  rw [mem_tile6]
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    rw [g0]; show (i 0).val / 4000 * 4000 ≤ (i 0).val ∧ (i 0).val < (i 0).val / 4000 * 4000 + 4000; omega
  | ⟨1, _⟩ =>
    show win1_6.index ⟨(i 0).val / 4000, hlt⟩ (1 : Fin 2) * 256 ≤ (i 1).val
      ∧ (i 1).val < win1_6.index ⟨(i 0).val / 4000, hlt⟩ (1 : Fin 2) * 256 + 256
    rw [g1]; omega

/-- An entry is in point `t`'s block of window 7 iff each coordinate is in the block's range. -/
theorem mem_tile7 (t : Fin cfg1.N) (i : S1600x128.Idx) :
    i ∈ ((cfg1.win 7).blk t).view.set
      ↔ ∀ a : Fin 2, win1_7.index t a * S8x128.size a ≤ (i a).val ∧ (i a).val < win1_7.index t a * S8x128.size a + S8x128.size a := by
  show i ∈ ((View.whole main_v12_2).slice (win1_7.rect t)).set ↔ _
  rw [View.set_slice_whole, Rect.mem_set_unit]
  exact Iff.rfl

/-- Row `r` of the array lies in the block of grid point `r / 8`. -/
theorem tiles_cover7 (i : S1600x128.Idx) :
    ∃ t : Fin cfg1.N, (cfg1.win 7).flush t = true ∧ i ∈ ((cfg1.win 7).blk t).view.set := by
  have hi0 : (i 0).val < 1600 := (i 0).isLt
  have hi1 : (i 1).val < 128 := (i 1).isLt
  have hlt : (i 0).val / 8 < cfg1.N := lt_of_lt_of_eq (show (i 0).val / 8 < 200 by omega) N_1.symm
  obtain ⟨-, -, -, -, -, -, -, -, -, -, f0, f1, g0, g1, h0, h1, k0, k1⟩ := tile_place ⟨(i 0).val / 8, hlt⟩
  refine ⟨⟨(i 0).val / 8, hlt⟩, flush1_7 _, ?_⟩
  rw [mem_tile7]
  intro a
  match a with
  | ⟨0, _⟩ =>
    show win1_7.index ⟨(i 0).val / 8, hlt⟩ (0 : Fin 2) * 8 ≤ (i 0).val
      ∧ (i 0).val < win1_7.index ⟨(i 0).val / 8, hlt⟩ (0 : Fin 2) * 8 + 8
    rw [h0]; show (i 0).val / 8 * 8 ≤ (i 0).val ∧ (i 0).val < (i 0).val / 8 * 8 + 8; omega
  | ⟨1, _⟩ =>
    show win1_7.index ⟨(i 0).val / 8, hlt⟩ (1 : Fin 2) * 128 ≤ (i 1).val
      ∧ (i 1).val < win1_7.index ⟨(i 0).val / 8, hlt⟩ (1 : Fin 2) * 128 + 128
    rw [h1]; omega

/-- An entry is in point `t`'s block of window 8 iff each coordinate is in the block's range. -/
theorem mem_tile8 (t : Fin cfg1.N) (i : S1600x128.Idx) :
    i ∈ ((cfg1.win 8).blk t).view.set
      ↔ ∀ a : Fin 2, win1_8.index t a * S8x128.size a ≤ (i a).val ∧ (i a).val < win1_8.index t a * S8x128.size a + S8x128.size a := by
  show i ∈ ((View.whole main_v12_3).slice (win1_8.rect t)).set ↔ _
  rw [View.set_slice_whole, Rect.mem_set_unit]
  exact Iff.rfl

/-- Row `r` of the array lies in the block of grid point `r / 8`. -/
theorem tiles_cover8 (i : S1600x128.Idx) :
    ∃ t : Fin cfg1.N, (cfg1.win 8).flush t = true ∧ i ∈ ((cfg1.win 8).blk t).view.set := by
  have hi0 : (i 0).val < 1600 := (i 0).isLt
  have hi1 : (i 1).val < 128 := (i 1).isLt
  have hlt : (i 0).val / 8 < cfg1.N := lt_of_lt_of_eq (show (i 0).val / 8 < 200 by omega) N_1.symm
  obtain ⟨-, -, -, -, -, -, -, -, -, -, f0, f1, g0, g1, h0, h1, k0, k1⟩ := tile_place ⟨(i 0).val / 8, hlt⟩
  refine ⟨⟨(i 0).val / 8, hlt⟩, flush1_8 _, ?_⟩
  rw [mem_tile8]
  intro a
  match a with
  | ⟨0, _⟩ =>
    show win1_8.index ⟨(i 0).val / 8, hlt⟩ (0 : Fin 2) * 8 ≤ (i 0).val
      ∧ (i 0).val < win1_8.index ⟨(i 0).val / 8, hlt⟩ (0 : Fin 2) * 8 + 8
    rw [k0]; show (i 0).val / 8 * 8 ≤ (i 0).val ∧ (i 0).val < (i 0).val / 8 * 8 + 8; omega
  | ⟨1, _⟩ =>
    show win1_8.index ⟨(i 0).val / 8, hlt⟩ (1 : Fin 2) * 128 ≤ (i 1).val
      ∧ (i 1).val < win1_8.index ⟨(i 0).val / 8, hlt⟩ (1 : Fin 2) * 128 + 128
    rw [k1]; omega

/-- Each output array after the launch. -/
theorem array5 : (dat1 V c).arrAt 5 cfg1.N = A5 V c :=
  (dat1 V c).arrAt_eq_of_cover 5 _ (fun t _ => writeback5 V c t) (tiles_cover5)
theorem array6 : (dat1 V c).arrAt 6 cfg1.N = A6 V c :=
  (dat1 V c).arrAt_eq_of_cover 6 _ (fun t _ => writeback6 V c t) (tiles_cover6)
theorem array7 : (dat1 V c).arrAt 7 cfg1.N = A7 V c :=
  (dat1 V c).arrAt_eq_of_cover 7 _ (fun t _ => writeback7 V c t) (tiles_cover7)
theorem array8 : (dat1 V c).arrAt 8 cfg1.N = A8 V c :=
  (dat1 V c).arrAt_eq_of_cover 8 _ (fun t _ => writeback8 V c t) (tiles_cover8)

end Arrays

/-! ## The second launch's exit contents -/

variable (m : Mem) (ρ : Dev nD → PrngReg) (c : Dev nD)

/-- On the arrays the host prepared, the array-level pre-activation is the layer's. -/
theorem Gy_eq (hr : InRange m c) (e : Fin 800000) (q : Fin 128) :
    Gy (V5 (F := Ideal) m ρ) c e q = EdgeGate.y (inputsOf m c) e q := by
  unfold Gy yA
  rw [h1_esrc m ρ c hr e q, h1_edg m ρ c hr e q, h1_beg m ρ c q]
  simp only [h1_ef m ρ c, h1_Weg m ρ c]
  rfl

/-- The gate's pre-activation on every edge. -/
theorem s1_y (hr : InRange m c) (e : Fin 800000) (q : Fin 128) :
    (V6 (F := Ideal) m ρ c main_v12_0 : (⟨2, ![800000, 128]⟩ : Shape).Idx → EReal) (ix2 e q) = EdgeGate.y (inputsOf m c) e q := by
  have h := congrFun ((hF1 (F := Ideal) m ρ c 5).symm.trans (array5 (V5 (F := Ideal) m ρ) c)) (ix2 e q)
  exact h.trans (Gy_eq m ρ c hr e q)
/-- The gated message: the left half of the packed array. -/
theorem s1_m (hr : InRange m c) (e : Fin 800000) (q : Fin 128) :
    (V6 (F := Ideal) m ρ c main_v12_1 : (⟨2, ![800000, 256]⟩ : Shape).Idx → EReal) (ix2 e (Fin.castAdd 128 q)) = EdgeGate.mm (inputsOf m c) e q := by
  have h := congrFun ((hF1 (F := Ideal) m ρ c 6).symm.trans (array6 (V5 (F := Ideal) m ρ) c)) (ix2 e (Fin.castAdd 128 q))
  refine h.trans ?_
  show Gm (V5 (F := Ideal) m ρ) c e (Fin.castAdd 128 q) = _
  unfold Gm mA
  rw [if_pos (show (Fin.castAdd 128 q).val < 128 from q.isLt), lo_castAdd, h1_edu m ρ c hr e q]
  show _ * Ideal.logistic (Gy (V5 (F := Ideal) m ρ) c e q) = _
  rw [Gy_eq m ρ c hr e q]
  rfl
/-- The gate: the right half of the packed array. -/
theorem s1_sg (hr : InRange m c) (e : Fin 800000) (q : Fin 128) :
    (V6 (F := Ideal) m ρ c main_v12_1 : (⟨2, ![800000, 256]⟩ : Shape).Idx → EReal) (ix2 e (Fin.natAdd 128 q)) = EdgeGate.sg (inputsOf m c) e q := by
  have h := congrFun ((hF1 (F := Ideal) m ρ c 6).symm.trans (array6 (V5 (F := Ideal) m ρ) c)) (ix2 e (Fin.natAdd 128 q))
  refine h.trans ?_
  show Gm (V5 (F := Ideal) m ρ) c e (Fin.natAdd 128 q) = _
  unfold Gm mA
  rw [if_neg (show ¬(Fin.natAdd 128 q).val < 128 from by show ¬(128 + q.val < 128); omega), lo_natAdd]
  show Ideal.logistic (Gy (V5 (F := Ideal) m ρ) c e q) = _
  rw [Gy_eq m ρ c hr e q]
  rfl
/-- Tile `t`'s column sums of the pre-activations, on each of its eight rows. -/
theorem s1_sum (hr : InRange m c) (t : Fin 200) (j : Fin 8) (q : Fin 128) :
    (V6 (F := Ideal) m ρ c main_v12_2 : (⟨2, ![1600, 128]⟩ : Shape).Idx → EReal)
        (ix2 (⟨8 * t.val + j.val, by have := t.isLt; have := j.isLt; omega⟩ : Fin 1600) q)
      = ∑ i : Fin 4000, EdgeGate.y (inputsOf m c) (⟨4000 * t.val + i.val, by have := t.isLt; have := i.isLt; omega⟩ : Fin 800000) q := by
  have h := congrFun ((hF1 (F := Ideal) m ρ c 7).symm.trans (array7 (V5 (F := Ideal) m ρ) c))
    (ix2 (⟨8 * t.val + j.val, by have := t.isLt; have := j.isLt; omega⟩ : Fin 1600) q)
  refine h.trans ?_
  show (∑ r : Fin 4000, Gy (V5 (F := Ideal) m ρ) c (trow (⟨8 * t.val + j.val, by have := t.isLt; have := j.isLt; omega⟩ : Fin 1600) r) q) = _
  refine Finset.sum_congr rfl fun i _ => ?_
  refine (Gy_eq m ρ c hr _ _).trans ?_
  congr 1
  apply Fin.ext
  show 4000 * ((8 * t.val + j.val) / 8) + i.val = 4000 * t.val + i.val
  have := j.isLt; omega
/-- Tile `t`'s column sums of the squared pre-activations. -/
theorem s1_sumsq (hr : InRange m c) (t : Fin 200) (j : Fin 8) (q : Fin 128) :
    (V6 (F := Ideal) m ρ c main_v12_3 : (⟨2, ![1600, 128]⟩ : Shape).Idx → EReal)
        (ix2 (⟨8 * t.val + j.val, by have := t.isLt; have := j.isLt; omega⟩ : Fin 1600) q)
      = ∑ i : Fin 4000, EdgeGate.y (inputsOf m c) (⟨4000 * t.val + i.val, by have := t.isLt; have := i.isLt; omega⟩ : Fin 800000) q
          * EdgeGate.y (inputsOf m c) (⟨4000 * t.val + i.val, by have := t.isLt; have := i.isLt; omega⟩ : Fin 800000) q := by
  have h := congrFun ((hF1 (F := Ideal) m ρ c 8).symm.trans (array8 (V5 (F := Ideal) m ρ) c))
    (ix2 (⟨8 * t.val + j.val, by have := t.isLt; have := j.isLt; omega⟩ : Fin 1600) q)
  refine h.trans ?_
  show (∑ r : Fin 4000, Gy (V5 (F := Ideal) m ρ) c (trow (⟨8 * t.val + j.val, by have := t.isLt; have := j.isLt; omega⟩ : Fin 1600) r) q
      * Gy (V5 (F := Ideal) m ρ) c (trow (⟨8 * t.val + j.val, by have := t.isLt; have := j.isLt; omega⟩ : Fin 1600) r) q) = _
  refine Finset.sum_congr rfl fun i _ => ?_
  have e : Gy (V5 (F := Ideal) m ρ) c (trow (⟨8 * t.val + j.val, by have := t.isLt; have := j.isLt; omega⟩ : Fin 1600) i) q
      = EdgeGate.y (inputsOf m c) (⟨4000 * t.val + i.val, by have := t.isLt; have := i.isLt; omega⟩ : Fin 800000) q := by
    refine (Gy_eq m ρ c hr _ _).trans ?_
    congr 1
    apply Fin.ext
    show 4000 * ((8 * t.val + j.val) / 8) + i.val = 4000 * t.val + i.val
    have := j.isLt; omega
  rw [e]
/-- The source update map is as the first launch left it. -/
theorem s1_su (r : Fin 50000) (q : Fin 128) :
    (V6 (F := Ideal) m ρ c main_v8_2 : (⟨2, ![50000, 128]⟩ : Shape).Idx → EReal) (ix2 r q) = EdgeGate.psu (inputsOf m c) r q := by
  have h : V6 (F := Ideal) m ρ c main_v8_2 = V5 (F := Ideal) m ρ c main_v8_2 := W6_of_ne m ρ c main_v8_2 (by decide)
  exact (congrFun h (ix2 r q)).trans (h1_su m ρ c r q)
/-- The index table's first row is still there. -/
theorem s1_src (e : Fin 800000) :
    (V6 (F := Ideal) m ρ c main_v1 : (⟨1, ![800000]⟩ : Shape).Idx → BitVec 32) (ix1 e)
      = (m ((c.tc : Thread nD τ).loc main_arg2) : (⟨2, ![2, 800000]⟩ : Shape).Idx → BitVec 32) (ix2 0 e) := by
  have h : V6 (F := Ideal) m ρ c main_v1 = V5 (F := Ideal) m ρ c main_v1 := W6_of_ne m ρ c main_v1 (by decide)
  exact (congrFun h (ix1 e)).trans (h1_src m ρ c e)

end Cert.KernelIdeal.Val

end
-- ==== Proof.Algebra.lean ====
/-
  The arithmetic that joins the two ways of writing the layer: the float counts and the two small numbers as the
  reals they denote; a column's sum taken tile by tile; the variance as mean of squares minus squared mean; and that
  on finite data every intermediate number is a real, which is what the variance identity needs.
-/
import proofs.«400967_j64424509440774_3_alg».proof.Proof.Spec

noncomputable section

open scoped BigOperators

namespace EdgeGate

open Idealize.ShloMosaic

/-- The node count's float is the number 50000. -/
theorem cntN_eq : cntN = ((50000 : ℝ) : EReal) := by
  unfold cntN
  simp [Ideal.ofBits, Ideal.ieee, -EReal.coe_mul]; norm_num
/-- The edge count's float is the number 800000. -/
theorem cntE_eq : cntE = ((800000 : ℝ) : EReal) := by
  unfold cntE
  simp [Ideal.ofBits, Ideal.ieee, -EReal.coe_mul]; norm_num
/-- The float `1e-6` is a positive real. -/
theorem eps6_pos : ∃ x : ℝ, 0 < x ∧ eps6 = (x : EReal) := by
  unfold eps6
  simp [Ideal.ofBits, Ideal.ieee, -EReal.coe_mul]
/-- The float `1e-5` is a positive real. -/
theorem eps5_pos : ∃ x : ℝ, 0 < x ∧ eps5 = (x : EReal) := by
  unfold eps5
  simp [Ideal.ofBits, Ideal.ieee, -EReal.coe_mul]

/-- A sum over `nt · ts` consecutive numbers is the sum over the `nt` tiles of the sums inside a tile. -/
theorem sum_tiles (nt ts : Nat) (f : Nat → EReal) :
    ∑ t : Fin nt, ∑ i : Fin ts, f (t.val * ts + i.val) = ∑ r : Fin (nt * ts), f r.val := by
  rw [← Equiv.sum_comp finProdFinEquiv (fun r : Fin (nt * ts) => f r.val), Fintype.sum_prod_type]
  refine Finset.sum_congr rfl (fun t _ => Finset.sum_congr rfl (fun i _ => ?_))
  congr 1
  simp only [finProdFinEquiv_apply_val]
  ring

/-- The reals sit inside the extended reals additively: a finite sum of reals is the real sum. -/
theorem coe_sum' {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The variance identity on the reals. With `μ = S / N` and `S = N μ`, expanding the square gives
    `Σ (x - μ)² = Σ x² - 2 μ S + N μ² = Σ x² - N μ²`; divide by `N`. -/
theorem real_var (n : ℕ) (N : ℝ) (hN : (n : ℝ) = N) (hn : N ≠ 0) (x : Fin n → ℝ) :
    (∑ r, x r * x r) * (1 / N) - ((∑ r, x r) * (1 / N)) * ((∑ r, x r) * (1 / N))
      = (∑ r, (x r - (∑ r, x r) * (1 / N)) * (x r - (∑ r, x r) * (1 / N))) * (1 / N) := by
  have hS : (∑ r, x r) = N * ((∑ r, x r) * (1 / N)) := by field_simp
  generalize (∑ r, x r) * (1 / N) = μ at hS ⊢
  have e : ∑ r, (x r - μ) * (x r - μ) = (∑ r, x r * x r) - 2 * μ * (∑ r, x r) + N * (μ * μ) := by
    have h : ∀ r, (x r - μ) * (x r - μ) = x r * x r - 2 * μ * x r + μ * μ := fun r => by ring
    simp only [h, Finset.sum_add_distrib, Finset.sum_sub_distrib, ← Finset.mul_sum, Finset.sum_const,
      Finset.card_univ, Fintype.card_fin, nsmul_eq_mul, hN]
    ring
  rw [e, hS]
  field_simp
  ring

/-- On a column of reals, the mean of the squares minus the squared mean is the mean of the squared deviations. -/
theorem varK_eq_varR {n : Nat} (N : ℝ) (hN : (n : ℝ) = N) (hn : N ≠ 0) (v : Fin n → Fin 128 → EReal) (q : Fin 128)
    (hv : ∀ r, ∃ x : ℝ, v r q = (x : EReal)) : varK (N : EReal) v q = varR (N : EReal) v q := by
  choose x hx using hv
  have hS : (∑ r : Fin n, v r q) = ((∑ r, x r : ℝ) : EReal) := by
    simp only [hx]; exact coe_sum' _ _
  have hμ : mean (N : EReal) v q = (((∑ r, x r) * (1 / N) : ℝ) : EReal) := by
    rw [mean, colsum, Ideal.div_coe hn, hS, ← EReal.coe_mul]
  have hQ : (∑ r : Fin n, v r q * v r q) = ((∑ r, x r * x r : ℝ) : EReal) := by
    simp only [hx, ← EReal.coe_mul]; exact coe_sum' _ _
  have hD : (∑ r : Fin n, (v r q - mean (N : EReal) v q) * (v r q - mean (N : EReal) v q))
      = ((∑ r, (x r - (∑ r, x r) * (1 / N)) * (x r - (∑ r, x r) * (1 / N)) : ℝ) : EReal) := by
    simp only [hx, hμ, ← EReal.coe_sub, ← EReal.coe_mul]; exact coe_sum' _ _
  rw [varK, varR, hD, hQ, hμ, Ideal.div_coe hn, Ideal.div_coe hn, ← EReal.coe_mul, ← EReal.coe_mul,
    ← EReal.coe_mul, ← EReal.coe_sub]
  exact congrArg _ (real_var n N hN hn x)

/-- An affine map with real entries, applied to a table of reals, gives reals. -/
theorem lin_real {n : Nat} (x : Fin n → Fin 128 → EReal) (W : Fin 128 → Fin 128 → EReal) (b : Fin 128 → EReal)
    (hx : ∀ r k, ∃ a : ℝ, x r k = (a : EReal)) (hW : ∀ r k, ∃ a : ℝ, W r k = (a : EReal))
    (hb : ∀ k, ∃ a : ℝ, b k = (a : EReal)) (r : Fin n) (q : Fin 128) : ∃ a : ℝ, lin x W b r q = (a : EReal) := by
  choose xr hxr using hx
  choose Wr hWr using hW
  choose br hbr using hb
  refine ⟨(∑ k, xr r k * Wr q k) + br q, ?_⟩
  rw [lin]
  simp only [hxr, hWr, hbr, ← EReal.coe_mul]
  rw [coe_sum', ← EReal.coe_add]

/-- On finite data every gate pre-activation is a real. -/
theorem y_real (I : Inputs) (hI : I.Finite) (e : Fin 800000) (q : Fin 128) : ∃ x : ℝ, y I e q = (x : EReal) := by
  obtain ⟨a, ha⟩ := lin_real I.nf I.Wsg I.bsg hI.nf hI.Wsg hI.bsg (I.src e) q
  obtain ⟨b, hb⟩ := lin_real I.nf I.Wdg I.bdg hI.nf hI.Wdg hI.bdg (I.dst e) q
  obtain ⟨c, hc⟩ := lin_real I.ef I.Weg I.beg hI.ef hI.Weg hI.beg e q
  exact ⟨a + b + c, by rw [y, psg, pdg, peg, ha, hb, hc, ← EReal.coe_add, ← EReal.coe_add]⟩

/-- On finite data every gate is a positive real: the logistic function of a real `a` is `1 / (1 + exp (-a))`. -/
theorem sg_pos (I : Inputs) (hI : I.Finite) (e : Fin 800000) (q : Fin 128) :
    ∃ x : ℝ, 0 < x ∧ sg I e q = (x : EReal) := by
  obtain ⟨a, ha⟩ := y_real I hI e q
  refine ⟨(1 + Real.exp (-a))⁻¹, by positivity, ?_⟩
  rw [sg, ha, Ideal.logistic_coe]

/-- On finite data every gated message is a real. -/
theorem mm_real (I : Inputs) (hI : I.Finite) (e : Fin 800000) (q : Fin 128) : ∃ x : ℝ, mm I e q = (x : EReal) := by
  obtain ⟨a, ha⟩ := lin_real I.nf I.Wdu I.bdu hI.nf hI.Wdu hI.bdu (I.dst e) q
  obtain ⟨s, -, hs⟩ := sg_pos I hI e q
  exact ⟨a * s, by rw [mm, pdu, ha, hs, ← EReal.coe_mul]⟩
/-- On finite data every node feature before normalisation is a real (the quotient's divisor is positive: a sum of
    gates, each positive, plus a positive number). -/
theorem xp_real (I : Inputs) (hI : I.Finite) (n : Fin 50000) (q : Fin 128) : ∃ x : ℝ, xp I n q = (x : EReal) := by
  choose m hm using fun e => mm_real I hI e q
  choose s hs0 hs using fun e => sg_pos I hI e q
  obtain ⟨ε, hε, he⟩ := eps6_pos
  obtain ⟨a, ha⟩ := lin_real I.nf I.Wsu I.bsu hI.nf hI.Wsu hI.bsu n q
  have h1 : ssh I n q = ((∑ e ∈ Finset.univ.filter (fun e => I.src e = n), m e : ℝ) : EReal) := by
    rw [ssh]; simp only [hm]; exact coe_sum' _ _
  have h2 : ss I n q = ((∑ e ∈ Finset.univ.filter (fun e => I.src e = n), s e : ℝ) : EReal) := by
    rw [ss]; simp only [hs]; exact coe_sum' _ _
  have hpos : (0 : ℝ) < (∑ e ∈ Finset.univ.filter (fun e => I.src e = n), s e) + ε :=
    add_pos_of_nonneg_of_pos (Finset.sum_nonneg fun e _ => (hs0 e).le) hε
  refine ⟨a + (∑ e ∈ Finset.univ.filter (fun e => I.src e = n), m e)
    * (1 / ((∑ e ∈ Finset.univ.filter (fun e => I.src e = n), s e) + ε)), ?_⟩
  rw [xp, psu, ha, h1, h2, he, ← EReal.coe_add, Ideal.div_coe hpos.ne', ← EReal.coe_mul, ← EReal.coe_add]

/-- On finite data the two ways of writing the node output agree. -/
theorem xoutK_eq (I : Inputs) (hI : I.Finite) (n : Fin 50000) (q : Fin 128) : xoutK I n q = xoutR I n q := by
  rw [xoutK, xoutR, cntN_eq,
    varK_eq_varR 50000 (by norm_num) (by norm_num) (xp I) q (fun r => xp_real I hI r q)]
/-- On finite data the two ways of writing the edge output agree. -/
theorem youtK_eq (I : Inputs) (hI : I.Finite) (e : Fin 800000) (q : Fin 128) : youtK I e q = youtR I e q := by
  rw [youtK, youtR, cntE_eq,
    varK_eq_varR 800000 (by norm_num) (by norm_num) (y I) q (fun r => y_real I hI r q)]

end EdgeGate

end
-- ==== Proof.KStage2Host.lean ====
/-
  Between the second and the third launch: the host sums, for every node, the packed (message | gate) rows of the edges
  that leave it — a scatter-add into zeros, where an edge whose row number is in range lands exactly on that node's row —
  and forms the edge table's column statistics from the per-tile sums: row 0 of each tile's block of eight, summed over
  the 200 tiles, over the edge count; the variance as the mean of the squares minus the squared mean.
-/
import proofs.«400967_j64424509440774_3_alg».proof.Proof.KInputs
import proofs.«400967_j64424509440774_3_alg».proof.Proof.Gen.KernelIdeal.Frame
import proofs.«400967_j64424509440774_3_alg».proof.Proof.KStage1
import proofs.«400967_j64424509440774_3_alg».proof.Proof.Algebra
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

variable (m : Mem) (ρ : Dev nD → PrngReg) (c : Dev nD)

/-! ## The column statistic: row 0 of each block of eight, summed over the 200 blocks, over the edge count -/

/-- The column statistic the host forms from a 1600 × 128 array of per-tile sums (each tile's sum on all eight rows of
    its block): row 0 of every block of eight, summed over the 200 blocks, over the edge count, as a 1 × 128 row. -/
def colStat (x : (⟨2, ![1600, 128]⟩ : Shape).Idx → EReal) : (⟨2, ![1, 128]⟩ : Shape).Idx → EReal :=
  shapeCast S1x128
    (Host.divf (F := Ideal) (φ := .f32)
      (Host.reduceAdd (F := Ideal) (φ := .f32)
        (shapeCast S200x128
          (extractStridedSlice S200x1x128 ![0, 0, 0] (shapeCast S200x8x128 x (by decide : S1600x128.ShapeCasts S200x8x128))
            (by decide : S200x8x128.Slices ![0, 0, 0] S200x1x128))
          (by decide : S200x1x128.ShapeCasts S200x128))
        (constant (F := Ideal) S_ .f32 0x00000000#32) (by decide : S200x128.ReducesTo [0] S128) (by decide : 0 < S_.numel))
      (broadcastInDim S128 ![] (by decide : S_.BroadcastsInDim S128 (![] : Fin 0 → Fin S128.rank)) (constant (F := Ideal) S_ .f32 0x49435000#32)))
    (by decide : S128.ShapeCasts S1x128)

/-- Read at column `q`: the sum over the 200 blocks of row `8 k`, over the edge count. -/
theorem colStat_apply (x : (⟨2, ![1600, 128]⟩ : Shape).Idx → EReal) (q : Fin 128) :
    colStat x (ix2 0 q)
      = Ideal.div (∑ k : Fin 200, x (ix2 (⟨8 * k.val, by have := k.isLt; omega⟩ : Fin 1600) q)) EdgeGate.cntE := by
  unfold colStat
  rw [shapeCast_apply _ _ (ix2 (0 : Fin 1) q) (ix1 q) (by
    rw [Shape.rowMajor_val_one, Shape.rowMajor_val_two]; show q.val = 0 * 128 + q.val; omega)]
  show Ideal.div (Ideal.hostReduceAdd _ _ _ (ix1 q)) _ = _
  have hR : S200x128.Reduces [0] S128 := by decide
  rw [Ideal.hostReduceAdd_single _ hR]
  have hb : broadcastInDim S128 ![] (by decide : S_.BroadcastsInDim S128 (![] : Fin 0 → Fin S128.rank))
      (constant (F := Ideal) S_ .f32 0x49435000#32) (ix1 q) = EdgeGate.cntE := rfl
  have h0 : constant (F := Ideal) S_ .f32 0x00000000#32 (Shape.Idx.first (by decide : 0 < S_.numel)) = (0 : EReal) :=
    Ideal.ofBits_zero_f32
  rw [hb, h0, zero_add]
  congr 1
  refine Finset.sum_congr rfl fun (k : Fin 200) _ => ?_
  have hl : hR.lift (ix1 q) k = (ix2 k q : S200x128.Idx) := by
    funext a; refine Fin.ext ?_
    match a with
    | ⟨0, _⟩ => rfl
    | ⟨1, _⟩ => rfl
  rw [hl]
  rw [shapeCast_apply _ _ (ix2 (k : Fin 200) q) (ix3 (k : Fin 200) (0 : Fin 1) q) (by
    rw [Shape.rowMajor_val_two, Shape.rowMajor_val_three]
    show (k.val * 1 + 0) * 128 + q.val = k.val * 128 + q.val; omega)]
  rw [extractStridedSlice_apply _ _ _ (ix3 (k : Fin 200) (0 : Fin 1) q) (ix3 (k : Fin 200) (0 : Fin 8) q) (fun a =>
    match a with
    | ⟨0, _⟩ => by show k.val = 0 + k.val; omega
    | ⟨1, _⟩ => by show 0 = 0 + 0; omega
    | ⟨2, _⟩ => by show q.val = 0 + q.val; omega)]
  rw [shapeCast_apply _ _ (ix3 (k : Fin 200) (0 : Fin 8) q) (ix2 (⟨8 * k.val, by have := k.isLt; omega⟩ : Fin 1600) q) (by
    rw [Shape.rowMajor_val_two, Shape.rowMajor_val_three]
    show (8 * k.val) * 128 + q.val = (k.val * 8 + 0) * 128 + q.val; omega)]

/-- A column of 800000 numbers summed tile by tile (200 tiles of 4000) is the column summed once. -/
theorem sum_by_tiles (v : Fin 800000 → EReal) :
    ∑ t : Fin 200, ∑ i : Fin 4000, v (⟨4000 * t.val + i.val, by have := t.isLt; have := i.isLt; omega⟩ : Fin 800000)
      = ∑ r : Fin 800000, v r := by
  have key := EdgeGate.sum_tiles 200 4000 (fun k => if h : k < 800000 then v ⟨k, h⟩ else 0)
  calc ∑ t : Fin 200, ∑ i : Fin 4000, v (⟨4000 * t.val + i.val, by have := t.isLt; have := i.isLt; omega⟩ : Fin 800000)
      = ∑ t : Fin 200, ∑ i : Fin 4000,
          (fun k => if h : k < 800000 then v ⟨k, h⟩ else 0) (t.val * 4000 + i.val) := by
        refine Finset.sum_congr rfl fun t _ => Finset.sum_congr rfl fun i _ => ?_
        have hlt : t.val * 4000 + i.val < 800000 := by have := t.isLt; have := i.isLt; omega
        show _ = dite (t.val * 4000 + i.val < 800000) (fun h => v ⟨t.val * 4000 + i.val, h⟩) (fun _ => 0)
        rw [dif_pos hlt]
        exact congrArg v (Fin.ext (by show 4000 * t.val + i.val = t.val * 4000 + i.val; omega))
    _ = ∑ r : Fin (200 * 4000), (fun k => if h : k < 800000 then v ⟨k, h⟩ else 0) r.val := key
    _ = ∑ r : Fin 800000, v r := by
        show ∑ r : Fin 800000, (fun k => if h : k < 800000 then v ⟨k, h⟩ else 0) r.val = _
        refine Finset.sum_congr rfl fun r _ => ?_
        show dite (r.val < 800000) (fun h => v ⟨r.val, h⟩) (fun _ => 0) = _
        rw [dif_pos r.isLt]

/-! ## The accumulating scatter: where an update element lands, and the scatter read at an index -/

/-- Where the scatter puts update element `(e, b)`: on the row the index column names at `e`, read as a signed number, in
    column `b` — when that number is a row of the node table. -/
theorem scatter_lands (idx : IVec S800000x1 32) (e : Fin 800000) (b : Fin 256)
    (h0 : 0 ≤ (idx (ix2 e (0 : Fin 1))).toInt) (h1 : (idx (ix2 e (0 : Fin 1))).toInt < 50000) :
    scatter_S50000x256_S800000x1_S800000x256_1_0_0_1.resultIdx? (ix2 e b : S800000x256.Idx) idx
      = some (ix2 (EdgeGate.rowOf (idx (ix2 e (0 : Fin 1)))) b) := by
  have hs0 : scatter_S50000x256_S800000x1_S800000x256_1_0_0_1.start (ix2 e b : S800000x256.Idx) idx (0 : Fin 2)
      = (idx (ix2 e (0 : Fin 1))).toInt := by
    unfold ScatterDims.start
    rw [dif_pos (show (0 : Fin 2) ∈ scatter_S50000x256_S800000x1_S800000x256_1_0_0_1.scatterDimsToOperandDims from
      List.mem_singleton.mpr rfl)]
    congr 2
    funext a; refine Fin.ext ?_
    match a with
    | ⟨0, _⟩ => rfl
    | ⟨1, _⟩ => rfl
  have hs1 : scatter_S50000x256_S800000x1_S800000x256_1_0_0_1.start (ix2 e b : S800000x256.Idx) idx (1 : Fin 2) = 0 := by
    unfold ScatterDims.start
    rw [dif_neg (show ¬ (1 : Fin 2) ∈ scatter_S50000x256_S800000x1_S800000x256_1_0_0_1.scatterDimsToOperandDims by decide)]
  have hw0 : scatter_S50000x256_S800000x1_S800000x256_1_0_0_1.window (ix2 e b : S800000x256.Idx) (0 : Fin 2) = 0 := by
    unfold ScatterDims.window
    rw [dif_neg (show ¬ (0 : Fin 2) ∈ scatter_S50000x256_S800000x1_S800000x256_1_0_0_1.sKept by decide)]
  have hw1 : scatter_S50000x256_S800000x1_S800000x256_1_0_0_1.window (ix2 e b : S800000x256.Idx) (1 : Fin 2) = b.val := by
    unfold ScatterDims.window
    rw [dif_pos (show (1 : Fin 2) ∈ scatter_S50000x256_S800000x1_S800000x256_1_0_0_1.sKept by decide)]
    rfl
  have hin : ∀ a, 0 ≤ scatter_S50000x256_S800000x1_S800000x256_1_0_0_1.start (ix2 e b : S800000x256.Idx) idx a
        + scatter_S50000x256_S800000x1_S800000x256_1_0_0_1.window (ix2 e b : S800000x256.Idx) a
      ∧ scatter_S50000x256_S800000x1_S800000x256_1_0_0_1.start (ix2 e b : S800000x256.Idx) idx a
        + scatter_S50000x256_S800000x1_S800000x256_1_0_0_1.window (ix2 e b : S800000x256.Idx) a < S50000x256.size a := by
    intro a
    match a with
    | ⟨0, _⟩ =>
      show 0 ≤ scatter_S50000x256_S800000x1_S800000x256_1_0_0_1.start (ix2 e b : S800000x256.Idx) idx 0
          + (scatter_S50000x256_S800000x1_S800000x256_1_0_0_1.window (ix2 e b : S800000x256.Idx) 0 : ℤ)
        ∧ scatter_S50000x256_S800000x1_S800000x256_1_0_0_1.start (ix2 e b : S800000x256.Idx) idx 0
          + (scatter_S50000x256_S800000x1_S800000x256_1_0_0_1.window (ix2 e b : S800000x256.Idx) 0 : ℤ) < ((50000 : ℕ) : ℤ)
      rw [hs0, hw0]; omega
    | ⟨1, _⟩ =>
      show 0 ≤ scatter_S50000x256_S800000x1_S800000x256_1_0_0_1.start (ix2 e b : S800000x256.Idx) idx 1
          + (scatter_S50000x256_S800000x1_S800000x256_1_0_0_1.window (ix2 e b : S800000x256.Idx) 1 : ℤ)
        ∧ scatter_S50000x256_S800000x1_S800000x256_1_0_0_1.start (ix2 e b : S800000x256.Idx) idx 1
          + (scatter_S50000x256_S800000x1_S800000x256_1_0_0_1.window (ix2 e b : S800000x256.Idx) 1 : ℤ) < ((256 : ℕ) : ℤ)
      rw [hs1, hw1]; have := b.isLt; omega
  unfold ScatterDims.resultIdx?
  rw [dif_pos hin]
  congr 1
  refine Shape.idx_ext₂ ?_ ?_
  · show (scatter_S50000x256_S800000x1_S800000x256_1_0_0_1.start (ix2 e b : S800000x256.Idx) idx 0
        + (scatter_S50000x256_S800000x1_S800000x256_1_0_0_1.window (ix2 e b : S800000x256.Idx) 0 : ℤ)).toNat
      = min (idx (ix2 e (0 : Fin 1))).toInt.toNat 49999
    rw [hs0, hw0]; omega
  · show (scatter_S50000x256_S800000x1_S800000x256_1_0_0_1.start (ix2 e b : S800000x256.Idx) idx 1
        + (scatter_S50000x256_S800000x1_S800000x256_1_0_0_1.window (ix2 e b : S800000x256.Idx) 1 : ℤ)).toNat = b.val
    rw [hs1, hw1]; omega

/-- The accumulating scatter read at `(n, b)`: the operand there plus the update's column `b` summed over the rows `e` whose
    index names row `n` — every index being a row of the node table. -/
theorem scatter_apply (x0 : S50000x256.Idx → EReal) (idx : IVec S800000x1 32) (upd : S800000x256.Idx → EReal)
    (hidx : ∀ e : Fin 800000, 0 ≤ (idx (ix2 e (0 : Fin 1))).toInt ∧ (idx (ix2 e (0 : Fin 1))).toInt < 50000)
    (n : Fin 50000) (b : Fin 256) :
    Ideal.hostScatterAdd scatter_S50000x256_S800000x1_S800000x256_1_0_0_1 x0 idx upd (ix2 n b)
      = x0 (ix2 n b)
        + ∑ e ∈ Finset.univ.filter (fun e : Fin 800000 => EdgeGate.rowOf (idx (ix2 e (0 : Fin 1))) = n), upd (ix2 e b) := by
  unfold Ideal.hostScatterAdd
  refine congrArg (fun z => x0 (ix2 n b) + z) ?_
  rw [Finset.sum_filter, sum_idx2, Finset.sum_filter]
  refine Finset.sum_congr rfl fun e _ => ?_
  have key : ∀ b' : Fin 256,
      (scatter_S50000x256_S800000x1_S800000x256_1_0_0_1.resultIdx? (ix2 e b' : S800000x256.Idx) idx
          = some (ix2 n b : S50000x256.Idx))
        ↔ (EdgeGate.rowOf (idx (ix2 e (0 : Fin 1))) = n ∧ b' = b) := by
    intro b'
    rw [scatter_lands idx e b' (hidx e).1 (hidx e).2, Option.some.injEq]
    constructor
    · intro h; exact ⟨congrFun h 0, congrFun h 1⟩
    · rintro ⟨rfl, rfl⟩; rfl
  rw [Finset.sum_eq_single b]
  · by_cases h : EdgeGate.rowOf (idx (ix2 e (0 : Fin 1))) = n
    · rw [if_pos ((key b).mpr ⟨h, rfl⟩), if_pos h]
    · rw [if_neg (fun h' => h ((key b).mp h').1), if_neg h]
  · intro b' _ hb'
    exact if_neg (fun h' => hb' ((key b').mp h').2)
  · intro h; exact absurd (Finset.mem_univ b) h

/-! ## The buffers after the host stretch -/

/-- The means' row after the host stretch: the column statistic of the per-tile sums. -/
theorem mean_buf : (V7 (F := Ideal) m ρ c main_v23 : (⟨2, ![1, 128]⟩ : Shape).Idx → EReal)
    = colStat (V6 (F := Ideal) m ρ c main_v12_2) := by
  show StableHlo.after hostOps2 (W6 m ρ c) (Proc.devRef .tc main_v23) = _
  after_results
  rfl
/-- The mean-of-squares row: the column statistic of the per-tile sums of squares. -/
theorem meansq_buf : (V7 (F := Ideal) m ρ c main_v26 : (⟨2, ![1, 128]⟩ : Shape).Idx → EReal)
    = colStat (V6 (F := Ideal) m ρ c main_v12_3) := by
  show StableHlo.after hostOps2 (W6 m ρ c) (Proc.devRef .tc main_v26) = _
  after_results
  rfl
/-- The variance row is the mean-of-squares row minus the square of the means' row. -/
theorem var_buf : (V7 (F := Ideal) m ρ c main_v28 : (⟨2, ![1, 128]⟩ : Shape).Idx → EReal)
    = (subf (V7 (F := Ideal) m ρ c main_v26 : FVec Ideal S1x128 .f32)
        (mulf (V7 (F := Ideal) m ρ c main_v23 : FVec Ideal S1x128 .f32) (V7 (F := Ideal) m ρ c main_v23 : FVec Ideal S1x128 .f32)
          : FVec Ideal S1x128 .f32) : FVec Ideal S1x128 .f32) := by
  show StableHlo.after hostOps2 (W6 m ρ c) (Proc.devRef .tc main_v28)
    = (subf (StableHlo.after hostOps2 (W6 m ρ c) (Proc.devRef .tc main_v26) : FVec Ideal S1x128 .f32)
        (mulf (StableHlo.after hostOps2 (W6 m ρ c) (Proc.devRef .tc main_v23) : FVec Ideal S1x128 .f32)
          (StableHlo.after hostOps2 (W6 m ρ c) (Proc.devRef .tc main_v23) : FVec Ideal S1x128 .f32)
          : FVec Ideal S1x128 .f32) : FVec Ideal S1x128 .f32)
  after_results_simp

/-- The packed sums after the host's scatter, read at `(n, b)`: the packed (message | gate) column `b` summed over the
    edges that leave node `n`. -/
theorem packed_sums (hr : InRange m c) (n : Fin 50000) (b : Fin 256) (g : Fin 800000 → EReal)
    (hg : ∀ e : Fin 800000, (V6 (F := Ideal) m ρ c main_v12_1 : (⟨2, ![800000, 256]⟩ : Shape).Idx → EReal) (ix2 e b) = g e) :
    (V7 (F := Ideal) m ρ c main_v31 : (⟨2, ![50000, 256]⟩ : Shape).Idx → EReal) (ix2 n b)
      = ∑ e ∈ Finset.univ.filter (fun e : Fin 800000 => (inputsOf m c).src e = n), g e := by
  have e : (V7 (F := Ideal) m ρ c main_v31 : (⟨2, ![50000, 256]⟩ : Shape).Idx → EReal)
      = Ideal.hostScatterAdd scatter_S50000x256_S800000x1_S800000x256_1_0_0_1
          (broadcastInDim S50000x256 ![] (by decide : S_.BroadcastsInDim S50000x256 (![] : Fin 0 → Fin S50000x256.rank))
            (constant (F := Ideal) S_ .f32 0x00000000#32))
          (broadcastInDim S800000x1 ![0] (by decide : S800000.BroadcastsInDim S800000x1 (![0] : Fin 1 → Fin S800000x1.rank))
            (V6 (F := Ideal) m ρ c main_v1 : (⟨1, ![800000]⟩ : Shape).Idx → BitVec 32))
          (V6 (F := Ideal) m ρ c main_v12_1 : (⟨2, ![800000, 256]⟩ : Shape).Idx → EReal) := by
    show StableHlo.after hostOps2 (W6 m ρ c) (Proc.devRef .tc main_v31) = _
    after_results
    rfl
  have hidx : ∀ e : Fin 800000,
      broadcastInDim S800000x1 ![0] (by decide : S800000.BroadcastsInDim S800000x1 (![0] : Fin 1 → Fin S800000x1.rank))
          (V6 (F := Ideal) m ρ c main_v1 : (⟨1, ![800000]⟩ : Shape).Idx → BitVec 32) (ix2 e (0 : Fin 1))
        = (m ((c.tc : Thread nD τ).loc main_arg2) : (⟨2, ![2, 800000]⟩ : Shape).Idx → BitVec 32) (ix2 0 e) := by
    intro e
    rw [broadcastInDim_apply _ _ _ (ix2 e (0 : Fin 1)) (ix1 e) (fun a => match a with | ⟨0, _⟩ => rfl)]
    exact s1_src m ρ c e
  refine (congrFun e (ix2 n b)).trans ?_
  change @Eq EReal _ _
  rw [scatter_apply _ _ _ (fun e => by rw [hidx e]; exact hr 0 e)]
  have hz : broadcastInDim S50000x256 ![] (by decide : S_.BroadcastsInDim S50000x256 (![] : Fin 0 → Fin S50000x256.rank))
      (constant (F := Ideal) S_ .f32 0x00000000#32) (ix2 n b) = (0 : EReal) := Ideal.ofBits_zero_f32
  rw [hz, zero_add]
  refine Finset.sum_congr ?_ fun e _ => hg e
  refine Finset.filter_congr fun e _ => ?_
  rw [hidx e]
  rfl

/-! ## The statements -/

/-- Per node the sum of the messages of the edges leaving it: the left half of the packed sums. -/
theorem h2_ssh (hr : InRange m c) (n : Fin 50000) (q : Fin 128) :
    (V7 (F := Ideal) m ρ c main_v31 : (⟨2, ![50000, 256]⟩ : Shape).Idx → EReal) (ix2 n (Fin.castAdd 128 q)) = EdgeGate.ssh (inputsOf m c) n q := by
  exact packed_sums m ρ c hr n (Fin.castAdd 128 q) (fun e => EdgeGate.mm (inputsOf m c) e q) (fun e => s1_m m ρ c hr e q)

/-- Per node the sum of the gates of the edges leaving it: the right half. -/
theorem h2_ss (hr : InRange m c) (n : Fin 50000) (q : Fin 128) :
    (V7 (F := Ideal) m ρ c main_v31 : (⟨2, ![50000, 256]⟩ : Shape).Idx → EReal) (ix2 n (Fin.natAdd 128 q)) = EdgeGate.ss (inputsOf m c) n q := by
  exact packed_sums m ρ c hr n (Fin.natAdd 128 q) (fun e => EdgeGate.sg (inputsOf m c) e q) (fun e => s1_sg m ρ c hr e q)

/-- The source update map is as the first launch left it. -/
theorem h2_su (r : Fin 50000) (q : Fin 128) :
    (V7 (F := Ideal) m ρ c main_v8_2 : (⟨2, ![50000, 128]⟩ : Shape).Idx → EReal) (ix2 r q) = EdgeGate.psu (inputsOf m c) r q := by
  have e : (V7 (F := Ideal) m ρ c main_v8_2 : (⟨2, ![50000, 128]⟩ : Shape).Idx → EReal)
      = (V6 (F := Ideal) m ρ c main_v8_2 : (⟨2, ![50000, 128]⟩ : Shape).Idx → EReal) := by
    show StableHlo.after hostOps2 (W6 m ρ c) (Proc.devRef .tc main_v8_2) = _
    after_results
  rw [e]
  exact s1_su m ρ c r q

/-- The edge table's column means. -/
theorem h2_mean_e (hr : InRange m c) (q : Fin 128) :
    (V7 (F := Ideal) m ρ c main_v23 : (⟨2, ![1, 128]⟩ : Shape).Idx → EReal) (ix2 0 q) = EdgeGate.mean EdgeGate.cntE (EdgeGate.y (inputsOf m c)) q := by
  rw [mean_buf, colStat_apply]
  unfold EdgeGate.mean EdgeGate.colsum
  refine congrArg (fun z => Ideal.div z EdgeGate.cntE) ?_
  rw [← sum_by_tiles (fun r => EdgeGate.y (inputsOf m c) r q)]
  refine Finset.sum_congr rfl fun k _ => ?_
  exact s1_sum m ρ c hr k 0 q

/-- The edge table's column variances, as mean of squares minus squared mean. -/
theorem h2_var_e (hr : InRange m c) (q : Fin 128) :
    (V7 (F := Ideal) m ρ c main_v28 : (⟨2, ![1, 128]⟩ : Shape).Idx → EReal) (ix2 0 q) = EdgeGate.varK EdgeGate.cntE (EdgeGate.y (inputsOf m c)) q := by
  rw [var_buf, subf_apply, mulf_apply, h2_mean_e m ρ c hr q, meansq_buf, colStat_apply]
  unfold EdgeGate.varK
  refine congrArg (fun z => Ideal.div z EdgeGate.cntE
    - EdgeGate.mean EdgeGate.cntE (EdgeGate.y (inputsOf m c)) q * EdgeGate.mean EdgeGate.cntE (EdgeGate.y (inputsOf m c)) q) ?_
  rw [← sum_by_tiles (fun r => EdgeGate.y (inputsOf m c) r q * EdgeGate.y (inputsOf m c) r q)]
  refine Finset.sum_congr rfl fun k _ => ?_
  exact s1_sumsq m ρ c hr k 0 q

/-- The gate pre-activations are as the second launch left them. -/
theorem h2_y (hr : InRange m c) (e : Fin 800000) (q : Fin 128) :
    (V7 (F := Ideal) m ρ c main_v12_0 : (⟨2, ![800000, 128]⟩ : Shape).Idx → EReal) (ix2 e q) = EdgeGate.y (inputsOf m c) e q := by
  have h : (V7 (F := Ideal) m ρ c main_v12_0 : (⟨2, ![800000, 128]⟩ : Shape).Idx → EReal)
      = (V6 (F := Ideal) m ρ c main_v12_0 : (⟨2, ![800000, 128]⟩ : Shape).Idx → EReal) := by
    show StableHlo.after hostOps2 (W6 m ρ c) (Proc.devRef .tc main_v12_0) = _
    after_results
  rw [h]
  exact s1_y m ρ c hr e q

end Cert.KernelIdeal.Val

end
-- ==== Proof.KStage2.lean ====
/-
  After the third launch: per node the new features before normalisation, and per tile of 5000 nodes the column sums
  of those and of their squares. Before the launch the host has summed, for every node, the packed (message | gate) rows
  of the edges that leave it (a scatter-add into zeros: an edge whose row number is in range lands on that node's row),
  and has formed the edge table's column means and variances from the second launch's per-tile sums: the mean as the
  sum of the 200 tile sums over the edge count, the variance as the mean of the squares minus the squared mean.
-/
import proofs.«400967_j64424509440774_3_alg».proof.Proof.KInputs
import proofs.«400967_j64424509440774_3_alg».proof.Proof.Gen.KernelIdeal.Frame
import proofs.«400967_j64424509440774_3_alg».proof.Proof.KStage2Host
import proofs.«400967_j64424509440774_3_alg».proof.Proof.Algebra
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

variable (m : Mem) (ρ : Dev nD → PrngReg) (c : Dev nD)

/-! The launch's own arithmetic and bookkeeping: what the body computes at one row of one tile, each tile's blocks as
    rows of the tables the launch reads, and each result as ONE table of which every tile writes back its own rows. -/
namespace NodeFinalize

/-- The node features of one block, at a row and a lane of the block: the source update plus the summed messages over
    the summed gates lifted by the small number. -/
theorem pay1_apply (v0 v2 v7 : Vec Ideal S5000x128 .f32) (p : Fin 5000) (q : Fin 128) :
    k2_pay1 (F := Ideal) v0 v2 v7 (ix2 p q) = v7 (ix2 p q) + Ideal.div (v0 (ix2 p q)) (v2 (ix2 p q) + EdgeGate.eps6) := by
  unfold k2_pay1
  simp only [shapeCast_self]
  rfl

/-- A 5000 × 128 block summed over its rows and the row of sums repeated eight times: on each of the eight rows,
    lane `q` holds the sum of the block's column `q`. -/
theorem rowsum8_apply (x : FVec Ideal S5000x128 .f32) (j : Fin 8) (q : Fin 128) :
    broadcastTo S8x128
      (shapeCast S1x128
        (multiReduction FKind.add [0] S128 x (0x00000000#32) reduces_S5000x128_S128 (.inl rfl) rfl)
        shapeCasts_S128_S1x128)
      broadcasts_S1x128_S8x128 (ix2 j q) = ∑ r : Fin 5000, x (ix2 r q) := by
  refine (broadcastTo_apply _ _ (ix2 j q) (ix2 (0 : Fin 1) q) (fun a => by match a with | ⟨0, _⟩ => rfl | ⟨1, _⟩ => rfl)).trans ?_
  refine (shapeCast_apply _ _ (ix2 (0 : Fin 1) q) (ix1 q) ?_).trans ?_
  · rw [Shape.rowMajor_val_one, Shape.rowMajor_val_two]
    show q.val = 0 * 128 + q.val
    omega
  refine (Ideal.multiReduction_add_single _ _ _ _ _ (ix1 q)).trans ?_
  exact Finset.sum_congr rfl (fun r _ => congrArg x (by funext a; match a with | ⟨0,_⟩ => rfl | ⟨1,_⟩ => rfl))

/-- The second output block: the column sums of the block's node features. -/
theorem pay2_apply (v0 v2 v7 : Vec Ideal S5000x128 .f32) (j : Fin 8) (q : Fin 128) :
    k2_pay2 (F := Ideal) v0 v2 v7 (ix2 j q) = ∑ r : Fin 5000, k2_pay1 (F := Ideal) v0 v2 v7 (ix2 r q) := by
  unfold k2_pay2
  simp only [shapeCast_self]
  exact rowsum8_apply _ j q

/-- The third output block: the column sums of the squares. -/
theorem pay3_apply (v0 v2 v7 : Vec Ideal S5000x128 .f32) (j : Fin 8) (q : Fin 128) :
    k2_pay3 (F := Ideal) v0 v2 v7 (ix2 j q)
      = ∑ r : Fin 5000, k2_pay1 (F := Ideal) v0 v2 v7 (ix2 r q) * k2_pay1 (F := Ideal) v0 v2 v7 (ix2 r q) := by
  unfold k2_pay3
  simp only [shapeCast_self]
  exact rowsum8_apply _ j q

/-- At tile `t` every window of the launch is at block `(t, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem tile_lt (t : Fin cfg2.N) : t.val < 10 := lt_of_lt_of_eq t.isLt N_2

/-- Any table of 50000 × 128 read through the first window's block at tile `t`: rows `5000 t … 5000 t + 4999`. -/
theorem read_blk0 (A : S50000x128.Idx → EReal) (t : Fin cfg2.N) (x : S5000x128.Idx) (k : S50000x128.Idx)
    (hk0 : (k 0).val = 5000 * t.val + (x 0).val) (hk1 : (k 1).val = (x 1).val) :
    ((cfg2.win 0).blk t).view.read (Elt Ideal) A x = A k := by
  obtain ⟨e0, e1, -⟩ := idx_facts t
  rw [View.read_apply]
  refine congrArg A (funext fun a => Fin.ext ?_)
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Any table of 50000 × 256 read through the second window's block at tile `t`. -/
theorem read_blk1 (A : S50000x256.Idx → EReal) (t : Fin cfg2.N) (x : S5000x256.Idx) (k : S50000x256.Idx)
    (hk0 : (k 0).val = 5000 * t.val + (x 0).val) (hk1 : (k 1).val = (x 1).val) :
    ((cfg2.win 1).blk t).view.read (Elt Ideal) A x = A k := by
  obtain ⟨-, -, e0, e1, -⟩ := idx_facts t
  rw [View.read_apply]
  refine congrArg A (funext fun a => Fin.ext ?_)
  match a with
  | ⟨0, _⟩ => show win2_1.index t 0 * 5000 + 1 * (x 0).val = (k 0).val; rw [e0, hk0]; omega
  | ⟨1, _⟩ => show win2_1.index t 1 * 256 + 1 * (x 1).val = (k 1).val; rw [e1, hk1]; omega

/-- The block of the source update map at tile `t` is rows `5000 t … 5000 t + 4999` of the map. -/
theorem blk0_apply (t : Fin cfg2.N) (x : S5000x128.Idx) (k : S50000x128.Idx)
    (hk0 : (k 0).val = 5000 * t.val + (x 0).val) (hk1 : (k 1).val = (x 1).val) :
    (iblk2 (V7 (F := Ideal) m ρ) c 0 t : Vec Ideal S5000x128 .f32) x = (V7 (F := Ideal) m ρ c main_v8_2 : S50000x128.Idx → EReal) k :=
  read_blk0 _ t x k hk0 hk1

/-- The block of the packed node sums at tile `t` is rows `5000 t … 5000 t + 4999` of the packed table. -/
theorem blk1_apply (t : Fin cfg2.N) (x : S5000x256.Idx) (k : S50000x256.Idx)
    (hk0 : (k 0).val = 5000 * t.val + (x 0).val) (hk1 : (k 1).val = (x 1).val) :
    (iblk2 (V7 (F := Ideal) m ρ) c 1 t : Vec Ideal S5000x256 .f32) x = (V7 (F := Ideal) m ρ c main_v31 : S50000x256.Idx → EReal) k :=
  read_blk1 _ t x k hk0 hk1

/-- Row `p` of tile `t` as a node. -/
abbrev nodeOf (t : Fin cfg2.N) (p : Fin 5000) : Fin 50000 := ⟨5000 * t.val + p.val, by have := tile_lt t; have := p.isLt; omega⟩

/-- What the body computes at row `p`, lane `q` of tile `t` is the new feature of node `5000 t + p`: the three loads
    read the summed messages (lanes 0 … 127 of the packed sums), the summed gates (lanes 128 … 255) and the source update. -/
theorem xp_block (hr : InRange m c) (t : Fin cfg2.N) (p : Fin 5000) (q : Fin 128) :
    k2_pay1 (F := Ideal) (View.ld (iblk2 (V7 (F := Ideal) m ρ) c 1 t) r2_0) (View.ld (iblk2 (V7 (F := Ideal) m ρ) c 1 t) r2_1)
        (View.ld (iblk2 (V7 (F := Ideal) m ρ) c 0 t) r2_2) (ix2 p q)
      = EdgeGate.xp (inputsOf m c) (nodeOf t p) q := by
  have a0 : View.ld (iblk2 (V7 (F := Ideal) m ρ) c 1 t) r2_0 (ix2 p q) = EdgeGate.ssh (inputsOf m c) (nodeOf t p) q :=
    (blk1_apply m ρ c t (r2_0.idx (ix2 p q)) (ix2 (nodeOf t p) (Fin.castAdd 128 q))
      (by show 5000 * t.val + p.val = 5000 * t.val + (0 + 1 * p.val); omega)
      (by show q.val = 0 + 1 * q.val; omega)).trans (h2_ssh m ρ c hr (nodeOf t p) q)
  have a1 : View.ld (iblk2 (V7 (F := Ideal) m ρ) c 1 t) r2_1 (ix2 p q) = EdgeGate.ss (inputsOf m c) (nodeOf t p) q :=
    (blk1_apply m ρ c t (r2_1.idx (ix2 p q)) (ix2 (nodeOf t p) (Fin.natAdd 128 q))
      (by show 5000 * t.val + p.val = 5000 * t.val + (0 + 1 * p.val); omega)
      (by show 128 + q.val = 128 + 1 * q.val; omega)).trans (h2_ss m ρ c hr (nodeOf t p) q)
  have a2 : View.ld (iblk2 (V7 (F := Ideal) m ρ) c 0 t) r2_2 (ix2 p q) = EdgeGate.psu (inputsOf m c) (nodeOf t p) q :=
    (blk0_apply m ρ c t (r2_2.idx (ix2 p q)) (ix2 (nodeOf t p) q)
      (by show 5000 * t.val + p.val = 5000 * t.val + (0 + 1 * p.val); omega)
      (by show q.val = 0 + 1 * q.val; omega)).trans (h2_su m ρ c (nodeOf t p) q)
  rw [pay1_apply, a0, a1, a2]
  rfl

theorem hz : (![0, 0] : Fin 2 → Nat) = fun _ => 0 := funext fun a => by fin_cases a <;> rfl

/-- The node features before normalisation as one table of 50000 × 128. -/
def xpArr : S50000x128.Idx → EReal := fun i => EdgeGate.xp (inputsOf m c) (i 0) (i 1)

theorem xpArr_apply (i : S50000x128.Idx) (n : Fin 50000) (q : Fin 128) (h0 : (i 0).val = n.val) (h1 : (i 1).val = q.val) :
    xpArr m c i = EdgeGate.xp (inputsOf m c) n q := by
  have e : i = ix2 n q := funext fun a => by
    match a with
    | ⟨0, _⟩ => exact Fin.ext h0
    | ⟨1, _⟩ => exact Fin.ext h1
  subst e
  rfl

/-- The same at any index of the block. -/
theorem xp_block_idx (hr : InRange m c) (t : Fin cfg2.N) (x : S5000x128.Idx) :
    k2_pay1 (F := Ideal) (View.ld (iblk2 (V7 (F := Ideal) m ρ) c 1 t) r2_0) (View.ld (iblk2 (V7 (F := Ideal) m ρ) c 1 t) r2_1)
        (View.ld (iblk2 (V7 (F := Ideal) m ρ) c 0 t) r2_2) x
      = EdgeGate.xp (inputsOf m c) (nodeOf t (x 0)) (x 1) := by
  obtain ⟨p, q, rfl⟩ : ∃ (p : Fin 5000) (q : Fin 128), x = ix2 p q := ⟨x 0, x 1, eq_ix2 x⟩
  exact xp_block m ρ c hr t p q

/-- Tile `t` writes back rows `5000 t … 5000 t + 4999` of the node-feature table. -/
theorem flushed_xp (hr : InRange m c) (t : Fin cfg2.N) :
    (dat2 (V7 (F := Ideal) m ρ) c).flushed 2 t = ((cfg2.win 2).blk t).view.read (Elt Ideal) (xpArr m c) := by
  show (cfg2.win 2).cut (grid2.coords t) ((dat2 (V7 (F := Ideal) m ρ) c).after 2 t) = _
  rw [after2_2]
  unfold out2_2
  rw [View.canon_unit_zero hz]
  obtain ⟨-, -, -, -, e0, e1, -⟩ := idx_facts t
  funext j
  have hj0 : (j 0).val < 5000 := (j 0).isLt
  have hj1 : (j 1).val < 128 := (j 1).isLt
  refine (xp_block_idx m ρ c hr t _).trans ?_
  rw [View.read_apply]
  refine (xpArr_apply m c _ _ _ ?_ ?_).symm
  · show win2_2.index t 0 * 5000 + 1 * (j 0).val = 5000 * t.val + (j 0).val
    rw [e0]; omega
  · show win2_2.index t 1 * 128 + 1 * (j 1).val = (j 1).val
    rw [e1]; omega

/-- An index of the node-feature table lies in tile `t`'s block iff its row is one of the tile's 5000 rows. -/
theorem mem_blk_xp (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v32_0).slice (win2_2.rect t)).set ↔ _
  rw [View.set_slice_whole, Rect.mem_set_unit]
  exact Iff.rfl

/-- The ten tiles' blocks fill the table: row `r` is in tile `r / 5000`. -/
theorem cover_xp (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < cfg2.N := lt_of_lt_of_eq (by omega : (i 0).val / 5000 < 10) N_2.symm
  obtain ⟨-, -, -, -, e0, e1, -⟩ := idx_facts ⟨(i 0).val / 5000, ht⟩
  refine ⟨⟨(i 0).val / 5000, ht⟩, flush2_2 _, ?_⟩
  rw [mem_blk_xp]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ 1 * 128 ≤ (i 1).val ∧ (i 1).val < win2_2.index ⟨(i 0).val / 5000, ht⟩ 1 * 128 + 128
    rw [e1]; omega

/-- After the launch the first result holds the node-feature table. -/
theorem final_xp (hr : InRange m c) : (dat2 (V7 (F := Ideal) m ρ) c).arrAt 2 cfg2.N = xpArr m c :=
  (dat2 (V7 (F := Ideal) m ρ) c).arrAt_eq_of_cover 2 (xpArr m c) (fun t _ => flushed_xp m ρ c hr t) (cover_xp)

/-- Row `i` of tile `t` as a node, the tile numbered below 10. -/
abbrev nodeAt (t : Fin 10) (i : Fin 5000) : Fin 50000 := ⟨5000 * t.val + i.val, by have := t.isLt; have := i.isLt; omega⟩

/-- Column `q` of the node features summed over tile `t`. -/
def tileSum (t : Fin 10) (q : Fin 128) : EReal := ∑ i : Fin 5000, EdgeGate.xp (inputsOf m c) (nodeAt t i) q
/-- Column `q` of the squared node features summed over tile `t`. -/
def tileSumSq (t : Fin 10) (q : Fin 128) : EReal :=
  ∑ i : Fin 5000, EdgeGate.xp (inputsOf m c) (nodeAt t i) q * EdgeGate.xp (inputsOf m c) (nodeAt t i) q

/-- The table of 80 × 128 that holds, on rows `8 t … 8 t + 7`, tile `t`'s column sums. -/
def sumArr : S80x128.Idx → EReal :=
  fun i => tileSum m c ⟨(i 0).val / 8, by have : (i 0).val < 80 := (i 0).isLt; omega⟩ (i 1)
/-- The same for the sums of squares. -/
def sumSqArr : S80x128.Idx → EReal :=
  fun i => tileSumSq m c ⟨(i 0).val / 8, by have : (i 0).val < 80 := (i 0).isLt; omega⟩ (i 1)

theorem sumArr_apply (i : S80x128.Idx) (t : Fin 10) (q : Fin 128) (h0 : (i 0).val / 8 = t.val) (h1 : (i 1).val = q.val) :
    sumArr m c i = tileSum m c t q := by
  have e0 : (⟨(i 0).val / 8, by have : (i 0).val < 80 := (i 0).isLt; omega⟩ : Fin 10) = t := Fin.ext h0
  have e1 : (i 1 : Fin 128) = q := Fin.ext h1
  unfold sumArr
  rw [e0, e1]

theorem sumSqArr_apply (i : S80x128.Idx) (t : Fin 10) (q : Fin 128) (h0 : (i 0).val / 8 = t.val) (h1 : (i 1).val = q.val) :
    sumSqArr m c i = tileSumSq m c t q := by
  have e0 : (⟨(i 0).val / 8, by have : (i 0).val < 80 := (i 0).isLt; omega⟩ : Fin 10) = t := Fin.ext h0
  have e1 : (i 1 : Fin 128) = q := Fin.ext h1
  unfold sumSqArr
  rw [e0, e1]

/-- The tile's second result block: on each of its eight rows the tile's column sums. -/
theorem sum_block_idx (hr : InRange m c) (t : Fin cfg2.N) (x : S8x128.Idx) :
    k2_pay2 (F := Ideal) (View.ld (iblk2 (V7 (F := Ideal) m ρ) c 1 t) r2_0) (View.ld (iblk2 (V7 (F := Ideal) m ρ) c 1 t) r2_1)
        (View.ld (iblk2 (V7 (F := Ideal) m ρ) c 0 t) r2_2) x
      = tileSum m c ⟨t.val, tile_lt t⟩ (x 1) := by
  obtain ⟨j, q, rfl⟩ : ∃ (j : Fin 8) (q : Fin 128), x = ix2 j q := ⟨x 0, x 1, eq_ix2 x⟩
  rw [pay2_apply]
  exact Finset.sum_congr rfl (fun r _ => xp_block m ρ c hr t r q)

/-- The tile's third result block: the column sums of the squares. -/
theorem sumsq_block_idx (hr : InRange m c) (t : Fin cfg2.N) (x : S8x128.Idx) :
    k2_pay3 (F := Ideal) (View.ld (iblk2 (V7 (F := Ideal) m ρ) c 1 t) r2_0) (View.ld (iblk2 (V7 (F := Ideal) m ρ) c 1 t) r2_1)
        (View.ld (iblk2 (V7 (F := Ideal) m ρ) c 0 t) r2_2) x
      = tileSumSq m c ⟨t.val, tile_lt t⟩ (x 1) := by
  obtain ⟨j, q, rfl⟩ : ∃ (j : Fin 8) (q : Fin 128), x = ix2 j q := ⟨x 0, x 1, eq_ix2 x⟩
  rw [pay3_apply]
  exact Finset.sum_congr rfl (fun r _ => by rw [xp_block m ρ c hr t r q])

/-- Tile `t` writes back rows `8 t … 8 t + 7` of the table of column sums. -/
theorem flushed_sum (hr : InRange m c) (t : Fin cfg2.N) :
    (dat2 (V7 (F := Ideal) m ρ) c).flushed 3 t = ((cfg2.win 3).blk t).view.read (Elt Ideal) (sumArr m c) := by
  show (cfg2.win 3).cut (grid2.coords t) ((dat2 (V7 (F := Ideal) m ρ) c).after 3 t) = _
  rw [after2_3]
  unfold out2_3
  rw [View.canon_unit_zero hz]
  obtain ⟨-, -, -, -, -, -, e0, e1, -⟩ := idx_facts t
  funext j
  have hj0 : (j 0).val < 8 := (j 0).isLt
  have hj1 : (j 1).val < 128 := (j 1).isLt
  refine (sum_block_idx m ρ c hr t _).trans ?_
  rw [View.read_apply]
  refine (sumArr_apply m c _ _ _ ?_ ?_).symm
  · show (win2_3.index t 0 * 8 + 1 * (j 0).val) / 8 = t.val
    rw [e0]; omega
  · show win2_3.index t 1 * 128 + 1 * (j 1).val = (j 1).val
    rw [e1]; omega

/-- Tile `t` writes back rows `8 t … 8 t + 7` of the table of sums of squares. -/
theorem flushed_sumsq (hr : InRange m c) (t : Fin cfg2.N) :
    (dat2 (V7 (F := Ideal) m ρ) c).flushed 4 t = ((cfg2.win 4).blk t).view.read (Elt Ideal) (sumSqArr m c) := by
  show (cfg2.win 4).cut (grid2.coords t) ((dat2 (V7 (F := Ideal) m ρ) c).after 4 t) = _
  rw [after2_4]
  unfold out2_4
  rw [View.canon_unit_zero hz]
  obtain ⟨-, -, -, -, -, -, -, -, e0, e1⟩ := idx_facts t
  funext j
  have hj0 : (j 0).val < 8 := (j 0).isLt
  have hj1 : (j 1).val < 128 := (j 1).isLt
  refine (sumsq_block_idx m ρ c hr t _).trans ?_
  rw [View.read_apply]
  refine (sumSqArr_apply m c _ _ _ ?_ ?_).symm
  · show (win2_4.index t 0 * 8 + 1 * (j 0).val) / 8 = t.val
    rw [e0]; omega
  · show win2_4.index t 1 * 128 + 1 * (j 1).val = (j 1).val
    rw [e1]; omega

theorem mem_blk_sum (t : Fin cfg2.N) (i : S80x128.Idx) :
    i ∈ ((cfg2.win 3).blk t).view.set ↔ ∀ a : Fin 2, win2_3.index t a * S8x128.size a ≤ (i a).val ∧ (i a).val < win2_3.index t a * S8x128.size a + S8x128.size a := by
  show i ∈ ((View.whole main_v32_1).slice (win2_3.rect t)).set ↔ _
  rw [View.set_slice_whole, Rect.mem_set_unit]
  exact Iff.rfl

theorem mem_blk_sumsq (t : Fin cfg2.N) (i : S80x128.Idx) :
    i ∈ ((cfg2.win 4).blk t).view.set ↔ ∀ a : Fin 2, win2_4.index t a * S8x128.size a ≤ (i a).val ∧ (i a).val < win2_4.index t a * S8x128.size a + S8x128.size a := by
  show i ∈ ((View.whole main_v32_2).slice (win2_4.rect t)).set ↔ _
  rw [View.set_slice_whole, Rect.mem_set_unit]
  exact Iff.rfl

/-- The ten tiles' blocks of eight rows fill the table of 80 rows: row `r` is in tile `r / 8`. -/
theorem cover_sum (i : S80x128.Idx) : ∃ t : Fin cfg2.N, (cfg2.win 3).flush t = true ∧ i ∈ ((cfg2.win 3).blk t).view.set := by
  have hi0 : (i 0).val < 80 := (i 0).isLt
  have hi1 : (i 1).val < 128 := (i 1).isLt
  have ht : (i 0).val / 8 < cfg2.N := lt_of_lt_of_eq (by omega : (i 0).val / 8 < 10) N_2.symm
  obtain ⟨-, -, -, -, -, -, e0, e1, -⟩ := idx_facts ⟨(i 0).val / 8, ht⟩
  refine ⟨⟨(i 0).val / 8, ht⟩, flush2_3 _, ?_⟩
  rw [mem_blk_sum]
  intro a
  match a with
  | ⟨0, _⟩ =>
    show win2_3.index ⟨(i 0).val / 8, ht⟩ 0 * 8 ≤ (i 0).val ∧ (i 0).val < win2_3.index ⟨(i 0).val / 8, ht⟩ 0 * 8 + 8
    rw [e0]; show (i 0).val / 8 * 8 ≤ (i 0).val ∧ (i 0).val < (i 0).val / 8 * 8 + 8; omega
  | ⟨1, _⟩ =>
    show win2_3.index ⟨(i 0).val / 8, ht⟩ 1 * 128 ≤ (i 1).val ∧ (i 1).val < win2_3.index ⟨(i 0).val / 8, ht⟩ 1 * 128 + 128
    rw [e1]; omega

theorem cover_sumsq (i : S80x128.Idx) : ∃ t : Fin cfg2.N, (cfg2.win 4).flush t = true ∧ i ∈ ((cfg2.win 4).blk t).view.set := by
  have hi0 : (i 0).val < 80 := (i 0).isLt
  have hi1 : (i 1).val < 128 := (i 1).isLt
  have ht : (i 0).val / 8 < cfg2.N := lt_of_lt_of_eq (by omega : (i 0).val / 8 < 10) N_2.symm
  obtain ⟨-, -, -, -, -, -, -, -, e0, e1⟩ := idx_facts ⟨(i 0).val / 8, ht⟩
  refine ⟨⟨(i 0).val / 8, ht⟩, flush2_4 _, ?_⟩
  rw [mem_blk_sumsq]
  intro a
  match a with
  | ⟨0, _⟩ =>
    show win2_4.index ⟨(i 0).val / 8, ht⟩ 0 * 8 ≤ (i 0).val ∧ (i 0).val < win2_4.index ⟨(i 0).val / 8, ht⟩ 0 * 8 + 8
    rw [e0]; show (i 0).val / 8 * 8 ≤ (i 0).val ∧ (i 0).val < (i 0).val / 8 * 8 + 8; omega
  | ⟨1, _⟩ =>
    show win2_4.index ⟨(i 0).val / 8, ht⟩ 1 * 128 ≤ (i 1).val ∧ (i 1).val < win2_4.index ⟨(i 0).val / 8, ht⟩ 1 * 128 + 128
    rw [e1]; omega

/-- After the launch the second result holds the table of column sums, the third the table of sums of squares. -/
theorem final_sum (hr : InRange m c) : (dat2 (V7 (F := Ideal) m ρ) c).arrAt 3 cfg2.N = sumArr m c :=
  (dat2 (V7 (F := Ideal) m ρ) c).arrAt_eq_of_cover 3 (sumArr m c) (fun t _ => flushed_sum m ρ c hr t) (cover_sum)
theorem final_sumsq (hr : InRange m c) : (dat2 (V7 (F := Ideal) m ρ) c).arrAt 4 cfg2.N = sumSqArr m c :=
  (dat2 (V7 (F := Ideal) m ρ) c).arrAt_eq_of_cover 4 (sumSqArr m c) (fun t _ => flushed_sumsq m ρ c hr t) (cover_sumsq)

end NodeFinalize

/-- The node features before normalisation. -/
theorem s2_xp (hr : InRange m c) (n : Fin 50000) (q : Fin 128) :
    (V8 (F := Ideal) m ρ c main_v32_0 : (⟨2, ![50000, 128]⟩ : Shape).Idx → EReal) (ix2 n q) = EdgeGate.xp (inputsOf m c) n q := by
  have e : V8 (F := Ideal) m ρ c main_v32_0 = NodeFinalize.xpArr m c :=
    (hF2 m ρ c 2).symm.trans (NodeFinalize.final_xp m ρ c hr)
  rw [e]
  rfl
/-- Tile `t`'s column sums of the node features, on each of its eight rows. -/
theorem s2_sum (hr : InRange m c) (t : Fin 10) (j : Fin 8) (q : Fin 128) :
    (V8 (F := Ideal) m ρ c main_v32_1 : (⟨2, ![80, 128]⟩ : Shape).Idx → EReal)
        (ix2 (⟨8 * t.val + j.val, by have := t.isLt; have := j.isLt; omega⟩ : Fin 80) q)
      = ∑ i : Fin 5000, EdgeGate.xp (inputsOf m c) (⟨5000 * t.val + i.val, by have := t.isLt; have := i.isLt; omega⟩ : Fin 50000) q := by
  have e : V8 (F := Ideal) m ρ c main_v32_1 = NodeFinalize.sumArr m c :=
    (hF2 m ρ c 3).symm.trans (NodeFinalize.final_sum m ρ c hr)
  rw [e]
  exact NodeFinalize.sumArr_apply m c _ t q (by show (8 * t.val + j.val) / 8 = t.val; have := j.isLt; omega) rfl
/-- Tile `t`'s column sums of the squared node features. -/
theorem s2_sumsq (hr : InRange m c) (t : Fin 10) (j : Fin 8) (q : Fin 128) :
    (V8 (F := Ideal) m ρ c main_v32_2 : (⟨2, ![80, 128]⟩ : Shape).Idx → EReal)
        (ix2 (⟨8 * t.val + j.val, by have := t.isLt; have := j.isLt; omega⟩ : Fin 80) q)
      = ∑ i : Fin 5000, EdgeGate.xp (inputsOf m c) (⟨5000 * t.val + i.val, by have := t.isLt; have := i.isLt; omega⟩ : Fin 50000) q
          * EdgeGate.xp (inputsOf m c) (⟨5000 * t.val + i.val, by have := t.isLt; have := i.isLt; omega⟩ : Fin 50000) q := by
  have e : V8 (F := Ideal) m ρ c main_v32_2 = NodeFinalize.sumSqArr m c :=
    (hF2 m ρ c 4).symm.trans (NodeFinalize.final_sumsq m ρ c hr)
  rw [e]
  exact NodeFinalize.sumSqArr_apply m c _ t q (by show (8 * t.val + j.val) / 8 = t.val; have := j.isLt; omega) rfl
/-- The edge table's column means, formed on the host before the third launch and untouched by it. -/
theorem s2_mean_e (hr : InRange m c) (q : Fin 128) :
    (V8 (F := Ideal) m ρ c main_v23 : (⟨2, ![1, 128]⟩ : Shape).Idx → EReal) (ix2 0 q) = EdgeGate.mean EdgeGate.cntE (EdgeGate.y (inputsOf m c)) q := by
  have e : V8 (F := Ideal) m ρ c main_v23 = V7 (F := Ideal) m ρ c main_v23 := W8_of_ne m ρ c main_v23 (by decide)
  rw [e]
  exact h2_mean_e m ρ c hr q
/-- The edge table's column variances, as mean of squares minus squared mean. -/
theorem s2_var_e (hr : InRange m c) (q : Fin 128) :
    (V8 (F := Ideal) m ρ c main_v28 : (⟨2, ![1, 128]⟩ : Shape).Idx → EReal) (ix2 0 q) = EdgeGate.varK EdgeGate.cntE (EdgeGate.y (inputsOf m c)) q := by
  have e : V8 (F := Ideal) m ρ c main_v28 = V7 (F := Ideal) m ρ c main_v28 := W8_of_ne m ρ c main_v28 (by decide)
  rw [e]
  exact h2_var_e m ρ c hr q
/-- The gate pre-activations are as the second launch left them. -/
theorem s2_y (hr : InRange m c) (e : Fin 800000) (q : Fin 128) :
    (V8 (F := Ideal) m ρ c main_v12_0 : (⟨2, ![800000, 128]⟩ : Shape).Idx → EReal) (ix2 e q) = EdgeGate.y (inputsOf m c) e q := by
  have h : V8 (F := Ideal) m ρ c main_v12_0 = V7 (F := Ideal) m ρ c main_v12_0 := W8_of_ne m ρ c main_v12_0 (by decide)
  rw [h]
  exact h2_y m ρ c hr e q

end Cert.KernelIdeal.Val

end
-- ==== Proof.KStage3Host.lean ====
/-
  Between the third and the fourth launch: the host forms the node table's column statistics from the third launch's
  per-tile sums (row 0 of each tile's block of eight, summed over the 10 tiles, over the node count; the variance as the
  mean of the squares minus the squared mean) and re-lays the four batch-norm parameter vectors as rows. Everything the
  last two launches read is listed here at the fourth launch's entry.

  The sums: tile `t` of 5000 nodes left its column sums on rows `8t … 8t+7` of an 80 × 128 table. Viewed as
  10 × 8 × 128 the host keeps row 0 of every block, views that as 10 × 128 and sums over the tiles from zero, so column
  `q` holds `Σ_t Σ_i v (5000 t + i) q`, which is the column's sum over all 50000 nodes taken tile by tile. Dividing
  by the node count gives the mean, and the same with the squares gives the mean of the squares.
-/
import proofs.«400967_j64424509440774_3_alg».proof.Proof.KInputs
import proofs.«400967_j64424509440774_3_alg».proof.Proof.Gen.KernelIdeal.Frame
import proofs.«400967_j64424509440774_3_alg».proof.Proof.KStage2
import proofs.«400967_j64424509440774_3_alg».proof.Proof.Algebra
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

/-! ## The host's operations on a table of per-tile sums, read at a column -/

/-- The host's sum over the ten rows of a 10 × 128 table, column by column: the initial value plus the ten entries. -/
theorem host3_reduce_rows (x : (⟨2, ![10, 128]⟩ : Shape).Idx → EReal) (z : (⟨0, ![]⟩ : Shape).Idx → EReal)
    (h4 : (⟨2, ![10, 128]⟩ : Shape).ReducesTo [0] ⟨1, ![128]⟩) (h5 : 0 < (⟨0, ![]⟩ : Shape).numel) (q : Fin 128) :
    (Host.reduceAdd (F := Ideal) (φ := .f32) x z h4 h5 : (⟨1, ![128]⟩ : Shape).Idx → EReal) (ix1 q)
      = z (Shape.Idx.first h5) + ∑ k : Fin 10, x (ix2 k q) := by
  have hR : (⟨2, ![10, 128]⟩ : Shape).Reduces [0] ⟨1, ![128]⟩ := by decide
  refine (Ideal.hostReduceAdd_single h4 hR x _ (ix1 q)).trans ?_
  refine congrArg _ (Finset.sum_congr rfl fun k _ => congrArg x ?_)
  funext a; match a with | ⟨0, _⟩ => rfl | ⟨1, _⟩ => rfl

/-- Row 0 of each tile's block of eight rows, summed over the ten tiles: the 80 × 128 table of per-tile sums viewed as
    10 × 8 × 128, its slice at the second coordinate 0, viewed as 10 × 128 and summed over the first coordinate. -/
theorem host3_tile_rows_sum (X : (⟨2, ![80, 128]⟩ : Shape).Idx → EReal) (z : (⟨0, ![]⟩ : Shape).Idx → EReal)
    (h1 : (⟨2, ![80, 128]⟩ : Shape).ShapeCasts ⟨3, ![10, 8, 128]⟩)
    (h2 : (⟨3, ![10, 8, 128]⟩ : Shape).Slices ![0, 0, 0] ⟨3, ![10, 1, 128]⟩)
    (h3 : (⟨3, ![10, 1, 128]⟩ : Shape).ShapeCasts ⟨2, ![10, 128]⟩)
    (h4 : (⟨2, ![10, 128]⟩ : Shape).ReducesTo [0] ⟨1, ![128]⟩) (h5 : 0 < (⟨0, ![]⟩ : Shape).numel) (q : Fin 128) :
    (Host.reduceAdd (F := Ideal) (φ := .f32)
        (shapeCast ⟨2, ![10, 128]⟩ (extractStridedSlice ⟨3, ![10, 1, 128]⟩ ![0, 0, 0] (shapeCast ⟨3, ![10, 8, 128]⟩ X h1) h2) h3)
        z h4 h5 : (⟨1, ![128]⟩ : Shape).Idx → EReal) (ix1 q)
      = z (Shape.Idx.first h5) + ∑ k : Fin 10, X (ix2 (⟨8 * k.val + 0, by have := k.isLt; omega⟩ : Fin 80) q) := by
  rw [host3_reduce_rows]
  refine congrArg _ (Finset.sum_congr rfl fun k _ => ?_)
  refine (shapeCast_apply _ h3 (ix2 k q) (ix3 k (0 : Fin 1) q) (by
    rw [Shape.rowMajor_val_three, Shape.rowMajor_val_two]
    show (k.val * 1 + 0) * 128 + q.val = k.val * 128 + q.val
    omega)).trans ?_
  refine (slice3_axis1_eq 0 _ h2 k (0 : Fin 1) q).trans ?_
  exact shapeCast_apply X h1 _ (ix2 (⟨8 * k.val + 0, by have := k.isLt; omega⟩ : Fin 80) q) (by
    rw [Shape.rowMajor_val_two, Shape.rowMajor_val_three]
    show (8 * k.val + 0) * 128 + q.val = (k.val * 8 + (0 + 0)) * 128 + q.val
    omega)

/-- The whole statistic as the host lays it out: that sum over a count broadcast to the 128 columns, as a row. -/
theorem host3_stat_row (X : (⟨2, ![80, 128]⟩ : Shape).Idx → EReal) (z N : (⟨0, ![]⟩ : Shape).Idx → EReal)
    (h1 : (⟨2, ![80, 128]⟩ : Shape).ShapeCasts ⟨3, ![10, 8, 128]⟩)
    (h2 : (⟨3, ![10, 8, 128]⟩ : Shape).Slices ![0, 0, 0] ⟨3, ![10, 1, 128]⟩)
    (h3 : (⟨3, ![10, 1, 128]⟩ : Shape).ShapeCasts ⟨2, ![10, 128]⟩)
    (h4 : (⟨2, ![10, 128]⟩ : Shape).ReducesTo [0] ⟨1, ![128]⟩) (h5 : 0 < (⟨0, ![]⟩ : Shape).numel)
    (h6 : (⟨0, ![]⟩ : Shape).BroadcastsInDim ⟨1, ![128]⟩ ![]) (h7 : (⟨1, ![128]⟩ : Shape).ShapeCasts ⟨2, ![1, 128]⟩)
    (q : Fin 128) :
    (shapeCast ⟨2, ![1, 128]⟩
        (Host.divf (F := Ideal) (φ := .f32)
          (Host.reduceAdd
            (shapeCast ⟨2, ![10, 128]⟩ (extractStridedSlice ⟨3, ![10, 1, 128]⟩ ![0, 0, 0] (shapeCast ⟨3, ![10, 8, 128]⟩ X h1) h2) h3)
            z h4 h5)
          (broadcastInDim ⟨1, ![128]⟩ ![] h6 N)) h7 : (⟨2, ![1, 128]⟩ : Shape).Idx → EReal) (ix2 0 q)
      = Ideal.div (z (Shape.Idx.first h5) + ∑ k : Fin 10, X (ix2 (⟨8 * k.val + 0, by have := k.isLt; omega⟩ : Fin 80) q)) (N ix0) := by
  refine (shapeCast_a_1a_apply _ h7 (0 : Fin 1) q).trans ?_
  refine (hostDivf_apply _ _ (ix1 q)).trans ?_
  rw [host3_tile_rows_sum, broadcastInDim_scalar_apply]

/-- A sum over the 50000 nodes taken as ten tiles of 5000. -/
theorem host3_sum_ten_tiles (g : Fin 50000 → EReal) :
    ∑ t : Fin 10, ∑ i : Fin 5000, g (⟨5000 * t.val + i.val, by have := t.isLt; have := i.isLt; omega⟩ : Fin 50000)
      = ∑ r : Fin 50000, g r := by
  have h := EdgeGate.sum_tiles 10 5000 (fun k => if h : k < 50000 then g ⟨k, h⟩ else 0)
  have e2 : ∑ r : Fin (10 * 5000), (fun k => if h : k < 50000 then g ⟨k, h⟩ else 0) r.val = ∑ r : Fin 50000, g r := by
    show ∑ r : Fin 50000, (if h : r.val < 50000 then g ⟨r.val, h⟩ else 0) = _
    exact Finset.sum_congr rfl fun r _ => by rw [dif_pos r.isLt]
  rw [← e2, ← h]
  refine Finset.sum_congr rfl fun t _ => Finset.sum_congr rfl fun i _ => ?_
  have hlt : t.val * 5000 + i.val < 50000 := by have := t.isLt; have := i.isLt; omega
  show _ = (if h : t.val * 5000 + i.val < 50000 then g ⟨t.val * 5000 + i.val, h⟩ else 0)
  rw [dif_pos hlt]
  exact congrArg g (Fin.ext (by show 5000 * t.val + i.val = t.val * 5000 + i.val; omega))

variable (m : Mem) (ρ : Dev nD → PrngReg) (c : Dev nD)

/-! ## What the host stretch leaves alone -/

/-- A buffer the host stretch does not write is as the third launch left it. -/
theorem host3_keeps (b : Ref sig .tc)
    (h : ∀ op ∈ (hostOps3 : List (HloOp τ sig (Elt Ideal))), Proc.devRef .tc b ∉ op.writes) :
    V9 (F := Ideal) m ρ c b = V8 (F := Ideal) m ρ c b :=
  StableHlo.after_of_forall_not_mem (b := Proc.devRef .tc b) _ _ h

/-- Decides that a named buffer is none of the 24 result buffers of the host stretch. -/
local macro "host3_not_written" : tactic =>
  `(tactic| (refine List.forall_iff_forall_mem.mp ?_
             simp only [hostOps3, List.Forall, StableHlo.nullary_writes, StableHlo.unary_writes, StableHlo.binary_writes,
               StableHlo.reshape_writes, Finset.mem_singleton]
             repeat' apply And.intro
             all_goals exact StableHlo.devRef_ne_of_ne (by decide)))

/-- The argument buffers are as launched when the fourth launch starts: no host operation and no launch writes one, so
    the later boundaries' contents walk back to this one. -/
theorem host3_arg0 : V9 (F := Ideal) m ρ c main_arg0 = m ((c.tc : Thread nD τ).loc main_arg0) :=
  ((W10_arr m ρ c 1).trans (((dat3 (V9 m ρ) c).arrAt_in 1 rfl _).trans (A_eq3 (V9 m ρ) c 1))).symm.trans
    ((W11_of_ne m ρ c main_arg0 (by decide)).symm.trans (W11_main_arg0 m ρ c))
theorem host3_arg1 : V9 (F := Ideal) m ρ c main_arg1 = m ((c.tc : Thread nD τ).loc main_arg1) :=
  (W10_of_ne m ρ c main_arg1 (by decide)).symm.trans
    (((W11_arr m ρ c 1).trans (((dat4 (V10 m ρ) c).arrAt_in 1 rfl _).trans (A_eq4 (V10 m ρ) c 1))).symm.trans (W11_main_arg1 m ρ c))
theorem host3_arg13 : V8 (F := Ideal) m ρ c main_arg13 = m ((c.tc : Thread nD τ).loc main_arg13) :=
  (host3_keeps m ρ c main_arg13 (by host3_not_written)).symm.trans ((W10_of_ne m ρ c main_arg13 (by decide)).symm.trans
    ((W11_of_ne m ρ c main_arg13 (by decide)).symm.trans (W11_main_arg13 m ρ c)))
theorem host3_arg14 : V8 (F := Ideal) m ρ c main_arg14 = m ((c.tc : Thread nD τ).loc main_arg14) :=
  (host3_keeps m ρ c main_arg14 (by host3_not_written)).symm.trans ((W10_of_ne m ρ c main_arg14 (by decide)).symm.trans
    ((W11_of_ne m ρ c main_arg14 (by decide)).symm.trans (W11_main_arg14 m ρ c)))
theorem host3_arg15 : V8 (F := Ideal) m ρ c main_arg15 = m ((c.tc : Thread nD τ).loc main_arg15) :=
  (host3_keeps m ρ c main_arg15 (by host3_not_written)).symm.trans ((W10_of_ne m ρ c main_arg15 (by decide)).symm.trans
    ((W11_of_ne m ρ c main_arg15 (by decide)).symm.trans (W11_main_arg15 m ρ c)))
theorem host3_arg16 : V8 (F := Ideal) m ρ c main_arg16 = m ((c.tc : Thread nD τ).loc main_arg16) :=
  (host3_keeps m ρ c main_arg16 (by host3_not_written)).symm.trans ((W10_of_ne m ρ c main_arg16 (by decide)).symm.trans
    ((W11_of_ne m ρ c main_arg16 (by decide)).symm.trans (W11_main_arg16 m ρ c)))

/-! ## The node statistics -/

/-- The mean of the squared node features: the second table of per-tile sums over the node count. -/
theorem h3_meansq_n (hr : InRange m c) (q : Fin 128) :
    (V9 (F := Ideal) m ρ c main_v46 : (⟨2, ![1, 128]⟩ : Shape).Idx → EReal) (ix2 0 q)
      = Ideal.div (∑ r : Fin 50000, EdgeGate.xp (inputsOf m c) r q * EdgeGate.xp (inputsOf m c) r q) EdgeGate.cntN := by
  show (StableHlo.after hostOps3 (W8 m ρ c) (Proc.devRef .tc main_v46) : (⟨2, ![1, 128]⟩ : Shape).Idx → EReal) (ix2 0 q) = _
  after_results_simp
  refine (host3_stat_row (V8 (F := Ideal) m ρ c main_v32_2) _ _ _ _ _ _ _ _ _ q).trans ?_
  show Ideal.div (Ideal.ofBits .f32 0x00000000#32 + _) EdgeGate.cntN = _
  rw [Ideal.ofBits_zero_f32, zero_add,
    ← host3_sum_ten_tiles (fun r => EdgeGate.xp (inputsOf m c) r q * EdgeGate.xp (inputsOf m c) r q)]
  exact congrArg (fun s => Ideal.div s EdgeGate.cntN) (Finset.sum_congr rfl fun k _ => s2_sumsq m ρ c hr k 0 q)

theorem h3_xp (hr : InRange m c) (n : Fin 50000) (q : Fin 128) :
    (V9 (F := Ideal) m ρ c main_v32_0 : (⟨2, ![50000, 128]⟩ : Shape).Idx → EReal) (ix2 n q) = EdgeGate.xp (inputsOf m c) n q := by
  rw [(show (V9 (F := Ideal) m ρ c main_v32_0 : (⟨2, ![50000, 128]⟩ : Shape).Idx → EReal) = V8 (F := Ideal) m ρ c main_v32_0 from host3_keeps m ρ c main_v32_0 (by host3_not_written))]
  exact s2_xp m ρ c hr n q
/-- The node table's column means. -/
theorem h3_mean_n (hr : InRange m c) (q : Fin 128) :
    (V9 (F := Ideal) m ρ c main_v43 : (⟨2, ![1, 128]⟩ : Shape).Idx → EReal) (ix2 0 q) = EdgeGate.mean EdgeGate.cntN (EdgeGate.xp (inputsOf m c)) q := by
  show (StableHlo.after hostOps3 (W8 m ρ c) (Proc.devRef .tc main_v43) : (⟨2, ![1, 128]⟩ : Shape).Idx → EReal) (ix2 0 q) = _
  after_results_simp
  refine (host3_stat_row (V8 (F := Ideal) m ρ c main_v32_1) _ _ _ _ _ _ _ _ _ q).trans ?_
  show Ideal.div (Ideal.ofBits .f32 0x00000000#32 + _) EdgeGate.cntN
    = Ideal.div (∑ r : Fin 50000, EdgeGate.xp (inputsOf m c) r q) EdgeGate.cntN
  rw [Ideal.ofBits_zero_f32, zero_add, ← host3_sum_ten_tiles (fun r => EdgeGate.xp (inputsOf m c) r q)]
  exact congrArg (fun s => Ideal.div s EdgeGate.cntN) (Finset.sum_congr rfl fun k _ => s2_sum m ρ c hr k 0 q)
/-- The node table's column variances, as mean of squares minus squared mean. -/
theorem h3_var_n (hr : InRange m c) (q : Fin 128) :
    (V9 (F := Ideal) m ρ c main_v48 : (⟨2, ![1, 128]⟩ : Shape).Idx → EReal) (ix2 0 q) = EdgeGate.varK EdgeGate.cntN (EdgeGate.xp (inputsOf m c)) q := by
  have e : (V9 (F := Ideal) m ρ c main_v48 : (⟨2, ![1, 128]⟩ : Shape).Idx → EReal) (ix2 0 q)
      = subf (F := Ideal) (s := ⟨2, ![1, 128]⟩) (φ := .f32) (V9 (F := Ideal) m ρ c main_v46)
          (mulf (V9 (F := Ideal) m ρ c main_v43) (V9 (F := Ideal) m ρ c main_v43)) (ix2 0 q) := by
    show (StableHlo.after hostOps3 (W8 m ρ c) (Proc.devRef .tc main_v48) : (⟨2, ![1, 128]⟩ : Shape).Idx → EReal) (ix2 0 q)
      = subf (F := Ideal) (s := ⟨2, ![1, 128]⟩) (φ := .f32) (StableHlo.after hostOps3 (W8 m ρ c) (Proc.devRef .tc main_v46))
          (mulf (StableHlo.after hostOps3 (W8 m ρ c) (Proc.devRef .tc main_v43))
            (StableHlo.after hostOps3 (W8 m ρ c) (Proc.devRef .tc main_v43))) (ix2 0 q)
    after_results_simp
  rw [e, subf_apply, mulf_apply, h3_meansq_n m ρ c hr q, h3_mean_n m ρ c hr q]
  rfl
theorem h3_gn (q : Fin 128) : (V9 (F := Ideal) m ρ c main_v49 : (⟨2, ![1, 128]⟩ : Shape).Idx → EReal) (ix2 0 q) = (inputsOf m c).gn q := by
  show (StableHlo.after hostOps3 (W8 m ρ c) (Proc.devRef .tc main_v49) : (⟨2, ![1, 128]⟩ : Shape).Idx → EReal) (ix2 0 q) = _
  after_results_simp
  refine (shapeCast_a_1a_apply (V8 (F := Ideal) m ρ c main_arg13) _ (0 : Fin 1) q).trans ?_
  rw [host3_arg13]; rfl
theorem h3_bn (q : Fin 128) : (V9 (F := Ideal) m ρ c main_v50 : (⟨2, ![1, 128]⟩ : Shape).Idx → EReal) (ix2 0 q) = (inputsOf m c).bn q := by
  show (StableHlo.after hostOps3 (W8 m ρ c) (Proc.devRef .tc main_v50) : (⟨2, ![1, 128]⟩ : Shape).Idx → EReal) (ix2 0 q) = _
  after_results_simp
  refine (shapeCast_a_1a_apply (V8 (F := Ideal) m ρ c main_arg14) _ (0 : Fin 1) q).trans ?_
  rw [host3_arg14]; rfl
theorem h3_ge (q : Fin 128) : (V9 (F := Ideal) m ρ c main_v51 : (⟨2, ![1, 128]⟩ : Shape).Idx → EReal) (ix2 0 q) = (inputsOf m c).ge q := by
  show (StableHlo.after hostOps3 (W8 m ρ c) (Proc.devRef .tc main_v51) : (⟨2, ![1, 128]⟩ : Shape).Idx → EReal) (ix2 0 q) = _
  after_results_simp
  refine (shapeCast_a_1a_apply (V8 (F := Ideal) m ρ c main_arg15) _ (0 : Fin 1) q).trans ?_
  rw [host3_arg15]; rfl
theorem h3_be (q : Fin 128) : (V9 (F := Ideal) m ρ c main_v52 : (⟨2, ![1, 128]⟩ : Shape).Idx → EReal) (ix2 0 q) = (inputsOf m c).be q := by
  show (StableHlo.after hostOps3 (W8 m ρ c) (Proc.devRef .tc main_v52) : (⟨2, ![1, 128]⟩ : Shape).Idx → EReal) (ix2 0 q) = _
  after_results_simp
  refine (shapeCast_a_1a_apply (V8 (F := Ideal) m ρ c main_arg16) _ (0 : Fin 1) q).trans ?_
  rw [host3_arg16]; rfl
theorem h3_nf (n : Fin 50000) (k : Fin 128) :
    (V9 (F := Ideal) m ρ c main_arg0 : (⟨2, ![50000, 128]⟩ : Shape).Idx → EReal) (ix2 n k) = (inputsOf m c).nf n k := by
  rw [host3_arg0]; rfl
theorem h3_ef (e : Fin 800000) (k : Fin 128) :
    (V9 (F := Ideal) m ρ c main_arg1 : (⟨2, ![800000, 128]⟩ : Shape).Idx → EReal) (ix2 e k) = (inputsOf m c).ef e k := by
  rw [host3_arg1]; rfl
theorem h3_y (hr : InRange m c) (e : Fin 800000) (q : Fin 128) :
    (V9 (F := Ideal) m ρ c main_v12_0 : (⟨2, ![800000, 128]⟩ : Shape).Idx → EReal) (ix2 e q) = EdgeGate.y (inputsOf m c) e q := by
  rw [(show (V9 (F := Ideal) m ρ c main_v12_0 : (⟨2, ![800000, 128]⟩ : Shape).Idx → EReal) = V8 (F := Ideal) m ρ c main_v12_0 from host3_keeps m ρ c main_v12_0 (by host3_not_written))]
  exact s2_y m ρ c hr e q
theorem h3_mean_e (hr : InRange m c) (q : Fin 128) :
    (V9 (F := Ideal) m ρ c main_v23 : (⟨2, ![1, 128]⟩ : Shape).Idx → EReal) (ix2 0 q) = EdgeGate.mean EdgeGate.cntE (EdgeGate.y (inputsOf m c)) q := by
  rw [(show (V9 (F := Ideal) m ρ c main_v23 : (⟨2, ![1, 128]⟩ : Shape).Idx → EReal) = V8 (F := Ideal) m ρ c main_v23 from host3_keeps m ρ c main_v23 (by host3_not_written))]
  exact s2_mean_e m ρ c hr q
theorem h3_var_e (hr : InRange m c) (q : Fin 128) :
    (V9 (F := Ideal) m ρ c main_v28 : (⟨2, ![1, 128]⟩ : Shape).Idx → EReal) (ix2 0 q) = EdgeGate.varK EdgeGate.cntE (EdgeGate.y (inputsOf m c)) q := by
  rw [(show (V9 (F := Ideal) m ρ c main_v28 : (⟨2, ![1, 128]⟩ : Shape).Idx → EReal) = V8 (F := Ideal) m ρ c main_v28 from host3_keeps m ρ c main_v28 (by host3_not_written))]
  exact s2_var_e m ρ c hr q

end Cert.KernelIdeal.Val

end
-- ==== Proof.KStage3Act.lean ====
/-
  What the last two launches share, entry by entry: the gate function and the inverse root of a vector read at an
  entry, the zero offsets of an access to a whole staging buffer, and the number both launches store — the residual
  plus the normalised, scaled, shifted and gated entry.
-/
import proofs.«400967_j64424509440774_3_alg».proof.KernelIdeal
import proofs.«400967_j64424509440774_3_alg».proof.Proof.Spec
import Idealize.ShloMosaic.Lib.ValueIdx

noncomputable section

namespace Cert.KernelIdeal.Val

open Idealize.ShloMosaic Idealize.ShloMosaic.ValueIdx Cert.KernelIdeal

/-- The gate function of a vector, entry by entry. -/
theorem logistic_at {s : Shape} (a : FVec Ideal s .f32) (i : s.Idx) : logistic a i = Ideal.logistic (a i) := rfl
/-- The inverse root of a vector, entry by entry. -/
theorem rsqrt_at {s : Shape} (a : FVec Ideal s .f32) (i : s.Idx) : rsqrt a i = Ideal.rsqrt (a i) := rfl

/-- The offsets of a load or store of a whole staging buffer are all zero. -/
theorem zero_offsets : (![0, 0] : Fin 2 → Nat) = fun _ => 0 := funext fun a => by fin_cases a <;> rfl

/-- A residual entry plus the normalised, scaled, shifted and gated entry. -/
def resAct (res v mu var g b : EReal) : EReal := res + EdgeGate.act v mu var g b

end Cert.KernelIdeal.Val

end
-- ==== Proof.KStage3Node.lean ====
/-
  The fourth launch (region 3 of the program): batch norm, gate and residual on the node table in 10 tiles of 5000 rows.
  The body stores, entry by entry, the residual plus `EdgeGate.act` of the table's entry with its column's mean,
  variance, scale and shift; tile t of the table, of the residual and of the result is rows `t · 5000 …` of its
  array, the four rows of column data are read whole at every tile; the tiles cover the result array, so after the
  launch it holds the result function of what the launch found in the arrays it reads.
-/
import proofs.«400967_j64424509440774_3_alg».proof.Proof.KInputs
import proofs.«400967_j64424509440774_3_alg».proof.Proof.Gen.KernelIdeal.Frame
import proofs.«400967_j64424509440774_3_alg».proof.Proof.KStage3Act
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

/-- A row of 128 numbers repeated down 5000 rows reads, at row r and column q, the row's entry q. -/
theorem row_over5000 (x : Vec Ideal S1x128 .f32) (r : Fin 5000) (q : Fin 128) :
    (broadcastTo S5000x128 x broadcasts_S1x128_S5000x128 : S5000x128.Idx → EReal) (ix2 r q) = (x : S1x128.Idx → EReal) (ix2 0 q) := by
  refine broadcastTo_apply x _ (ix2 r q) (ix2 0 q) fun a => ?_
  match a with
  | ⟨0, _⟩ => rfl
  | ⟨1, _⟩ => rfl

/-- What the body stores at row r, column q of its tile: the residual's entry plus `EdgeGate.act` of the table's entry
    with the column's mean, variance, scale and shift. -/
theorem pay3_apply (v0 v23 : Vec Ideal S5000x128 .f32) (v2 v6 v13 v17 : Vec Ideal S1x128 .f32) (r : Fin 5000) (q : Fin 128) :
    (k3_pay1 v0 v2 v6 v13 v17 v23 : S5000x128.Idx → EReal) (ix2 r q)
      = resAct ((v23 : S5000x128.Idx → EReal) (ix2 r q)) ((v0 : S5000x128.Idx → EReal) (ix2 r q)) ((v2 : S1x128.Idx → EReal) (ix2 0 q))
            ((v6 : S1x128.Idx → EReal) (ix2 0 q)) ((v13 : S1x128.Idx → EReal) (ix2 0 q)) ((v17 : S1x128.Idx → EReal) (ix2 0 q)) := by
  unfold k3_pay1
  simp only [shapeCast_self]
  simp only [addf_apply, mulf_apply, subf_apply, row_over5000, logistic_at, rsqrt_at, broadcast_apply]
  rfl

/-! ## The fourth launch (region 3 of the program): the node table in 10 tiles of 5000 rows -/

section Launch3
variable (V : (c : Dev nD) → (b : Ref sig .tc) → Buf (Elt Ideal) ((c.tc : Thread nD τ).loc b)) (c : Dev nD)

/-- The launch's result at row n, column q, from the arrays it reads as it finds them. -/
def nodeOut (n : Fin 50000) (q : Fin 128) : EReal :=
  resAct ((V c main_arg0 : S50000x128.Idx → EReal) (ix2 n q)) ((V c main_v32_0 : S50000x128.Idx → EReal) (ix2 n q)) ((V c main_v43 : S1x128.Idx → EReal) (ix2 0 q))
        ((V c main_v48 : S1x128.Idx → EReal) (ix2 0 q)) ((V c main_v49 : S1x128.Idx → EReal) (ix2 0 q)) ((V c main_v50 : S1x128.Idx → EReal) (ix2 0 q))

/-- The same as one array. -/
def nodeOutArr : S50000x128.Idx → EReal := fun i => nodeOut V c (i 0) (i 1)

/-- Where each window's block stands at tile t: the table, the residual and the result are at tile t of the rows, the
    four rows of column data do not move. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0)

/-- Tile t of the table, at row p and column q, is the table's row `t · 5000 + p`. -/
theorem tile3_0 (t : Fin cfg3.N) (p : Fin 5000) (q : Fin 128) (n : Fin 50000) (hn : n.val = t.val * 5000 + p.val) :
    (iblk3 V c 0 t : S5000x128.Idx → EReal) (ix2 p q) = (V c main_v32_0 : S50000x128.Idx → EReal) (ix2 n q) := by
  obtain ⟨e0, e1, -⟩ := idx3 t
  unfold iblk3
  rw [View.read_apply]
  show (V c main_v32_0 : S50000x128.Idx → EReal) _ = _
  refine congrArg _ (funext fun a => Fin.ext ?_)
  match a with
  | ⟨0, _⟩ => show win3_0.index t (0 : Fin 2) * 5000 + 1 * p.val = n.val; rw [e0, hn]; omega
  | ⟨1, _⟩ => show win3_0.index t (1 : Fin 2) * 128 + 1 * q.val = q.val; rw [e1]; omega

/-- Tile t of the residual likewise. -/
theorem tile3_1 (t : Fin cfg3.N) (p : Fin 5000) (q : Fin 128) (n : Fin 50000) (hn : n.val = t.val * 5000 + p.val) :
    (iblk3 V c 1 t : S5000x128.Idx → EReal) (ix2 p q) = (V c main_arg0 : S50000x128.Idx → EReal) (ix2 n q) := by
  obtain ⟨-, -, e0, e1, -⟩ := idx3 t
  unfold iblk3
  rw [View.read_apply]
  show (V c main_arg0 : S50000x128.Idx → EReal) _ = _
  refine congrArg _ (funext fun a => Fin.ext ?_)
  match a with
  | ⟨0, _⟩ => show win3_1.index t (0 : Fin 2) * 5000 + 1 * p.val = n.val; rw [e0, hn]; omega
  | ⟨1, _⟩ => show win3_1.index t (1 : Fin 2) * 128 + 1 * q.val = q.val; rw [e1]; omega

/-- At every tile the row of the means is the whole row. -/
theorem tile3_2 (t : Fin cfg3.N) (q : Fin 128) :
    (iblk3 V c 2 t : S1x128.Idx → EReal) (ix2 0 q) = (V c main_v43 : S1x128.Idx → EReal) (ix2 0 q) := by
  obtain ⟨-, -, -, -, e0, e1, -⟩ := idx3 t
  unfold iblk3
  rw [View.read_apply]
  show (V c main_v43 : S1x128.Idx → EReal) _ = _
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

/-- At every tile the row of the variances is the whole row. -/
theorem tile3_3 (t : Fin cfg3.N) (q : Fin 128) :
    (iblk3 V c 3 t : S1x128.Idx → EReal) (ix2 0 q) = (V c main_v48 : S1x128.Idx → EReal) (ix2 0 q) := by
  obtain ⟨-, -, -, -, -, -, e0, e1, -⟩ := idx3 t
  unfold iblk3
  rw [View.read_apply]
  show (V c main_v48 : S1x128.Idx → EReal) _ = _
  refine congrArg _ (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- At every tile the row of the scales is the whole row. -/
theorem tile3_4 (t : Fin cfg3.N) (q : Fin 128) :
    (iblk3 V c 4 t : S1x128.Idx → EReal) (ix2 0 q) = (V c main_v49 : S1x128.Idx → EReal) (ix2 0 q) := by
  obtain ⟨-, -, -, -, -, -, -, -, e0, e1, -⟩ := idx3 t
  unfold iblk3
  rw [View.read_apply]
  show (V c main_v49 : S1x128.Idx → EReal) _ = _
  refine congrArg _ (funext fun a => Fin.ext ?_)
  match a with
  | ⟨0, _⟩ => show win3_4.index t (0 : Fin 2) * 1 + 1 * 0 = 0; rw [e0]
  | ⟨1, _⟩ => show win3_4.index t (1 : Fin 2) * 128 + 1 * q.val = q.val; rw [e1]; omega

/-- At every tile the row of the shifts is the whole row. -/
theorem tile3_5 (t : Fin cfg3.N) (q : Fin 128) :
    (iblk3 V c 5 t : S1x128.Idx → EReal) (ix2 0 q) = (V c main_v50 : S1x128.Idx → EReal) (ix2 0 q) := by
  obtain ⟨-, -, -, -, -, -, -, -, -, -, e0, e1, -⟩ := idx3 t
  unfold iblk3
  rw [View.read_apply]
  show (V c main_v50 : S1x128.Idx → EReal) _ = _
  refine congrArg _ (funext fun a => Fin.ext ?_)
  match a with
  | ⟨0, _⟩ => show win3_5.index t (0 : Fin 2) * 1 + 1 * 0 = 0; rw [e0]
  | ⟨1, _⟩ => show win3_5.index t (1 : Fin 2) * 128 + 1 * q.val = q.val; rw [e1]; omega

/-- Tile t of any array of the result's shape, at row p and column q, is the array's row `t · 5000 + p`. -/
theorem tile3_6 (G : S50000x128.Idx → EReal) (t : Fin cfg3.N) (p : Fin 5000) (q : Fin 128) (n : Fin 50000) (hn : n.val = t.val * 5000 + p.val) :
    (((cfg3.win 6).blk t).view.read (Elt Ideal) G : S5000x128.Idx → EReal) (ix2 p q) = G (ix2 n q) := by
  obtain ⟨-, -, -, -, -, -, -, -, -, -, -, -, e0, e1⟩ := idx3 t
  rw [View.read_apply]
  show G _ = _
  refine congrArg _ (funext fun a => Fin.ext ?_)
  match a with
  | ⟨0, _⟩ => show win3_6.index t (0 : Fin 2) * 5000 + 1 * p.val = n.val; rw [e0, hn]; omega
  | ⟨1, _⟩ => show win3_6.index t (1 : Fin 2) * 128 + 1 * q.val = q.val; rw [e1]; omega

/-- What tile t writes back is tile t of the result array. -/
theorem flushed3 (t : Fin cfg3.N) :
    (dat3 V c).flushed 6 t = ((cfg3.win 6).blk t).view.read (Elt Ideal) (nodeOutArr V c) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg3.N = 10 := N_3
  have ht : t.val < 10 := hN ▸ t.isLt
  have hn : (⟨t.val * 5000 + p.val, by have := p.isLt; omega⟩ : Fin 50000).val = t.val * 5000 + p.val := rfl
  refine (pay3_apply _ _ _ _ _ _ p q).trans ?_
  rw [tile3_0 V c t p q _ hn, tile3_1 V c t p q _ hn, tile3_2 V c t q, tile3_3 V c t q, tile3_4 V c t q,
    tile3_5 V c t q]
  exact (tile3_6 (nodeOutArr V c) t p q _ hn).symm

/-- An index of the result array is in tile t's block iff each coordinate is in the block's range. -/
theorem mem_tile3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v53).slice (win3_6.rect t)).set ↔ _
  rw [View.set_slice_whole, Rect.mem_set_unit]
  exact Iff.rfl

/-- Every row lies in the tile numbered by its quotient by 5000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e0, e1⟩ := idx3 t
  refine ⟨t, flush3_6 t, ?_⟩
  rw [mem_tile3]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 128 ≤ (i 1).val ∧ (i 1).val < win3_6.index t (1 : Fin 2) * 128 + 128; rw [e1]; omega

/-- So after the launch the result array is the result function, whatever it held before. -/
theorem final3 : (dat3 V c).arrAt 6 cfg3.N = nodeOutArr V c :=
  (dat3 V c).arrAt_eq_of_cover 6 (nodeOutArr V c) (fun t _ => flushed3 V c t) (cover3)

end Launch3

end Cert.KernelIdeal.Val

end
-- ==== Proof.KStage3.lean ====
/-
  After the last two launches: the two results. The host first forms the node table's column means and variances
  from the third launch's per-tile sums (as it did for the edges) and re-lays the four batch-norm parameter vectors as
  rows; the fourth launch normalises, scales, shifts and gates the node features tile by tile and adds the node table;
  the fifth does the same for the edge pre-activations and the edge table, and leaves the fourth's result alone.
-/
import proofs.«400967_j64424509440774_3_alg».proof.Proof.KInputs
import proofs.«400967_j64424509440774_3_alg».proof.Proof.Gen.KernelIdeal.Frame
import proofs.«400967_j64424509440774_3_alg».proof.Proof.KStage3Host
import proofs.«400967_j64424509440774_3_alg».proof.Proof.Algebra
import proofs.«400967_j64424509440774_3_alg».proof.Proof.KStage3Node
import proofs.«400967_j64424509440774_3_alg».proof.Proof.KStage3Edge
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Cert.KernelIdeal Cert.KernelIdeal.Gen

variable (m : Mem) (ρ : Dev nD → PrngReg) (c : Dev nD)

/-- At the fourth launch's exit the node result is the launch's result function of what the launch found. -/
theorem node_exit : (V10 (F := Ideal) m ρ c main_v53 : S50000x128.Idx → EReal) = nodeOutArr (V9 (F := Ideal) m ρ) c :=
  (hF3 (F := Ideal) m ρ c 6).symm.trans (final3 (V9 (F := Ideal) m ρ) c)

/-- At the fifth launch's exit the edge result is the launch's result function of what the launch found. -/
theorem edge_exit : (V11 (F := Ideal) m ρ c main_v54 : S800000x128.Idx → EReal) = edgeOutArr (V10 (F := Ideal) m ρ) c :=
  (hF4 (F := Ideal) m ρ c 6).symm.trans (final4 (V10 (F := Ideal) m ρ) c)

/-- The node result at the end of the program. -/
theorem s3_x (hr : InRange m c) (n : Fin 50000) (q : Fin 128) :
    (V11 (F := Ideal) m ρ c main_v53 : (⟨2, ![50000, 128]⟩ : Shape).Idx → EReal) (ix2 n q) = EdgeGate.xoutK (inputsOf m c) n q := by
  -- the fifth launch does not write the node result
  have h11 : (V11 (F := Ideal) m ρ c main_v53 : S50000x128.Idx → EReal) = V10 (F := Ideal) m ρ c main_v53 :=
    W11_of_ne m ρ c main_v53 (by decide)
  refine (congrFun h11 (ix2 n q)).trans ((congrFun (node_exit m ρ c) (ix2 n q)).trans ?_)
  show nodeOut (V9 (F := Ideal) m ρ) c n q = _
  unfold nodeOut resAct EdgeGate.xoutK
  rw [h3_nf, h3_xp m ρ c hr, h3_mean_n m ρ c hr, h3_var_n m ρ c hr, h3_gn, h3_bn]
/-- The edge result at the end of the program. -/
theorem s3_y (hr : InRange m c) (e : Fin 800000) (q : Fin 128) :
    (V11 (F := Ideal) m ρ c main_v54 : (⟨2, ![800000, 128]⟩ : Shape).Idx → EReal) (ix2 e q) = EdgeGate.youtK (inputsOf m c) e q := by
  -- the fourth launch writes none of the arrays the fifth reads
  have a0 : (V10 (F := Ideal) m ρ c main_v12_0 : S800000x128.Idx → EReal) = V9 (F := Ideal) m ρ c main_v12_0 :=
    W10_of_ne m ρ c main_v12_0 (by decide)
  have a1 : (V10 (F := Ideal) m ρ c main_arg1 : S800000x128.Idx → EReal) = V9 (F := Ideal) m ρ c main_arg1 :=
    W10_of_ne m ρ c main_arg1 (by decide)
  have a2 : (V10 (F := Ideal) m ρ c main_v23 : S1x128.Idx → EReal) = V9 (F := Ideal) m ρ c main_v23 :=
    W10_of_ne m ρ c main_v23 (by decide)
  have a3 : (V10 (F := Ideal) m ρ c main_v28 : S1x128.Idx → EReal) = V9 (F := Ideal) m ρ c main_v28 :=
    W10_of_ne m ρ c main_v28 (by decide)
  have a4 : (V10 (F := Ideal) m ρ c main_v51 : S1x128.Idx → EReal) = V9 (F := Ideal) m ρ c main_v51 :=
    W10_of_ne m ρ c main_v51 (by decide)
  have a5 : (V10 (F := Ideal) m ρ c main_v52 : S1x128.Idx → EReal) = V9 (F := Ideal) m ρ c main_v52 :=
    W10_of_ne m ρ c main_v52 (by decide)
  refine (congrFun (edge_exit m ρ c) (ix2 e q)).trans ?_
  show edgeOut (V10 (F := Ideal) m ρ) c e q = _
  unfold edgeOut resAct EdgeGate.youtK
  rw [a0, a1, a2, a3, a4, a5, h3_ef, h3_y m ρ c hr, h3_mean_e m ρ c hr, h3_var_e m ρ c hr, h3_ge, h3_be]

end Cert.KernelIdeal.Val

end
-- ==== Proof.PreDecode.lean ====
/-
  What the precondition says, read off its printed form: every float argument holds reals, and every entry of the
  index table is a row number of the node table.

  The printed predicate is one conjunction, nested to the left, of seventeen one-bit words. Sixteen of them are, each
  for one float array `x`, the conjunction over all indices of `|x i| < +∞`; an extended real whose absolute value
  `max x (-x)` lies strictly below `⊤` is neither `⊤` nor `⊥`, so it is a real. The seventeenth is the conjunction
  over all entries `w` of the index table of `0 ≤ w` and `w < 50000`, both read signed. A conjunction that came out
  `1` had the word `1` at every index, so each fact holds entry by entry.
-/
import proofs.«400967_j64424509440774_3_alg».proof.Defs
import proofs.«400967_j64424509440774_3_alg».proof.Proof.Gen.Pre_finite_inputs
import proofs.«400967_j64424509440774_3_alg».proof.Proof.Gen.KernelIdeal
import proofs.«400967_j64424509440774_3_alg».proof.Proof.KInputs
import Idealize.ShloMosaic.Lib.ReduceAll

noncomputable section

namespace Cert.KernelIdeal.Val

open Idealize.ShloMosaic Idealize.ShloMosaic.ValueIdx Cert.KernelIdeal

namespace PreDecode

/-- The rank-zero shape has one index. -/
instance subsingleton_scalar_idx : Subsingleton Cert.Pre_finite_inputs.S_.Idx := ⟨fun _ _ => funext fun d => d.elim0⟩

/-- The word `0x7F800000` is the float `+∞`, the top of the extended reals. -/
theorem inf_word : Ideal.ofBits .f32 0x7F800000#32 = (⊤ : EReal) := by
  simp [Ideal.ofBits, Ideal.ieee]

/-- An extended real whose absolute value is strictly below `+∞` is a real. -/
theorem real_of_abs_lt (x : EReal) (h : Ideal.cmp .olt (max x (-x)) (Ideal.ofBits .f32 0x7F800000#32) = 1#1) :
    ∃ r : ℝ, x = r := by
  rw [inf_word] at h
  induction x using EReal.rec with
  | bot => exact absurd h (by simp [Ideal.cmp])
  | top => exact absurd h (by simp [Ideal.cmp])
  | coe r => exact ⟨r, rfl⟩

/-- Every entry of an array of extended reals is a real. -/
def AllReal {s : Shape} (x : s.Idx → EReal) : Prop := ∀ i, ∃ r : ℝ, x i = r

/-- "All of `|x| < +∞`" came out `1`: every entry of `x` is a real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
        (broadcastInDim s ![] hb (constant (F := Ideal) Cert.Pre_finite_inputs.S_ .f32 0x7F800000#32))) init hr hu j = 1#1) :
    AllReal x :=
  fun i => real_of_abs_lt (x i) (Host.reduce_andi_all _ init hr hu j e i)

/-- "All of `0 ≤ w ∧ w < 50000`" came out `1`: every word `w` of the table, read signed, lies in `[0, 50000)`. -/
theorem range_of_all {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (andi (cmpi .sge x (broadcastInDim s ![] hb (constantI Cert.Pre_finite_inputs.S_ 32 0#32)))
        (cmpi .slt x (broadcastInDim s ![] hb (constantI Cert.Pre_finite_inputs.S_ 32 50000#32)))) init hr hu j = 1#1)
    (i : s.Idx) : 0 ≤ (x i).toInt ∧ (x i).toInt < 50000 := by
  obtain ⟨h0, h1⟩ := IntOp.andi_eq_one.1 (Host.reduce_andi_all _ init hr hu j e i)
  exact ⟨IntOp.cmpi_sge.1 h0, IntOp.cmpi_slt.1 h1⟩

/-- A conjunction of two one-bit arrays that is `1` at an index has both conjuncts `1` there. -/
theorem and_split {s : Shape} {a b : IVec s 1} {i : s.Idx} (h : andi a b i = 1#1) : a i = 1#1 ∧ b i = 1#1 :=
  IntOp.andi_eq_one.1 h

/-- The precondition, conjunct by conjunct: each of the sixteen float arguments holds reals, and the index table's words
    lie in `[0, 50000)`. -/
theorem decode (m : Mem) (h : Cert.Pre_KernelIdeal m) (c : Dev nD) :
    (∀ i, 0 ≤ ((m ((c.tc : Thread nD τ).loc main_arg2) : (⟨2, ![2, 800000]⟩ : Shape).Idx → BitVec 32) i).toInt
        ∧ ((m ((c.tc : Thread nD τ).loc main_arg2) : (⟨2, ![2, 800000]⟩ : Shape).Idx → BitVec 32) i).toInt < 50000)
    ∧ AllReal (m ((c.tc : Thread nD τ).loc main_arg0) : (⟨2, ![50000, 128]⟩ : Shape).Idx → EReal)
    ∧ AllReal (m ((c.tc : Thread nD τ).loc main_arg1) : (⟨2, ![800000, 128]⟩ : Shape).Idx → EReal)
    ∧ AllReal (m ((c.tc : Thread nD τ).loc main_arg3) : (⟨2, ![128, 128]⟩ : Shape).Idx → EReal)
    ∧ AllReal (m ((c.tc : Thread nD τ).loc main_arg4) : (⟨1, ![128]⟩ : Shape).Idx → EReal)
    ∧ AllReal (m ((c.tc : Thread nD τ).loc main_arg5) : (⟨2, ![128, 128]⟩ : Shape).Idx → EReal)
    ∧ AllReal (m ((c.tc : Thread nD τ).loc main_arg6) : (⟨1, ![128]⟩ : Shape).Idx → EReal)
    ∧ AllReal (m ((c.tc : Thread nD τ).loc main_arg7) : (⟨2, ![128, 128]⟩ : Shape).Idx → EReal)
    ∧ AllReal (m ((c.tc : Thread nD τ).loc main_arg8) : (⟨1, ![128]⟩ : Shape).Idx → EReal)
    ∧ AllReal (m ((c.tc : Thread nD τ).loc main_arg9) : (⟨2, ![128, 128]⟩ : Shape).Idx → EReal)
    ∧ AllReal (m ((c.tc : Thread nD τ).loc main_arg10) : (⟨1, ![128]⟩ : Shape).Idx → EReal)
    ∧ AllReal (m ((c.tc : Thread nD τ).loc main_arg11) : (⟨2, ![128, 128]⟩ : Shape).Idx → EReal)
    ∧ AllReal (m ((c.tc : Thread nD τ).loc main_arg12) : (⟨1, ![128]⟩ : Shape).Idx → EReal)
    ∧ AllReal (m ((c.tc : Thread nD τ).loc main_arg13) : (⟨1, ![128]⟩ : Shape).Idx → EReal)
    ∧ AllReal (m ((c.tc : Thread nD τ).loc main_arg14) : (⟨1, ![128]⟩ : Shape).Idx → EReal)
    ∧ AllReal (m ((c.tc : Thread nD τ).loc main_arg15) : (⟨1, ![128]⟩ : Shape).Idx → EReal)
    ∧ AllReal (m ((c.tc : Thread nD τ).loc main_arg16) : (⟨1, ![128]⟩ : Shape).Idx → EReal) := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  obtain ⟨e, h2⟩ := and_split e
  obtain ⟨e, h16⟩ := and_split e
  obtain ⟨e, h15⟩ := and_split e
  obtain ⟨e, h14⟩ := and_split e
  obtain ⟨e, h13⟩ := and_split e
  obtain ⟨e, h12⟩ := and_split e
  obtain ⟨e, h11⟩ := and_split e
  obtain ⟨e, h10⟩ := and_split e
  obtain ⟨e, h9⟩ := and_split e
  obtain ⟨e, h8⟩ := and_split e
  obtain ⟨e, h7⟩ := and_split e
  obtain ⟨e, h6⟩ := and_split e
  obtain ⟨e, h5⟩ := and_split e
  obtain ⟨e, h4⟩ := and_split e
  obtain ⟨e, h3⟩ := and_split e
  obtain ⟨h0, h1⟩ := and_split e
  exact ⟨range_of_all _ _ _ _ _ _ h2,
    allReal_of_all _ _ _ _ _ _ h0, allReal_of_all _ _ _ _ _ _ h1, allReal_of_all _ _ _ _ _ _ h3,
    allReal_of_all _ _ _ _ _ _ h4, allReal_of_all _ _ _ _ _ _ h5, allReal_of_all _ _ _ _ _ _ h6,
    allReal_of_all _ _ _ _ _ _ h7, allReal_of_all _ _ _ _ _ _ h8, allReal_of_all _ _ _ _ _ _ h9,
    allReal_of_all _ _ _ _ _ _ h10, allReal_of_all _ _ _ _ _ _ h11, allReal_of_all _ _ _ _ _ _ h12,
    allReal_of_all _ _ _ _ _ _ h13, allReal_of_all _ _ _ _ _ _ h14, allReal_of_all _ _ _ _ _ _ h15,
    allReal_of_all _ _ _ _ _ _ h16⟩

end PreDecode

open PreDecode

/-- Under the precondition the layer's float data are reals. -/
theorem finite_of_pre (m : Mem) (h : Cert.Pre_KernelIdeal m) (c : Dev nD) : (inputsOf m c).Finite := by
  obtain ⟨-, h0, h1, h3, h4, h5, h6, h7, h8, h9, h10, h11, h12, -, -, -, -⟩ := decode m h c
  exact
    { nf := fun r k => h0 (ix2 r k)
      ef := fun r k => h1 (ix2 r k)
      Wsg := fun r k => h3 (ix2 r k)
      bsg := fun k => h4 (ix1 k)
      Wdg := fun r k => h5 (ix2 r k)
      bdg := fun k => h6 (ix1 k)
      Weg := fun r k => h7 (ix2 r k)
      beg := fun k => h8 (ix1 k)
      Wsu := fun r k => h9 (ix2 r k)
      bsu := fun k => h10 (ix1 k)
      Wdu := fun r k => h11 (ix2 r k)
      bdu := fun k => h12 (ix1 k) }

/-- Under the precondition the index table's entries are row numbers of the node table. -/
theorem inRange_of_pre (m : Mem) (h : Cert.Pre_KernelIdeal m) (c : Dev nD) : InRange m c :=
  fun a e => (decode m h c).1 (ix2 a e)

end Cert.KernelIdeal.Val

end
-- ==== Proof.RRun.lean ====
/-
  The reference program as one straight line of host operations (the functions it calls written out at their call
  sites over each call's own buffers), and its run: every weakly fair execution ends, without a fault, with every
  buffer at the operations' fold over the launch contents.
-/
import proofs.«400967_j64424509440774_3_alg».proof.Proof.RRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The program is that straight line: the called functions unfolded at their calls and the sequencing
    reassociated, both sides are one chain of the same steps. -/
theorem main_eq (c : Dev nD) : main (F := F) c = seq ops := by
  simp only [main, main_part0, main_part1, main_part2, fn_var.body, fn_var_0.body, fn_silu.body, fn_silu_1.body,
    fn_where.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- The run: each buffer ends at the fold of the operations over what the launch found. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) := by
  exact run_seq scopedRefs_eq scopedSems_eq defs main (fun _ => ops) main_eq (fun _ => ops_sub) m ρ

end Cert.ReferenceIdeal.RefRun

end
-- ==== Proof.RRead.lean ====
/-
  A line of host operations in which every buffer is written once: what the fold leaves in the buffer an operation
  writes is that operation's function of what the fold leaves in its operands, and a buffer no operation writes keeps
  its contents.
-/
import proofs.«400967_j64424509440774_3_alg».proof.Proof.RRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## A line in which every buffer is written once

When each operation writes one buffer and no buffer is written twice, what the fold leaves in the buffer an
operation writes is that operation's function of what the fold leaves in its operands: the operands were
complete before the operation ran and nothing later touches them, nor the result. -/

/-- `W` names, in order, the one buffer each operation of the line writes. -/
@[reducible] def WritesAre : List (HloOp τ sig (Elt F)) → List (Ref sig .tc) → Prop
  | [], [] => True
  | op :: l, w :: W => op.writes = {Proc.devRef .tc w} ∧ WritesAre l W
  | [], _ :: _ => False
  | _ :: _, [] => False

/-- A buffer the line does not write keeps its contents. -/
theorem WritesAre.frame : ∀ {l : List (HloOp τ sig (Elt F))} {W : List (Ref sig .tc)}, WritesAre l W →
    ∀ (V : Valuation τ sig (Elt F)) {r : Ref sig .tc}, r ∉ W → after l V (Proc.devRef .tc r) = V (Proc.devRef .tc r)
  | [], [], _, _, _, _ => rfl
  | op :: l, w :: W, h, V, r, hr => by
    have hw : (Proc.devRef .tc r : DevRef τ sig) ∉ op.writes := by
      rw [h.1, Finset.mem_singleton]
      exact fun e => hr (List.mem_cons.mpr (Or.inl (Proc.devRef_injective _ e)))
    rw [after_cons, WritesAre.frame h.2 _ (fun hm => hr (List.mem_cons_of_mem _ hm)), op.result_of_not_mem V hw]
  | [], _ :: _, h, _, _, _ => h.elim
  | _ :: _, [], h, _, _, _ => h.elim

/-- What a buffer holds at the end it held already before operation `k`, if no operation from `k` on writes it. -/
theorem WritesAre.after_take : ∀ {l : List (HloOp τ sig (Elt F))} {W : List (Ref sig .tc)}, WritesAre l W →
    ∀ (k : Nat) (V : Valuation τ sig (Elt F)) {r : Ref sig .tc}, r ∉ W.drop k →
      after l V (Proc.devRef .tc r) = after (l.take k) V (Proc.devRef .tc r)
  | _, _, h, 0, V, _, hr => by
    rw [List.take_zero, after_nil]
    exact h.frame V (by simpa using hr)
  | [], [], _, _ + 1, _, _, _ => rfl
  | op :: l, w :: W, h, k + 1, V, r, hr => by
    rw [List.take_succ_cons, after_cons, after_cons]
    exact WritesAre.after_take h.2 k _ (by simpa using hr)
  | [], _ :: _, h, _ + 1, _, _, _ => h.elim
  | _ :: _, [], h, _ + 1, _, _, _ => h.elim

/-- At the end, the buffer operation `k` writes holds that operation's result over the contents before it, if no
    later operation writes it. -/
theorem WritesAre.after_at : ∀ {l : List (HloOp τ sig (Elt F))} {W : List (Ref sig .tc)}, WritesAre l W →
    ∀ (k : Nat) (op : HloOp τ sig (Elt F)), l[k]? = some op → ∀ (V : Valuation τ sig (Elt F)) {y : Ref sig .tc},
      y ∉ W.drop (k + 1) → after l V (Proc.devRef .tc y) = op.result (after (l.take k) V) (Proc.devRef .tc y)
  | [], _, _, _, _, hk, _, _, _ => by simp at hk
  | o :: l, w :: W, h, 0, op, hk, V, y, hy => by
    obtain rfl : o = op := by simpa using hk
    rw [after_cons, List.take_zero, after_nil]
    exact h.2.frame _ (by simpa using hy)
  | o :: l, w :: W, h, k + 1, op, hk, V, y, hy => by
    rw [after_cons, List.take_succ_cons, after_cons]
    exact WritesAre.after_at h.2 k op (by simpa using hk) _ (by simpa using hy)
  | _ :: _, [], h, _, _, _, _, _, _ => h.elim

section Reads

variable {l : List (HloOp τ sig (Elt F))} {W : List (Ref sig .tc)} (h : WritesAre l W) (k : Nat)
include h

/-- A constant: the buffer holds it. -/
theorem read_nullary (y : Ref sig .tc) (v : y.ty.Contents (Elt F)) (hy)
    (hk : l[k]? = some (nullary y v hy)) (hy' : y ∉ W.drop (k + 1)) (V : Valuation τ sig (Elt F)) :
    after l V (Proc.devRef .tc y) = v := by
  rw [h.after_at k _ hk V hy', nullary_result]

/-- One operand. -/
theorem read_unary (x y : Ref sig .tc) (f : x.ty.Contents (Elt F) → y.ty.Contents (Elt F)) (hx hy)
    (hk : l[k]? = some (unary x y f hx hy)) (hy' : y ∉ W.drop (k + 1)) (hx' : x ∉ W.drop k)
    (V : Valuation τ sig (Elt F)) :
    after l V (Proc.devRef .tc y) = f (after l V (Proc.devRef .tc x)) := by
  rw [h.after_at k _ hk V hy', unary_result, h.after_take k V hx']

/-- Two operands. -/
theorem read_binary (a b y : Ref sig .tc) (f : a.ty.Contents (Elt F) → b.ty.Contents (Elt F) → y.ty.Contents (Elt F)) (ha hb hy)
    (hk : l[k]? = some (binary a b y f ha hb hy)) (hy' : y ∉ W.drop (k + 1)) (ha' : a ∉ W.drop k) (hb' : b ∉ W.drop k)
    (V : Valuation τ sig (Elt F)) :
    after l V (Proc.devRef .tc y) = f (after l V (Proc.devRef .tc a)) (after l V (Proc.devRef .tc b)) := by
  rw [h.after_at k _ hk V hy', binary_result, h.after_take k V ha', h.after_take k V hb']

/-- Three operands. -/
theorem read_ternary (c a b y : Ref sig .tc)
    (f : c.ty.Contents (Elt F) → a.ty.Contents (Elt F) → b.ty.Contents (Elt F) → y.ty.Contents (Elt F)) (hc ha hb hy)
    (hk : l[k]? = some (ternary c a b y f hc ha hb hy)) (hy' : y ∉ W.drop (k + 1)) (hc' : c ∉ W.drop k) (ha' : a ∉ W.drop k)
    (hb' : b ∉ W.drop k) (V : Valuation τ sig (Elt F)) :
    after l V (Proc.devRef .tc y)
      = f (after l V (Proc.devRef .tc c)) (after l V (Proc.devRef .tc a)) (after l V (Proc.devRef .tc b)) := by
  rw [h.after_at k _ hk V hy', ternary_result, h.after_take k V hc', h.after_take k V ha', h.after_take k V hb']

/-- A change of shape. -/
theorem read_reshape (x y : Ref sig .tc) (he : x.ty.elt = y.ty.elt) (hn : x.ty.shape.ShapeCasts y.ty.shape) (hx hy)
    (hk : l[k]? = some (reshape (Val := Elt F) x y he hn hx hy)) (hy' : y ∉ W.drop (k + 1)) (hx' : x ∉ W.drop k)
    (V : Valuation τ sig (Elt F)) :
    after l V (Proc.devRef .tc y) = fun i => he ▸ shapeCast y.ty.shape (after l V (Proc.devRef .tc x)) hn i := by
  rw [h.after_at k _ hk V hy', reshape_result, h.after_take k V hx']

end Reads

end Cert.ReferenceIdeal.RefRun

end
-- ==== Proof.RInputs.lean ====
/-
  The reference program's argument arrays read by coordinates: the layer's data, the source and destination rows of an
  edge being the two rows of the index table read as signed row numbers.
-/
import proofs.«400967_j64424509440774_3_alg».proof.ReferenceIdeal
import proofs.«400967_j64424509440774_3_alg».proof.Proof.Spec
import Idealize.ShloMosaic.Lib.ValueIdx

noncomputable section

namespace Cert.ReferenceIdeal.Val

open Idealize.ShloMosaic Idealize.ShloMosaic.ValueIdx Cert.ReferenceIdeal

/-- A memory of the reference program at the exact instance. -/
abbrev Mem := (ℓ : Loc nD τ sig) → Buf (Elt Ideal) ℓ

/-- The layer's data as the reference program's memory holds it on core `c`. -/
def inputsOf (m : Mem) (c : Dev nD) : EdgeGate.Inputs where
  nf r k := (m ((c.tc : Thread nD τ).loc main_arg0) : (⟨2, ![50000, 128]⟩ : Shape).Idx → EReal) (ix2 r k)
  ef r k := (m ((c.tc : Thread nD τ).loc main_arg1) : (⟨2, ![800000, 128]⟩ : Shape).Idx → EReal) (ix2 r k)
  src e := EdgeGate.rowOf ((m ((c.tc : Thread nD τ).loc main_arg2) : (⟨2, ![2, 800000]⟩ : Shape).Idx → BitVec 32) (ix2 0 e))
  dst e := EdgeGate.rowOf ((m ((c.tc : Thread nD τ).loc main_arg2) : (⟨2, ![2, 800000]⟩ : Shape).Idx → BitVec 32) (ix2 1 e))
  Wsg r k := (m ((c.tc : Thread nD τ).loc main_arg3) : (⟨2, ![128, 128]⟩ : Shape).Idx → EReal) (ix2 r k)
  bsg k := (m ((c.tc : Thread nD τ).loc main_arg4) : (⟨1, ![128]⟩ : Shape).Idx → EReal) (ix1 k)
  Wdg r k := (m ((c.tc : Thread nD τ).loc main_arg5) : (⟨2, ![128, 128]⟩ : Shape).Idx → EReal) (ix2 r k)
  bdg k := (m ((c.tc : Thread nD τ).loc main_arg6) : (⟨1, ![128]⟩ : Shape).Idx → EReal) (ix1 k)
  Weg r k := (m ((c.tc : Thread nD τ).loc main_arg7) : (⟨2, ![128, 128]⟩ : Shape).Idx → EReal) (ix2 r k)
  beg k := (m ((c.tc : Thread nD τ).loc main_arg8) : (⟨1, ![128]⟩ : Shape).Idx → EReal) (ix1 k)
  Wsu r k := (m ((c.tc : Thread nD τ).loc main_arg9) : (⟨2, ![128, 128]⟩ : Shape).Idx → EReal) (ix2 r k)
  bsu k := (m ((c.tc : Thread nD τ).loc main_arg10) : (⟨1, ![128]⟩ : Shape).Idx → EReal) (ix1 k)
  Wdu r k := (m ((c.tc : Thread nD τ).loc main_arg11) : (⟨2, ![128, 128]⟩ : Shape).Idx → EReal) (ix2 r k)
  bdu k := (m ((c.tc : Thread nD τ).loc main_arg12) : (⟨1, ![128]⟩ : Shape).Idx → EReal) (ix1 k)
  gn k := (m ((c.tc : Thread nD τ).loc main_arg13) : (⟨1, ![128]⟩ : Shape).Idx → EReal) (ix1 k)
  bn k := (m ((c.tc : Thread nD τ).loc main_arg14) : (⟨1, ![128]⟩ : Shape).Idx → EReal) (ix1 k)
  ge k := (m ((c.tc : Thread nD τ).loc main_arg15) : (⟨1, ![128]⟩ : Shape).Idx → EReal) (ix1 k)
  be k := (m ((c.tc : Thread nD τ).loc main_arg16) : (⟨1, ![128]⟩ : Shape).Idx → EReal) (ix1 k)

/-- Every entry of the index table is a row number of the node table. -/
def InRange (m : Mem) (c : Dev nD) : Prop :=
  ∀ (a : Fin 2) (e : Fin 800000),
    0 ≤ ((m ((c.tc : Thread nD τ).loc main_arg2) : (⟨2, ![2, 800000]⟩ : Shape).Idx → BitVec 32) (ix2 a e)).toInt
    ∧ ((m ((c.tc : Thread nD τ).loc main_arg2) : (⟨2, ![2, 800000]⟩ : Shape).Idx → BitVec 32) (ix2 a e)).toInt < 50000

end Cert.ReferenceIdeal.Val

end
-- ==== Proof.RValAct.lean ====
/-
  Two stretches of the reference program read at an index, over arbitrary arrays.

  The first is the batch norm's tail followed by the gated unit: subtract the column's mean, multiply by the reciprocal
  root of the column's variance plus a small number, scale and shift column by column, and pass the result `z` through
  `z ↦ z · 1 / (1 + e^(-z))`. A length-128 vector reaches the table through two broadcasts (to one row, then to every
  row), so at row `r`, column `q` it reads its entry `q`; `1 / (1 + e^(-z))` is the logistic function by definition. Entry
  by entry the stretch is therefore `EdgeGate.act`.

  The second is a row of the two-row index table taken out as a vector: the slice keeps row `a`, the reshape drops the
  unit axis, and entry `e` of the result is entry `(a, e)` of the table.
-/
import proofs.«400967_j64424509440774_3_alg».proof.ReferenceIdeal
import proofs.«400967_j64424509440774_3_alg».proof.Proof.Spec
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.ReferenceIdeal.Val

open Idealize.ShloMosaic Idealize.ShloMosaic.ValueIdx Cert.ReferenceIdeal
open Cert.ReferenceIdeal.Facts₀

variable [Facts]

/-- A length-128 vector broadcast to one row and then to every row of an `N × 128` table reads, at row `r`, column `q`,
    its entry `q`. -/
theorem bcast_row_apply {N : Nat} {α : Type} (h1 : S128.BroadcastsInDim S1x128 (![1] : Fin 1 → Fin S1x128.rank))
    (h2 : S1x128.BroadcastsInDim (⟨2, ![N, 128]⟩ : Shape) (![0, 1] : Fin 2 → Fin 2)) (x : S128.Idx → α) (r : Fin N) (q : Fin 128) :
    broadcastInDim (⟨2, ![N, 128]⟩ : Shape) ![0, 1] h2 (broadcastInDim S1x128 ![1] h1 x) (ix2 r q) = x (ix1 q) := by
  rw [broadcastInDim_apply ![0, 1] h2 _ (ix2 r q) (ix2 (0 : Fin 1) q)
      (fun a => match a with | ⟨0, _⟩ => rfl | ⟨1, _⟩ => rfl),
    broadcastInDim_apply ![1] h1 x (ix2 (0 : Fin 1) q) (ix1 q) (fun a => match a with | ⟨0, _⟩ => rfl)]

/-- The gated unit `z ↦ z · 1 / (1 + e^(-z))` at an index: `z` times the logistic function of `z`. -/
theorem gate_apply {s : Shape} (hb : S_.BroadcastsInDim s (![] : Fin 0 → Fin s.rank)) (z : FVec Ideal s .f32) (i : s.Idx) :
    mulf z (Host.divf (broadcastInDim s ![] hb (constant (F := Ideal) S_ .f32 0x3F800000#32))
      (addf (broadcastInDim s ![] hb (constant (F := Ideal) S_ .f32 0x3F800000#32)) (Host.exp (Host.negf z)))) i
      = z i * Ideal.logistic (z i) := by
  show z i * Ideal.div (Ideal.ofBits .f32 0x3F800000#32) (Ideal.ofBits .f32 0x3F800000#32 + Ideal.exp (-(z i))) = _
  rw [Ideal.ofBits_one_f32]
  rfl

/-- The batch norm's tail at row `r`, column `q` of an `N × 128` table. -/
theorem norm_apply {N : Nat} (h1 : S128.BroadcastsInDim S1x128 (![1] : Fin 1 → Fin S1x128.rank))
    (h2 : S1x128.BroadcastsInDim (⟨2, ![N, 128]⟩ : Shape) (![0, 1] : Fin 2 → Fin 2))
    (he : S_.BroadcastsInDim S128 (![] : Fin 0 → Fin S128.rank))
    (v : FVec Ideal (⟨2, ![N, 128]⟩ : Shape) .f32) (mu var g b : FVec Ideal S128 .f32) (r : Fin N) (q : Fin 128) :
    addf (mulf (mulf (subf v (broadcastInDim (⟨2, ![N, 128]⟩ : Shape) ![0, 1] h2 (broadcastInDim S1x128 ![1] h1 mu)))
        (broadcastInDim (⟨2, ![N, 128]⟩ : Shape) ![0, 1] h2 (broadcastInDim S1x128 ![1] h1
          (Host.rsqrt (addf var (broadcastInDim S128 ![] he (constant (F := Ideal) S_ .f32 0x3727C5AC#32)))))))
        (broadcastInDim (⟨2, ![N, 128]⟩ : Shape) ![0, 1] h2 (broadcastInDim S1x128 ![1] h1 g)))
      (broadcastInDim (⟨2, ![N, 128]⟩ : Shape) ![0, 1] h2 (broadcastInDim S1x128 ![1] h1 b)) (ix2 r q)
      = (v (ix2 r q) - mu (ix1 q)) * Ideal.rsqrt (var (ix1 q) + EdgeGate.eps5) * g (ix1 q) + b (ix1 q) := by
  show (v (ix2 r q) - broadcastInDim (⟨2, ![N, 128]⟩ : Shape) ![0, 1] h2 (broadcastInDim S1x128 ![1] h1 mu) (ix2 r q))
      * broadcastInDim (⟨2, ![N, 128]⟩ : Shape) ![0, 1] h2 (broadcastInDim S1x128 ![1] h1
          (Host.rsqrt (addf var (broadcastInDim S128 ![] he (constant (F := Ideal) S_ .f32 0x3727C5AC#32))))) (ix2 r q)
      * broadcastInDim (⟨2, ![N, 128]⟩ : Shape) ![0, 1] h2 (broadcastInDim S1x128 ![1] h1 g) (ix2 r q)
      + broadcastInDim (⟨2, ![N, 128]⟩ : Shape) ![0, 1] h2 (broadcastInDim S1x128 ![1] h1 b) (ix2 r q) = _
  rw [bcast_row_apply, bcast_row_apply, bcast_row_apply, bcast_row_apply]
  rfl

/-- Normalise, scale, shift and gate over the node table, at row `r`, column `q`. -/
theorem act_node (v : FVec Ideal S50000x128 .f32) (mu var g b : FVec Ideal S128 .f32) (r : Fin 50000) (q : Fin 128) :
    (mulf (addf (mulf (mulf (subf v (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b))) (Host.divf (broadcastInDim S50000x128 ![] bcast_S_S50000x128 (constant (F := Ideal) S_ .f32 0x3F800000#32)) (addf (broadcastInDim S50000x128 ![] bcast_S_S50000x128 (constant (F := Ideal) S_ .f32 0x3F800000#32)) (Host.exp (Host.negf (addf (mulf (mulf (subf v (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b)))))))) (ix2 r q)
      = EdgeGate.act (v (ix2 r q)) (mu (ix1 q)) (var (ix1 q)) (g (ix1 q)) (b (ix1 q)) := by
  rw [gate_apply, norm_apply]
  rfl

/-- Normalise, scale, shift and gate over the edge table, at row `r`, column `q`. -/
theorem act_edge (v : FVec Ideal S800000x128 .f32) (mu var g b : FVec Ideal S128 .f32) (r : Fin 800000) (q : Fin 128) :
    (mulf (addf (mulf (mulf (subf v (broadcastInDim S800000x128 ![0, 1] bcast_S1x128_S800000x128_0_1 (broadcastInDim S1x128 ![1] bcast_S128_S1x128_1 mu))) (broadcastInDim S800000x128 ![0, 1] bcast_S1x128_S800000x128_0_1 (broadcastInDim S1x128 ![1] bcast_S128_S1x128_1 (Host.rsqrt (addf var (broadcastInDim S128 ![] bcast_S_S128 (constant (F := Ideal) S_ .f32 0x3727C5AC#32))))))) (broadcastInDim S800000x128 ![0, 1] bcast_S1x128_S800000x128_0_1 (broadcastInDim S1x128 ![1] bcast_S128_S1x128_1 g))) (broadcastInDim S800000x128 ![0, 1] bcast_S1x128_S800000x128_0_1 (broadcastInDim S1x128 ![1] bcast_S128_S1x128_1 b))) (Host.divf (broadcastInDim S800000x128 ![] bcast_S_S800000x128 (constant (F := Ideal) S_ .f32 0x3F800000#32)) (addf (broadcastInDim S800000x128 ![] bcast_S_S800000x128 (constant (F := Ideal) S_ .f32 0x3F800000#32)) (Host.exp (Host.negf (addf (mulf (mulf (subf v (broadcastInDim S800000x128 ![0, 1] bcast_S1x128_S800000x128_0_1 (broadcastInDim S1x128 ![1] bcast_S128_S1x128_1 mu))) (broadcastInDim S800000x128 ![0, 1] bcast_S1x128_S800000x128_0_1 (broadcastInDim S1x128 ![1] bcast_S128_S1x128_1 (Host.rsqrt (addf var (broadcastInDim S128 ![] bcast_S_S128 (constant (F := Ideal) S_ .f32 0x3727C5AC#32))))))) (broadcastInDim S800000x128 ![0, 1] bcast_S1x128_S800000x128_0_1 (broadcastInDim S1x128 ![1] bcast_S128_S1x128_1 g))) (broadcastInDim S800000x128 ![0, 1] bcast_S1x128_S800000x128_0_1 (broadcastInDim S1x128 ![1] bcast_S128_S1x128_1 b)))))))) (ix2 r q)
      = EdgeGate.act (v (ix2 r q)) (mu (ix1 q)) (var (ix1 q)) (g (ix1 q)) (b (ix1 q)) := by
  rw [gate_apply, norm_apply]
  rfl

/-- Row 0 of the index table as a vector: entry `e` is the table's entry `(0, e)`. -/
theorem row0_apply (a2 : IVec S2x800000 32) (e : Fin 800000) :
    shapeCast S800000 (extractStridedSlice S1x800000 ![0, 0] a2 slices_S2x800000_S1x800000_0_0) shapeCasts_S1x800000_S800000 (ix1 e)
      = a2 (ix2 (0 : Fin 2) e) := by
  rw [shapeCast_apply _ shapeCasts_S1x800000_S800000 (ix1 e) (ix2 (0 : Fin 1) e) (by
      rw [Shape.rowMajor_val_two, Shape.rowMajor_val_one]
      show 0 * 800000 + e.val = e.val
      omega),
    extractStridedSlice_apply ![0, 0] a2 slices_S2x800000_S1x800000_0_0 (ix2 (0 : Fin 1) e) (ix2 (0 : Fin 2) e)
      (fun a => match a with | ⟨0, _⟩ => rfl | ⟨1, _⟩ => by show e.val = 0 + e.val; omega)]

/-- Row 1 of the index table as a vector: entry `e` is the table's entry `(1, e)`. -/
theorem row1_apply (a2 : IVec S2x800000 32) (e : Fin 800000) :
    shapeCast S800000 (extractStridedSlice S1x800000 ![1, 0] a2 slices_S2x800000_S1x800000_1_0) shapeCasts_S1x800000_S800000 (ix1 e)
      = a2 (ix2 (1 : Fin 2) e) := by
  rw [shapeCast_apply _ shapeCasts_S1x800000_S800000 (ix1 e) (ix2 (0 : Fin 1) e) (by
      rw [Shape.rowMajor_val_two, Shape.rowMajor_val_one]
      show 0 * 800000 + e.val = e.val
      omega),
    extractStridedSlice_apply ![1, 0] a2 slices_S2x800000_S1x800000_1_0 (ix2 (0 : Fin 1) e) (ix2 (1 : Fin 2) e)
      (fun a => match a with | ⟨0, _⟩ => rfl | ⟨1, _⟩ => by show e.val = 0 + e.val; omega)]

end Cert.ReferenceIdeal.Val

end
-- ==== Proof.RValOps.lean ====
/-
  Host operations of the reference program read at an index, on the extended reals, over variables of the program's
  literal array types: a column reduction as the sum over the rows, and the variance function the program calls,
  which is the mean of the squared deviations from the column's mean.
-/
import proofs.«400967_j64424509440774_3_alg».proof.ReferenceIdeal
import proofs.«400967_j64424509440774_3_alg».proof.Proof.Spec
import proofs.«400967_j64424509440774_3_alg».proof.Proof.Algebra
import Idealize.ShloMosaic.Lib.ValueIdx
import Idealize.ShloMosaic.Lib.Pipeline.Value
import Idealize.ShloMosaic.PureOps.Ideal.Laws

noncomputable section

open scoped BigOperators

namespace Cert.ReferenceIdeal.Val

open Idealize.ShloMosaic Idealize.ShloMosaic.ValueIdx Cert.ReferenceIdeal

variable [Facts₀]
open Facts₀

/-- A column of the node-sized table summed over its rows, from zero. -/
theorem colsumN_apply (x : FVec Ideal S50000x128 .f32) (q : Fin 128) :
    Host.reduceAdd x (constant (F := Ideal) S_ .f32 0x00000000#32) reducesTo_S50000x128_S128_d0 h_S_ (ix1 q)
      = ∑ r : Fin 50000, x (ix2 r q) := by
  have hR : S50000x128.Reduces [0] S128 := by decide
  show Ideal.hostReduceAdd reducesTo_S50000x128_S128_d0 x (Ideal.ofBits .f32 0x00000000#32) (ix1 q) = _
  rw [Ideal.hostReduceAdd_single _ hR, Ideal.ofBits_zero_f32, zero_add]
  refine Finset.sum_congr rfl (fun r _ => congrArg x ?_)
  funext a
  match a with
  | ⟨0, _⟩ => rfl
  | ⟨1, _⟩ => rfl

/-- A column of the edge-sized table summed over its rows, from zero. -/
theorem colsumE_apply (x : FVec Ideal S800000x128 .f32) (q : Fin 128) :
    Host.reduceAdd x (constant (F := Ideal) S_ .f32 0x00000000#32) reducesTo_S800000x128_S128_d0 h_S_ (ix1 q)
      = ∑ r : Fin 800000, x (ix2 r q) := by
  have hR : S800000x128.Reduces [0] S128 := by decide
  show Ideal.hostReduceAdd reducesTo_S800000x128_S128_d0 x (Ideal.ofBits .f32 0x00000000#32) (ix1 q) = _
  rw [Ideal.hostReduceAdd_single _ hR, Ideal.ofBits_zero_f32, zero_add]
  refine Finset.sum_congr rfl (fun r _ => congrArg x ?_)
  funext a
  match a with
  | ⟨0, _⟩ => rfl
  | ⟨1, _⟩ => rfl

/-- The program's variance function on a node-sized table `x`, with its second argument (the degrees of freedom
    taken off the count) the constant zero: the composed term of the function's operations. -/
def varN (x : FVec Ideal S50000x128 .f32) : FVec Ideal S128 .f32 :=
  let cnt : FVec Ideal S_ .f32 := subf (constant S_ .f32 0x47435000#32) (sitofp .f32 (constantI S_ 32 0#32))
  let mu : FVec Ideal S1x128 .f32 :=
    Host.divf
      (broadcastInDim S1x128 ![1] bcast_S128_S1x128_1
        (Host.reduceAdd x (constant S_ .f32 0x00000000#32) reducesTo_S50000x128_S128_d0 h_S_))
      (broadcastInDim S1x128 ![] bcast_S_S1x128 (constant S_ .f32 0x47435000#32))
  let d : FVec Ideal S50000x128 .f32 := subf x (broadcastInDim S50000x128 ![0, 1] bcast_S1x128_S50000x128_0_1 mu)
  select (broadcastInDim S128 ![] bcast_S_S128 (cmpf .ogt cnt (constant S_ .f32 0x00000000#32)))
    (Host.divf (Host.reduceAdd (mulf d d) (constant S_ .f32 0x00000000#32) reducesTo_S50000x128_S128_d0 h_S_)
      (broadcastInDim S128 ![] bcast_S_S128 cnt))
    (broadcastInDim S128 ![] bcast_S_S128 (id (constant S_ .f32 0x7FC00000#32)))

/-- The same function on an edge-sized table. -/
def varE (x : FVec Ideal S800000x128 .f32) : FVec Ideal S128 .f32 :=
  let cnt : FVec Ideal S_ .f32 := subf (constant S_ .f32 0x49435000#32) (sitofp .f32 (constantI S_ 32 0#32))
  let mu : FVec Ideal S1x128 .f32 :=
    Host.divf
      (broadcastInDim S1x128 ![1] bcast_S128_S1x128_1
        (Host.reduceAdd x (constant S_ .f32 0x00000000#32) reducesTo_S800000x128_S128_d0 h_S_))
      (broadcastInDim S1x128 ![] bcast_S_S1x128 (constant S_ .f32 0x49435000#32))
  let d : FVec Ideal S800000x128 .f32 := subf x (broadcastInDim S800000x128 ![0, 1] bcast_S1x128_S800000x128_0_1 mu)
  select (broadcastInDim S128 ![] bcast_S_S128 (cmpf .ogt cnt (constant S_ .f32 0x00000000#32)))
    (Host.divf (Host.reduceAdd (mulf d d) (constant S_ .f32 0x00000000#32) reducesTo_S800000x128_S128_d0 h_S_)
      (broadcastInDim S128 ![] bcast_S_S128 cnt))
    (broadcastInDim S128 ![] bcast_S_S128 (id (constant S_ .f32 0x7FC00000#32)))

/-- A scalar spread over a vector of 128 reads the scalar. -/
theorem splat128_apply {α : Type} (c : S_.Idx → α) (q : Fin 128) :
    broadcastInDim S128 ![] bcast_S_S128 c (ix1 q) = c ix0 := by
  unfold broadcastInDim; exact congrArg c (funext fun a => a.elim0)

/-- The host's quotient at an index. -/
theorem hdivf_apply {s : Shape} (a b : FVec Ideal s .f32) (i : s.Idx) : Host.divf a b i = Ideal.div (a i) (b i) := rfl

/-- The column mean the variance function forms, spread back over the table, read at an entry. -/
theorem meanN_apply (x : FVec Ideal S50000x128 .f32) (r : Fin 50000) (k : Fin 128) :
    broadcastInDim S50000x128 ![0, 1] bcast_S1x128_S50000x128_0_1
      (Host.divf
        (broadcastInDim S1x128 ![1] bcast_S128_S1x128_1
          (Host.reduceAdd x (constant (F := Ideal) S_ .f32 0x00000000#32) reducesTo_S50000x128_S128_d0 h_S_))
        (broadcastInDim S1x128 ![] bcast_S_S1x128 (constant (F := Ideal) S_ .f32 0x47435000#32))) (ix2 r k)
      = EdgeGate.mean EdgeGate.cntN (fun r k => x (ix2 r k)) k := by
  rw [broadcastInDim_apply _ _ _ _ (ix2 (0 : Fin 1) k) (fun a => by
    match a with
    | ⟨0, _⟩ => exact (if_pos rfl).symm
    | ⟨1, _⟩ => exact (if_neg (show ¬ (128 : ℕ) = 1 by decide)).symm)]
  rw [hdivf_apply, broadcastInDim_apply _ _ _ _ (ix1 k) (fun a => by
    match a with
    | ⟨0, _⟩ => exact (if_neg (show ¬ (128 : ℕ) = 1 by decide)).symm), colsumN_apply]
  rfl

/-- The count minus zero is positive, so the function's guard keeps the quotient: the variance function at column
    `q` is the mean of the squared deviations of that column. -/
theorem varN_apply (x : FVec Ideal S50000x128 .f32) (q : Fin 128) :
    varN x (ix1 q) = EdgeGate.varR EdgeGate.cntN (fun r k => x (ix2 r k)) q := by
  have hc0 : EdgeGate.cntN - (((0#32 : BitVec 32).toInt : ℝ) : EReal) = EdgeGate.cntN := by
    rw [BitVec.toInt_zero, Int.cast_zero, EReal.coe_zero, sub_zero]
  have hgt : Ideal.cmp .ogt EdgeGate.cntN (Ideal.ofBits .f32 0x00000000#32) = 1#1 := by
    rw [Ideal.ofBits_zero_f32, EdgeGate.cntN_eq]
    unfold Ideal.cmp
    have : (0 : EReal) < ((50000 : ℝ) : EReal) := by exact_mod_cast (by norm_num : (0 : ℝ) < 50000)
    simp only [this, decide_true]; rfl
  simp only [varN, select_apply, hdivf_apply, colsumN_apply, mulf_apply, subf_apply]
  rw [splat128_apply, splat128_apply, splat128_apply]
  rw [Finset.sum_congr rfl (fun r _ => by rw [meanN_apply] :
    ∀ r ∈ (Finset.univ : Finset (Fin 50000)), _ = (x (ix2 r q) - EdgeGate.mean EdgeGate.cntN (fun r k => x (ix2 r k)) q)
      * (x (ix2 r q) - EdgeGate.mean EdgeGate.cntN (fun r k => x (ix2 r k)) q))]
  show Scalar.select (Ideal.cmp .ogt (EdgeGate.cntN - (((0#32 : BitVec 32).toInt : ℝ) : EReal)) (Ideal.ofBits .f32 0x00000000#32))
    (Ideal.div _ (EdgeGate.cntN - (((0#32 : BitVec 32).toInt : ℝ) : EReal))) _ = _
  rw [hc0, hgt, select_one]
  rfl

/-- The same for an edge-sized table. -/
theorem meanE_apply (x : FVec Ideal S800000x128 .f32) (r : Fin 800000) (k : Fin 128) :
    broadcastInDim S800000x128 ![0, 1] bcast_S1x128_S800000x128_0_1
      (Host.divf
        (broadcastInDim S1x128 ![1] bcast_S128_S1x128_1
          (Host.reduceAdd x (constant (F := Ideal) S_ .f32 0x00000000#32) reducesTo_S800000x128_S128_d0 h_S_))
        (broadcastInDim S1x128 ![] bcast_S_S1x128 (constant (F := Ideal) S_ .f32 0x49435000#32))) (ix2 r k)
      = EdgeGate.mean EdgeGate.cntE (fun r k => x (ix2 r k)) k := by
  rw [broadcastInDim_apply _ _ _ _ (ix2 (0 : Fin 1) k) (fun a => by
    match a with
    | ⟨0, _⟩ => exact (if_pos rfl).symm
    | ⟨1, _⟩ => exact (if_neg (show ¬ (128 : ℕ) = 1 by decide)).symm)]
  rw [hdivf_apply, broadcastInDim_apply _ _ _ _ (ix1 k) (fun a => by
    match a with
    | ⟨0, _⟩ => exact (if_neg (show ¬ (128 : ℕ) = 1 by decide)).symm), colsumE_apply]
  rfl

/-- The same on an edge-sized table. -/
theorem varE_apply (x : FVec Ideal S800000x128 .f32) (q : Fin 128) :
    varE x (ix1 q) = EdgeGate.varR EdgeGate.cntE (fun r k => x (ix2 r k)) q := by
  have hc0 : EdgeGate.cntE - (((0#32 : BitVec 32).toInt : ℝ) : EReal) = EdgeGate.cntE := by
    rw [BitVec.toInt_zero, Int.cast_zero, EReal.coe_zero, sub_zero]
  have hgt : Ideal.cmp .ogt EdgeGate.cntE (Ideal.ofBits .f32 0x00000000#32) = 1#1 := by
    rw [Ideal.ofBits_zero_f32, EdgeGate.cntE_eq]
    unfold Ideal.cmp
    have : (0 : EReal) < ((800000 : ℝ) : EReal) := by exact_mod_cast (by norm_num : (0 : ℝ) < 800000)
    simp only [this, decide_true]; rfl
  simp only [varE, select_apply, hdivf_apply, colsumE_apply, mulf_apply, subf_apply]
  rw [splat128_apply, splat128_apply, splat128_apply]
  rw [Finset.sum_congr rfl (fun r _ => by rw [meanE_apply] :
    ∀ r ∈ (Finset.univ : Finset (Fin 800000)), _ = (x (ix2 r q) - EdgeGate.mean EdgeGate.cntE (fun r k => x (ix2 r k)) q)
      * (x (ix2 r q) - EdgeGate.mean EdgeGate.cntE (fun r k => x (ix2 r k)) q))]
  show Scalar.select (Ideal.cmp .ogt (EdgeGate.cntE - (((0#32 : BitVec 32).toInt : ℝ) : EReal)) (Ideal.ofBits .f32 0x00000000#32))
    (Ideal.div _ (EdgeGate.cntE - (((0#32 : BitVec 32).toInt : ℝ) : EReal))) _ = _
  rw [hc0, hgt, select_one]
  rfl

end Cert.ReferenceIdeal.Val

end
-- ==== Proof.RValSeg.lean ====
/-
  The reference's per-node sums: an accumulating scatter of an 800000 × 128 array of per-edge rows into a 50000 × 128
  array of zeros, every edge's row added onto the row its row number names. An edge whose row number is a row of the
  node table lands exactly there, so the result at `(n, q)` is column `q` summed over the edges whose row number is `n`.
-/
import proofs.«400967_j64424509440774_3_alg».proof.ReferenceIdeal
import proofs.«400967_j64424509440774_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Val

open Idealize.ShloMosaic Idealize.ShloMosaic.ValueIdx Cert.ReferenceIdeal
open Cert.ReferenceIdeal.Facts₀

variable [Facts₀]

/-- Where the scatter puts update element `(e, b)`: on the row the index column names at `e`, read as a signed number, in
    column `b` — when that number is a row of the node table. -/
theorem seg_lands (idx : IVec S800000x1 32) (e : Fin 800000) (b : Fin 128)
    (h0 : 0 ≤ (idx (ix2 e (0 : Fin 1))).toInt) (h1 : (idx (ix2 e (0 : Fin 1))).toInt < 50000) :
    scatter_S50000x128_S800000x1_S800000x128_1_0_0_1.resultIdx? (ix2 e b : S800000x128.Idx) idx
      = some (ix2 (EdgeGate.rowOf (idx (ix2 e (0 : Fin 1)))) b) := by
  have hs0 : scatter_S50000x128_S800000x1_S800000x128_1_0_0_1.start (ix2 e b : S800000x128.Idx) idx (0 : Fin 2)
      = (idx (ix2 e (0 : Fin 1))).toInt := by
    unfold ScatterDims.start
    rw [dif_pos (show (0 : Fin 2) ∈ scatter_S50000x128_S800000x1_S800000x128_1_0_0_1.scatterDimsToOperandDims from
      List.mem_singleton.mpr rfl)]
    congr 2
    funext a; refine Fin.ext ?_
    match a with
    | ⟨0, _⟩ => rfl
    | ⟨1, _⟩ => rfl
  have hs1 : scatter_S50000x128_S800000x1_S800000x128_1_0_0_1.start (ix2 e b : S800000x128.Idx) idx (1 : Fin 2) = 0 := by
    unfold ScatterDims.start
    rw [dif_neg (show ¬ (1 : Fin 2) ∈ scatter_S50000x128_S800000x1_S800000x128_1_0_0_1.scatterDimsToOperandDims from
      fun h => absurd (List.mem_singleton.mp h) (by decide))]
  have hw0 : scatter_S50000x128_S800000x1_S800000x128_1_0_0_1.window (ix2 e b : S800000x128.Idx) (0 : Fin 2) = 0 := by
    unfold ScatterDims.window
    rw [dif_neg (show ¬ (0 : Fin 2) ∈ scatter_S50000x128_S800000x1_S800000x128_1_0_0_1.sKept from
      fun h => absurd (List.mem_singleton.mp h) (by decide))]
  have hw1 : scatter_S50000x128_S800000x1_S800000x128_1_0_0_1.window (ix2 e b : S800000x128.Idx) (1 : Fin 2) = b.val := by
    unfold ScatterDims.window
    rw [dif_pos (show (1 : Fin 2) ∈ scatter_S50000x128_S800000x1_S800000x128_1_0_0_1.sKept from List.mem_singleton.mpr rfl)]
    rfl
  have hin : ∀ a, 0 ≤ scatter_S50000x128_S800000x1_S800000x128_1_0_0_1.start (ix2 e b : S800000x128.Idx) idx a
        + scatter_S50000x128_S800000x1_S800000x128_1_0_0_1.window (ix2 e b : S800000x128.Idx) a
      ∧ scatter_S50000x128_S800000x1_S800000x128_1_0_0_1.start (ix2 e b : S800000x128.Idx) idx a
        + scatter_S50000x128_S800000x1_S800000x128_1_0_0_1.window (ix2 e b : S800000x128.Idx) a < S50000x128.size a := by
    intro a
    match a with
    | ⟨0, _⟩ =>
      show 0 ≤ scatter_S50000x128_S800000x1_S800000x128_1_0_0_1.start (ix2 e b : S800000x128.Idx) idx 0
          + (scatter_S50000x128_S800000x1_S800000x128_1_0_0_1.window (ix2 e b : S800000x128.Idx) 0 : ℤ)
        ∧ scatter_S50000x128_S800000x1_S800000x128_1_0_0_1.start (ix2 e b : S800000x128.Idx) idx 0
          + (scatter_S50000x128_S800000x1_S800000x128_1_0_0_1.window (ix2 e b : S800000x128.Idx) 0 : ℤ) < ((50000 : ℕ) : ℤ)
      rw [hs0, hw0]; omega
    | ⟨1, _⟩ =>
      show 0 ≤ scatter_S50000x128_S800000x1_S800000x128_1_0_0_1.start (ix2 e b : S800000x128.Idx) idx 1
          + (scatter_S50000x128_S800000x1_S800000x128_1_0_0_1.window (ix2 e b : S800000x128.Idx) 1 : ℤ)
        ∧ scatter_S50000x128_S800000x1_S800000x128_1_0_0_1.start (ix2 e b : S800000x128.Idx) idx 1
          + (scatter_S50000x128_S800000x1_S800000x128_1_0_0_1.window (ix2 e b : S800000x128.Idx) 1 : ℤ) < ((128 : ℕ) : ℤ)
      rw [hs1, hw1]; have := b.isLt; omega
  unfold ScatterDims.resultIdx?
  rw [dif_pos hin]
  congr 1
  refine Shape.idx_ext₂ ?_ ?_
  · show (scatter_S50000x128_S800000x1_S800000x128_1_0_0_1.start (ix2 e b : S800000x128.Idx) idx 0
        + (scatter_S50000x128_S800000x1_S800000x128_1_0_0_1.window (ix2 e b : S800000x128.Idx) 0 : ℤ)).toNat
      = min (idx (ix2 e (0 : Fin 1))).toInt.toNat 49999
    rw [hs0, hw0]; omega
  · show (scatter_S50000x128_S800000x1_S800000x128_1_0_0_1.start (ix2 e b : S800000x128.Idx) idx 1
        + (scatter_S50000x128_S800000x1_S800000x128_1_0_0_1.window (ix2 e b : S800000x128.Idx) 1 : ℤ)).toNat = b.val
    rw [hs1, hw1]; omega

/-- The accumulating scatter read at `(n, b)`: the operand there plus the update's column `b` summed over the rows `e` whose
    index names row `n` — every index being a row of the node table. -/
theorem seg_scatter_apply (x0 : S50000x128.Idx → EReal) (idx : IVec S800000x1 32) (upd : S800000x128.Idx → EReal)
    (hidx : ∀ e : Fin 800000, 0 ≤ (idx (ix2 e (0 : Fin 1))).toInt ∧ (idx (ix2 e (0 : Fin 1))).toInt < 50000)
    (n : Fin 50000) (b : Fin 128) :
    Ideal.hostScatterAdd scatter_S50000x128_S800000x1_S800000x128_1_0_0_1 x0 idx upd (ix2 n b)
      = x0 (ix2 n b)
        + ∑ e ∈ Finset.univ.filter (fun e : Fin 800000 => EdgeGate.rowOf (idx (ix2 e (0 : Fin 1))) = n), upd (ix2 e b) := by
  unfold Ideal.hostScatterAdd
  refine congrArg (fun z => x0 (ix2 n b) + z) ?_
  rw [Finset.sum_filter, sum_idx2, Finset.sum_filter]
  refine Finset.sum_congr rfl fun e _ => ?_
  have key : ∀ b' : Fin 128,
      (scatter_S50000x128_S800000x1_S800000x128_1_0_0_1.resultIdx? (ix2 e b' : S800000x128.Idx) idx
          = some (ix2 n b : S50000x128.Idx))
        ↔ (EdgeGate.rowOf (idx (ix2 e (0 : Fin 1))) = n ∧ b' = b) := by
    intro b'
    rw [seg_lands idx e b' (hidx e).1 (hidx e).2, Option.some.injEq]
    constructor
    · intro h; exact ⟨congrFun h 0, congrFun h 1⟩
    · rintro ⟨rfl, rfl⟩; rfl
  rw [Finset.sum_eq_single b]
  · by_cases h : EdgeGate.rowOf (idx (ix2 e (0 : Fin 1))) = n
    · rw [if_pos ((key b).mpr ⟨h, rfl⟩), if_pos h]
    · rw [if_neg (fun h' => h ((key b).mp h').1), if_neg h]
  · intro b' _ hb'
    exact if_neg (fun h' => hb' ((key b').mp h').2)
  · intro h; exact absurd (Finset.mem_univ b) h

/-- On the extended reals the host's accumulating scatter is the exact sum, at any shapes. -/
theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The scatter-add into zeros at row `n`, column `q`: the sum of the updates' column `q` over the edges whose row
    number is `n`. -/
theorem segsum_apply (idx : IVec S800000 32) (upd : FVec Ideal S800000x128 .f32) (n : Fin 50000) (q : Fin 128)
    (h : ∀ e : Fin 800000, 0 ≤ (idx (ix1 e)).toInt ∧ (idx (ix1 e)).toInt < 50000) :
    Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 idx) upd (ix2 n q)
      = ∑ e ∈ Finset.univ.filter (fun e : Fin 800000 => EdgeGate.rowOf (idx (ix1 e)) = n), upd (ix2 e q) := by
  have hcol : ∀ e : Fin 800000,
      broadcastInDim S800000x1 ![0] bcast_S800000_S800000x1_0 idx (ix2 e (0 : Fin 1)) = idx (ix1 e) := fun e =>
    broadcastInDim_apply _ _ _ (ix2 e (0 : Fin 1)) (ix1 e) (fun a => match a with | ⟨0, _⟩ => rfl)
  rw [scatterAdd_eq, seg_scatter_apply _ _ _ (fun e => by rw [hcol e]; exact h e)]
  have hz : broadcastInDim S50000x128 ![] bcast_S_S50000x128 (constant (F := Ideal) S_ .f32 0x00000000#32) (ix2 n q)
      = (0 : EReal) := Ideal.ofBits_zero_f32
  rw [hz, zero_add]
  refine Finset.sum_congr ?_ fun _ _ => rfl
  refine Finset.filter_congr fun e _ => ?_
  rw [hcol e]

end Cert.ReferenceIdeal.Val

end
-- ==== Proof.RVal.lean ====
/-
  What the reference program computes, entry by entry: the layer as Spec.lean writes it, the variance as the mean of
  the squared deviations. Each host operation is read at an index: a matrix product as a sum over the contracted
  axis, a take as the row its (in-range) row number names, a scatter-add into zeros as the sum over the edges that land
  on a row, a column reduction as a sum over the rows; the rest is pointwise.

  The operations form three stretches. The first thirty-nine take the two rows out of the index table, apply the three
  affine maps of the gate and add the rows they name: the gate's pre-activation. The next forty-one form the gate, the
  message, the two sums over the edges that leave a node and the node table before normalisation. The rest normalise each
  of the two tables column by column, pass it through the gated unit and add the input. Each stretch is read once, as a
  function of what the stretch before it left, and the three are then put together from the launch contents.
-/
import proofs.«400967_j64424509440774_3_alg».proof.Proof.RReadTable
import proofs.«400967_j64424509440774_3_alg».proof.Proof.RInputs
import proofs.«400967_j64424509440774_3_alg».proof.Proof.RValAct
import proofs.«400967_j64424509440774_3_alg».proof.Proof.RValOps
import proofs.«400967_j64424509440774_3_alg».proof.Proof.RValSeg
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Val

open Idealize.ShloMosaic Idealize.ShloMosaic.ValueIdx Idealize.ShloMosaic.StableHlo Cert.ReferenceIdeal Cert.ReferenceIdeal.RefRun
open Cert.ReferenceIdeal.Facts₀

/-! ## The affine maps -/

theorem lhsN_0 (j : S50000x128.Idx) (k : (dot_S50000x128_S128x128_S50000x128_1_0_0_1_n_n).contr.Idx) :
    ((dot_S50000x128_S128x128_S50000x128_1_0_0_1_n_n).lhsIdx j k 0).val = (j 0).val := rfl
theorem lhsN_1 (j : S50000x128.Idx) (k : (dot_S50000x128_S128x128_S50000x128_1_0_0_1_n_n).contr.Idx) :
    ((dot_S50000x128_S128x128_S50000x128_1_0_0_1_n_n).lhsIdx j k 1).val = (k ⟨0, by decide⟩).val := rfl
theorem rhsN_0 (j : S50000x128.Idx) (k : (dot_S50000x128_S128x128_S50000x128_1_0_0_1_n_n).contr.Idx) :
    ((dot_S50000x128_S128x128_S50000x128_1_0_0_1_n_n).rhsIdx j k 0).val = (k ⟨0, by decide⟩).val := rfl
theorem rhsN_1 (j : S50000x128.Idx) (k : (dot_S50000x128_S128x128_S50000x128_1_0_0_1_n_n).contr.Idx) :
    ((dot_S50000x128_S128x128_S50000x128_1_0_0_1_n_n).rhsIdx j k 1).val = (j 1).val := rfl

/-- The bias row spread over the rows. -/
theorem biasN_apply (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The product with the transposed weight table at an entry: the row of the left table against the row of the weights. -/
theorem dotN_apply (x : FVec Ideal S50000x128 .f32) (W : FVec Ideal S128x128 .f32) (r : Fin 50000) (q : Fin 128) :
    Host.dotGeneral (F := Ideal) dot_S50000x128_S128x128_S50000x128_1_0_0_1_n_n none x
        (transpose S128x128 [1, 0] W transposes_S128x128_S128x128_1_0) (ix2 r q)
      = ∑ k : Fin 128, x (ix2 r k) * W (ix2 q k) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  congr 1
  · refine congrArg x (funext fun a => Fin.ext ?_)
    match a with
    | ⟨0, _⟩ => exact lhsN_0 _ _
    | ⟨1, _⟩ => exact (lhsN_1 _ _).trans hk
  · refine transpose_apply _ W _ _ (ix2 q k) fun b => ?_
    match b with
    | ⟨0, _⟩ => exact ((rhsN_0 (ix2 r q) _).trans hk).symm
    | ⟨1, _⟩ => exact (rhsN_1 (ix2 r q) _).symm

/-- The affine map of the node table at an entry. -/
theorem linN_apply (x : FVec Ideal S50000x128 .f32) (W : FVec Ideal S128x128 .f32) (b : FVec Ideal S128 .f32)
    (r : Fin 50000) (q : Fin 128) :
    addf (Host.dotGeneral (F := Ideal) dot_S50000x128_S128x128_S50000x128_1_0_0_1_n_n none x
        (transpose S128x128 [1, 0] W transposes_S128x128_S128x128_1_0))
      (broadcastInDim S50000x128 ![0, 1] bcast_S1x128_S50000x128_0_1 (broadcastInDim S1x128 ![1] bcast_S128_S1x128_1 b)) (ix2 r q)
      = EdgeGate.lin (fun r k => x (ix2 r k)) (fun q k => W (ix2 q k)) (fun k => b (ix1 k)) r q := by
  rw [addf_apply, dotN_apply, biasN_apply]
  rfl

theorem lhsE_0 (j : S800000x128.Idx) (k : (dot_S800000x128_S128x128_S800000x128_1_0_0_1_n_n).contr.Idx) :
    ((dot_S800000x128_S128x128_S800000x128_1_0_0_1_n_n).lhsIdx j k 0).val = (j 0).val := rfl
theorem lhsE_1 (j : S800000x128.Idx) (k : (dot_S800000x128_S128x128_S800000x128_1_0_0_1_n_n).contr.Idx) :
    ((dot_S800000x128_S128x128_S800000x128_1_0_0_1_n_n).lhsIdx j k 1).val = (k ⟨0, by decide⟩).val := rfl
theorem rhsE_0 (j : S800000x128.Idx) (k : (dot_S800000x128_S128x128_S800000x128_1_0_0_1_n_n).contr.Idx) :
    ((dot_S800000x128_S128x128_S800000x128_1_0_0_1_n_n).rhsIdx j k 0).val = (k ⟨0, by decide⟩).val := rfl
theorem rhsE_1 (j : S800000x128.Idx) (k : (dot_S800000x128_S128x128_S800000x128_1_0_0_1_n_n).contr.Idx) :
    ((dot_S800000x128_S128x128_S800000x128_1_0_0_1_n_n).rhsIdx j k 1).val = (j 1).val := rfl

/-- The bias row spread over the edge table's rows. -/
theorem biasE_apply (b : FVec Ideal S128 .f32) (r : Fin 800000) (q : Fin 128) :
    broadcastInDim S800000x128 ![0, 1] bcast_S1x128_S800000x128_0_1 (broadcastInDim S1x128 ![1] bcast_S128_S1x128_1 b) (ix2 r q)
      = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The same product for the edge table. -/
theorem dotE_apply (x : FVec Ideal S800000x128 .f32) (W : FVec Ideal S128x128 .f32) (r : Fin 800000) (q : Fin 128) :
    Host.dotGeneral (F := Ideal) dot_S800000x128_S128x128_S800000x128_1_0_0_1_n_n none x
        (transpose S128x128 [1, 0] W transposes_S128x128_S128x128_1_0) (ix2 r q)
      = ∑ k : Fin 128, x (ix2 r k) * W (ix2 q k) := by
  simp only [Host.dotGeneral]
  rw [Ideal.dotGeneral_apply,
    ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  congr 1
  · refine congrArg x (funext fun a => Fin.ext ?_)
    match a with
    | ⟨0, _⟩ => exact lhsE_0 _ _
    | ⟨1, _⟩ => exact (lhsE_1 _ _).trans hk
  · refine transpose_apply _ W _ _ (ix2 q k) fun b => ?_
    match b with
    | ⟨0, _⟩ => exact ((rhsE_0 (ix2 r q) _).trans hk).symm
    | ⟨1, _⟩ => exact (rhsE_1 (ix2 r q) _).symm

/-- The affine map of the edge table at an entry. -/
theorem linE_apply (x : FVec Ideal S800000x128 .f32) (W : FVec Ideal S128x128 .f32) (b : FVec Ideal S128 .f32)
    (r : Fin 800000) (q : Fin 128) :
    addf (Host.dotGeneral (F := Ideal) dot_S800000x128_S128x128_S800000x128_1_0_0_1_n_n none x
        (transpose S128x128 [1, 0] W transposes_S128x128_S128x128_1_0))
      (broadcastInDim S800000x128 ![0, 1] bcast_S1x128_S800000x128_0_1 (broadcastInDim S1x128 ![1] bcast_S128_S1x128_1 b)) (ix2 r q)
      = EdgeGate.lin (fun r k => x (ix2 r k)) (fun q k => W (ix2 q k)) (fun k => b (ix1 k)) r q := by
  rw [addf_apply, dotE_apply, biasE_apply]
  rfl

/-! ## The take of rows -/

/-- A signed word that is not negative is not below the zero word. -/
theorem slt_zero_of_nonneg (w : BitVec 32) (h : 0 ≤ w.toInt) : IntOp.cmpi .slt w 0#32 = 0#1 := by
  unfold IntOp.cmpi
  have : ¬ w.toInt < 0 := by omega
  simp [BitVec.slt, this]

theorem gatherN_0 (i : IVec S800000x1 32) (e : Fin 800000) (q : Fin 128) :
    ((gather_S50000x128_S800000x1_S800000x128_1_0_n_n_0_1_1128).operandIdx (ix2 e q) i 0).val
      = min (i (ix2 e (0 : Fin 1))).toInt.toNat 49999 := by
  show (gather_S50000x128_S800000x1_S800000x128_1_0_n_n_0_1_1128).start (ix2 e q) i 0
      + (gather_S50000x128_S800000x1_S800000x128_1_0_n_n_0_1_1128).batchCoord (ix2 e q) 0
      + (gather_S50000x128_S800000x1_S800000x128_1_0_n_n_0_1_1128).offCoord (ix2 e q) 0 = _
  have hb : (gather_S50000x128_S800000x1_S800000x128_1_0_n_n_0_1_1128).batchCoord (ix2 e q) 0 = 0 := rfl
  have ho : (gather_S50000x128_S800000x1_S800000x128_1_0_n_n_0_1_1128).offCoord (ix2 e q) 0 = 0 := rfl
  simp only [hb, ho, Nat.add_zero]
  unfold GatherDims.start
  rw [dif_pos (show (0 : Fin S50000x128.rank) ∈ (gather_S50000x128_S800000x1_S800000x128_1_0_n_n_0_1_1128).startIndexMap from
    List.mem_singleton.mpr rfl)]
  have hsi : (gather_S50000x128_S800000x1_S800000x128_1_0_n_n_0_1_1128).siIdx (ix2 e q)
      ⟨List.idxOf (0 : Fin S50000x128.rank) (gather_S50000x128_S800000x1_S800000x128_1_0_n_n_0_1_1128).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherN_1 (i : IVec S800000x1 32) (e : Fin 800000) (q : Fin 128) :
    ((gather_S50000x128_S800000x1_S800000x128_1_0_n_n_0_1_1128).operandIdx (ix2 e q) i 1).val = q.val := by
  show (gather_S50000x128_S800000x1_S800000x128_1_0_n_n_0_1_1128).start (ix2 e q) i 1
      + (gather_S50000x128_S800000x1_S800000x128_1_0_n_n_0_1_1128).batchCoord (ix2 e q) 1
      + (gather_S50000x128_S800000x1_S800000x128_1_0_n_n_0_1_1128).offCoord (ix2 e q) 1 = _
  have hs : (gather_S50000x128_S800000x1_S800000x128_1_0_n_n_0_1_1128).start (ix2 e q) i 1 = 0 := rfl
  have hb : (gather_S50000x128_S800000x1_S800000x128_1_0_n_n_0_1_1128).batchCoord (ix2 e q) 1 = 0 := rfl
  have ho : (gather_S50000x128_S800000x1_S800000x128_1_0_n_n_0_1_1128).offCoord (ix2 e q) 1 = q.val := rfl
  rw [hs, hb, ho]
  omega

/-- The index column with negative entries wrapped, at an edge whose entry is a row number: the entry itself. -/
theorem wrapCol_apply (idx : IVec S800000 32) (e : Fin 800000) (h0 : 0 ≤ (idx (ix1 e)).toInt) :
    broadcastInDim S800000x1 ![0] bcast_S800000_S800000x1_0
        (select (cmpi .slt idx (broadcastInDim S800000 ![] bcast_S_S800000 (constantI S_ 32 0#32)))
          (addi idx (broadcastInDim S800000 ![] bcast_S_S800000 (constantI S_ 32 50000#32))) idx) (ix2 e (0 : Fin 1))
      = idx (ix1 e) := by
  refine (broadcastInDim_apply _ _ _ (ix2 e (0 : Fin 1)) (ix1 e) fun a => ?_).trans ?_
  · match a with
    | ⟨0, _⟩ => rfl
  · rw [select_apply]
    have hc : cmpi .slt idx (broadcastInDim S800000 ![] bcast_S_S800000 (constantI S_ 32 0#32)) (ix1 e) = 0#1 :=
      slt_zero_of_nonneg _ h0
    rw [hc, select_zero]

/-- The take of a node table's rows at the wrapped index column: at an edge whose entry is not negative, the row the entry names. -/
theorem takeRow_apply (x : FVec Ideal S50000x128 .f32) (idx : IVec S800000 32) (e : Fin 800000) (q : Fin 128)
    (h0 : 0 ≤ (idx (ix1 e)).toInt) :
    Host.gather gather_S50000x128_S800000x1_S800000x128_1_0_n_n_0_1_1128 x
        (broadcastInDim S800000x1 ![0] bcast_S800000_S800000x1_0
          (select (cmpi .slt idx (broadcastInDim S800000 ![] bcast_S_S800000 (constantI S_ 32 0#32)))
            (addi idx (broadcastInDim S800000 ![] bcast_S_S800000 (constantI S_ 32 50000#32))) idx)) (ix2 e q)
      = x (ix2 (EdgeGate.rowOf (idx (ix1 e))) q) := by
  unfold Host.gather
  refine congrArg x (funext fun a => Fin.ext ?_)
  match a with
  | ⟨0, _⟩ =>
    refine (gatherN_0 _ e q).trans ?_
    rw [wrapCol_apply idx e h0]
    rfl
  | ⟨1, _⟩ => exact gatherN_1 _ e q

/-- One over one plus the exponential of the negated entry: the logistic function of the entry. -/
theorem sig_apply {s : Shape} (hb : S_.BroadcastsInDim s (![] : Fin 0 → Fin s.rank)) (z : FVec Ideal s .f32) (i : s.Idx) :
    Host.divf (broadcastInDim s ![] hb (constant (F := Ideal) S_ .f32 0x3F800000#32))
      (addf (broadcastInDim s ![] hb (constant (F := Ideal) S_ .f32 0x3F800000#32)) (Host.exp (Host.negf z))) i
      = Ideal.logistic (z i) := by
  show Ideal.div (Ideal.ofBits .f32 0x3F800000#32) (Ideal.ofBits .f32 0x3F800000#32 + Ideal.exp (-(z i))) = _
  rw [Ideal.ofBits_one_f32]
  rfl

/-- The layer's data as a valuation of the reference program's buffers holds it. -/
def inputsV (W : Valuation τ sig (Elt Ideal)) : EdgeGate.Inputs where
  nf r k := (W (Proc.devRef .tc main_arg0) : S50000x128.Idx → EReal) (ix2 r k)
  ef r k := (W (Proc.devRef .tc main_arg1) : S800000x128.Idx → EReal) (ix2 r k)
  src e := EdgeGate.rowOf ((W (Proc.devRef .tc main_arg2) : S2x800000.Idx → BitVec 32) (ix2 0 e))
  dst e := EdgeGate.rowOf ((W (Proc.devRef .tc main_arg2) : S2x800000.Idx → BitVec 32) (ix2 1 e))
  Wsg r k := (W (Proc.devRef .tc main_arg3) : S128x128.Idx → EReal) (ix2 r k)
  bsg k := (W (Proc.devRef .tc main_arg4) : S128.Idx → EReal) (ix1 k)
  Wdg r k := (W (Proc.devRef .tc main_arg5) : S128x128.Idx → EReal) (ix2 r k)
  bdg k := (W (Proc.devRef .tc main_arg6) : S128.Idx → EReal) (ix1 k)
  Weg r k := (W (Proc.devRef .tc main_arg7) : S128x128.Idx → EReal) (ix2 r k)
  beg k := (W (Proc.devRef .tc main_arg8) : S128.Idx → EReal) (ix1 k)
  Wsu r k := (W (Proc.devRef .tc main_arg9) : S128x128.Idx → EReal) (ix2 r k)
  bsu k := (W (Proc.devRef .tc main_arg10) : S128.Idx → EReal) (ix1 k)
  Wdu r k := (W (Proc.devRef .tc main_arg11) : S128x128.Idx → EReal) (ix2 r k)
  bdu k := (W (Proc.devRef .tc main_arg12) : S128.Idx → EReal) (ix1 k)
  gn k := (W (Proc.devRef .tc main_arg13) : S128.Idx → EReal) (ix1 k)
  bn k := (W (Proc.devRef .tc main_arg14) : S128.Idx → EReal) (ix1 k)
  ge k := (W (Proc.devRef .tc main_arg15) : S128.Idx → EReal) (ix1 k)
  be k := (W (Proc.devRef .tc main_arg16) : S128.Idx → EReal) (ix1 k)

/-- At the launch contents that is the data the memory holds. -/
theorem inputsV_launch (m : Mem) (c : Dev nD) : inputsV (launchContents m c) = inputsOf m c := rfl

/-! ## The first operations: the index table's rows and the gate's pre-activation -/

/-- Row 0 of the index table, as the operations leave it. -/
theorem rd_idx0 (V : Valuation τ sig (Elt Ideal)) (e : Fin 800000) :
    (after (ops (F := Ideal)) V (Proc.devRef .tc main_v1) : S800000.Idx → BitVec 32) (ix1 e)
      = (V (Proc.devRef .tc main_arg2) : S2x800000.Idx → BitVec 32) (ix2 (0 : Fin 2) e) := by
  rw [read_v1, read_v0, read_arg2]
  exact row0_apply _ e

/-- Row 1 of the index table, as the operations leave it. -/
theorem rd_idx1 (V : Valuation τ sig (Elt Ideal)) (e : Fin 800000) :
    (after (ops (F := Ideal)) V (Proc.devRef .tc main_v3) : S800000.Idx → BitVec 32) (ix1 e)
      = (V (Proc.devRef .tc main_arg2) : S2x800000.Idx → BitVec 32) (ix2 (1 : Fin 2) e) := by
  rw [read_v3, read_v2, read_arg2]
  exact row1_apply _ e

set_option maxHeartbeats 4000000 in
/-- The gate's pre-activation, as the operations leave it. -/
theorem rd_y (V : Valuation τ sig (Elt Ideal))
    (hr : ∀ (a : Fin 2) (e : Fin 800000), 0 ≤ ((V (Proc.devRef .tc main_arg2) : S2x800000.Idx → BitVec 32) (ix2 a e)).toInt
      ∧ ((V (Proc.devRef .tc main_arg2) : S2x800000.Idx → BitVec 32) (ix2 a e)).toInt < 50000)
    (e : Fin 800000) (q : Fin 128) :
    (after (ops (F := Ideal)) V (Proc.devRef .tc main_v34) : S800000x128.Idx → EReal) (ix2 e q)
      = EdgeGate.y (inputsV V) e q := by
  rw [
    read_v34, read_v33, read_v32, read_v31, read_v30, read_v29, read_v28, read_v27, read_v26, read_v25, read_v24,
    read_v23, read_c_2, read_v22, read_v21, read_c_1, read_v20, read_v19, read_v18, read_v17, read_v16, read_v15,
    read_v14, read_v13, read_v12, read_v11, read_c_0, read_v10, read_v9, read_c, read_v8, read_v7, read_v6, read_v5,
    read_v4, read_v3, read_v2, read_v1, read_v0, read_arg0, read_arg1, read_arg2, read_arg3, read_arg4, read_arg5,
    read_arg6, read_arg7, read_arg8]
  rw [addf_apply, addf_apply]
  unfold EdgeGate.y EdgeGate.psg EdgeGate.pdg EdgeGate.peg
  refine congrArg₂ (· + ·) (congrArg₂ (· + ·) ?_ ?_) ?_
  · refine (takeRow_apply _ _ e q ?_).trans ?_
    · have h := (hr 0 e).1
      rw [← row0_apply (V (Proc.devRef .tc main_arg2)) e] at h
      exact h
    · rw [linN_apply]
      exact congrArg (fun r => EdgeGate.lin (inputsV V).nf (inputsV V).Wsg (inputsV V).bsg r q)
        (congrArg EdgeGate.rowOf (row0_apply _ e))
  · refine (takeRow_apply _ _ e q ?_).trans ?_
    · have h := (hr 1 e).1
      rw [← row1_apply (V (Proc.devRef .tc main_arg2)) e] at h
      exact h
    · rw [linN_apply]
      exact congrArg (fun r => EdgeGate.lin (inputsV V).nf (inputsV V).Wdg (inputsV V).bdg r q)
        (congrArg EdgeGate.rowOf (row1_apply _ e))
  · rw [linE_apply]
    rfl

/-! ## The middle: the gate, the two sums over the edges that leave a node, the node table before normalisation -/

set_option maxHeartbeats 4000000 in
/-- The node table before normalisation, out of the index table's two rows, the gate's pre-activation and the arguments. -/
theorem rd_xp (V : Valuation τ sig (Elt Ideal)) (I : EdgeGate.Inputs)
    (hnf : ∀ r k, (V (Proc.devRef .tc main_arg0) : S50000x128.Idx → EReal) (ix2 r k) = I.nf r k)
    (hWsu : ∀ r k, (V (Proc.devRef .tc main_arg9) : S128x128.Idx → EReal) (ix2 r k) = I.Wsu r k)
    (hbsu : ∀ k, (V (Proc.devRef .tc main_arg10) : S128.Idx → EReal) (ix1 k) = I.bsu k)
    (hWdu : ∀ r k, (V (Proc.devRef .tc main_arg11) : S128x128.Idx → EReal) (ix2 r k) = I.Wdu r k)
    (hbdu : ∀ k, (V (Proc.devRef .tc main_arg12) : S128.Idx → EReal) (ix1 k) = I.bdu k)
    (hr0 : ∀ e : Fin 800000, 0 ≤ ((after (ops (F := Ideal)) V (Proc.devRef .tc main_v1) : S800000.Idx → BitVec 32) (ix1 e)).toInt
      ∧ ((after (ops (F := Ideal)) V (Proc.devRef .tc main_v1) : S800000.Idx → BitVec 32) (ix1 e)).toInt < 50000)
    (hr1 : ∀ e : Fin 800000, 0 ≤ ((after (ops (F := Ideal)) V (Proc.devRef .tc main_v3) : S800000.Idx → BitVec 32) (ix1 e)).toInt)
    (hsrc : ∀ e : Fin 800000,
      EdgeGate.rowOf ((after (ops (F := Ideal)) V (Proc.devRef .tc main_v1) : S800000.Idx → BitVec 32) (ix1 e)) = I.src e)
    (hdst : ∀ e : Fin 800000,
      EdgeGate.rowOf ((after (ops (F := Ideal)) V (Proc.devRef .tc main_v3) : S800000.Idx → BitVec 32) (ix1 e)) = I.dst e)
    (hy : ∀ e q, (after (ops (F := Ideal)) V (Proc.devRef .tc main_v34) : S800000x128.Idx → EReal) (ix2 e q) = EdgeGate.y I e q)
    (n : Fin 50000) (q : Fin 128) :
    (after (ops (F := Ideal)) V (Proc.devRef .tc main_v68) : S50000x128.Idx → EReal) (ix2 n q) = EdgeGate.xp I n q := by
  rw [
    read_v68, read_v67, read_v66, read_v65, read_v64, read_v63, read_v62, read_v61, read_v60, read_cst_8, read_v59,
    read_v58, read_v57, read_cst_7, read_v56, read_v55, read_v54, read_cst_6, read_v53, read_v52, read_v51, read_v50,
    read_v49, read_v48, read_c_5, read_v47, read_v46, read_c_4, read_v45, read_v44, read_v43, read_v42, read_v41,
    read_v40, read_v39, read_cst_3, read_v38, read_v37, read_cst, read_v36, read_v35, read_arg0, read_arg9,
    read_arg10, read_arg11, read_arg12]
  have enf : (fun r k => (V (Proc.devRef .tc main_arg0) : S50000x128.Idx → EReal) (ix2 r k)) = I.nf :=
    funext fun r => funext fun k => hnf r k
  have eWsu : (fun r k => (V (Proc.devRef .tc main_arg9) : S128x128.Idx → EReal) (ix2 r k)) = I.Wsu :=
    funext fun r => funext fun k => hWsu r k
  have ebsu : (fun k => (V (Proc.devRef .tc main_arg10) : S128.Idx → EReal) (ix1 k)) = I.bsu := funext fun k => hbsu k
  have eWdu : (fun r k => (V (Proc.devRef .tc main_arg11) : S128x128.Idx → EReal) (ix2 r k)) = I.Wdu :=
    funext fun r => funext fun k => hWdu r k
  have ebdu : (fun k => (V (Proc.devRef .tc main_arg12) : S128.Idx → EReal) (ix1 k)) = I.bdu := funext fun k => hbdu k
  rw [addf_apply, linN_apply, hdivf_apply, addf_apply, segsum_apply _ _ n q hr0, segsum_apply _ _ n q hr0, enf, eWsu, ebsu]
  unfold EdgeGate.xp EdgeGate.psu EdgeGate.ssh EdgeGate.ss EdgeGate.mm EdgeGate.pdu EdgeGate.sg
  refine congrArg₂ (fun u v => EdgeGate.lin I.nf I.Wsu I.bsu n q + Ideal.div u (v + EdgeGate.eps6)) ?_ ?_
  · refine Finset.sum_congr (Finset.filter_congr fun e _ => by rw [hsrc e]) fun e _ => ?_
    rw [mulf_apply, takeRow_apply _ _ e q (hr1 e), linN_apply, hdst e, sig_apply, hy e q, enf, eWdu, ebdu]
  · exact Finset.sum_congr (Finset.filter_congr fun e _ => by rw [hsrc e]) fun e _ => by rw [sig_apply, hy e q]

/-! ## The two tails: column mean and variance, normalisation, the gated unit, the residual -/

set_option maxHeartbeats 4000000 in
/-- The node result out of the node table before normalisation and the arguments. -/
theorem rd_x (V : Valuation τ sig (Elt Ideal)) (a0 xp : Fin 50000 → Fin 128 → EReal) (g b : Fin 128 → EReal)
    (h0 : ∀ r k, (V (Proc.devRef .tc main_arg0) : S50000x128.Idx → EReal) (ix2 r k) = a0 r k)
    (hxp : ∀ r k, (after (ops (F := Ideal)) V (Proc.devRef .tc main_v68) : S50000x128.Idx → EReal) (ix2 r k) = xp r k)
    (hg : ∀ k, (V (Proc.devRef .tc main_arg13) : S128.Idx → EReal) (ix1 k) = g k)
    (hb : ∀ k, (V (Proc.devRef .tc main_arg14) : S128.Idx → EReal) (ix1 k) = b k)
    (n : Fin 50000) (q : Fin 128) :
    (after (ops (F := Ideal)) V (Proc.devRef .tc main_v109) : S50000x128.Idx → EReal) (ix2 n q)
      = a0 n q + EdgeGate.act (xp n q) (EdgeGate.mean EdgeGate.cntN xp q) (EdgeGate.varR EdgeGate.cntN xp q) (g q) (b q) := by
  rw [
    read_v109, read_v88, read_call1_v5, read_call1_v4, read_call1_cst_0, read_call1_v3, read_call1_v2,
    read_call1_cst, read_call1_v1, read_call1_v0, read_v87, read_v86, read_v85, read_v84, read_v83, read_v82,
    read_v81, read_v80, read_v79, read_v78, read_v77, read_v76, read_cst_12, read_v75, read_v74, read_v73, read_v72,
    read_call0_call0_v1, read_call0_call0_v0, read_call0_cst_4, read_call0_v12, read_call0_cst_3, read_call0_v11,
    read_call0_v10, read_call0_v9, read_call0_cst_2, read_call0_v8, read_call0_cst_1, read_call0_v7, read_call0_v6,
    read_call0_v5, read_call0_v4, read_call0_v3, read_call0_v2, read_call0_cst_0, read_call0_v1, read_call0_v0,
    read_call0_cst, read_c_11, read_v71, read_v70, read_cst_10, read_v69, read_cst_9, read_arg0, read_arg13,
    read_arg14]
  rw [addf_apply, act_node, h0, hxp, hg, hb]
  have hfun : (fun r k => (after (ops (F := Ideal)) V (Proc.devRef .tc main_v68) : S50000x128.Idx → EReal) (ix2 r k)) = xp :=
    funext fun r => funext fun k => hxp r k
  refine congrArg₂ (fun u v => a0 n q + EdgeGate.act (xp n q) u v (g q) (b q)) ?_ ?_
  · rw [← hfun, hdivf_apply, colsumN_apply]
    rfl
  · rw [← hfun]
    exact varN_apply _ q

set_option maxHeartbeats 4000000 in
/-- The edge result out of the gate's pre-activation and the arguments. -/
theorem rd_yout (V : Valuation τ sig (Elt Ideal)) (a1 yv : Fin 800000 → Fin 128 → EReal) (g b : Fin 128 → EReal)
    (h1 : ∀ r k, (V (Proc.devRef .tc main_arg1) : S800000x128.Idx → EReal) (ix2 r k) = a1 r k)
    (hy : ∀ r k, (after (ops (F := Ideal)) V (Proc.devRef .tc main_v34) : S800000x128.Idx → EReal) (ix2 r k) = yv r k)
    (hg : ∀ k, (V (Proc.devRef .tc main_arg15) : S128.Idx → EReal) (ix1 k) = g k)
    (hb : ∀ k, (V (Proc.devRef .tc main_arg16) : S128.Idx → EReal) (ix1 k) = b k)
    (e : Fin 800000) (q : Fin 128) :
    (after (ops (F := Ideal)) V (Proc.devRef .tc main_v110) : S800000x128.Idx → EReal) (ix2 e q)
      = a1 e q + EdgeGate.act (yv e q) (EdgeGate.mean EdgeGate.cntE yv q) (EdgeGate.varR EdgeGate.cntE yv q) (g q) (b q) := by
  rw [
    read_v110, read_v108, read_call3_v5, read_call3_v4, read_call3_cst_0, read_call3_v3, read_call3_v2,
    read_call3_cst, read_call3_v1, read_call3_v0, read_v107, read_v106, read_v105, read_v104, read_v103, read_v102,
    read_v101, read_v100, read_v99, read_v98, read_v97, read_v96, read_cst_16, read_v95, read_v94, read_v93,
    read_v92, read_call2_call0_v1, read_call2_call0_v0, read_call2_cst_4, read_call2_v12, read_call2_cst_3,
    read_call2_v11, read_call2_v10, read_call2_v9, read_call2_cst_2, read_call2_v8, read_call2_cst_1, read_call2_v7,
    read_call2_v6, read_call2_v5, read_call2_v4, read_call2_v3, read_call2_v2, read_call2_cst_0, read_call2_v1,
    read_call2_v0, read_call2_cst, read_c_15, read_v91, read_v90, read_cst_14, read_v89, read_cst_13, read_arg1,
    read_arg15, read_arg16]
  rw [addf_apply, act_edge, h1, hy, hg, hb]
  have hfun : (fun r k => (after (ops (F := Ideal)) V (Proc.devRef .tc main_v34) : S800000x128.Idx → EReal) (ix2 r k)) = yv :=
    funext fun r => funext fun k => hy r k
  refine congrArg₂ (fun u v => a1 e q + EdgeGate.act (yv e q) u v (g q) (b q)) ?_ ?_
  · rw [← hfun, hdivf_apply, colsumE_apply]
    rfl
  · rw [← hfun]
    exact varE_apply _ q

/-! ## From the launch contents -/

variable (m : Mem) (c : Dev nD)

/-- The node table before normalisation, as the operations leave it from the launch contents. -/
theorem xp_launch (hr : InRange m c) (r : Fin 50000) (k : Fin 128) :
    (after (ops (F := Ideal)) (launchContents m c) (Proc.devRef .tc main_v68) : S50000x128.Idx → EReal) (ix2 r k)
      = EdgeGate.xp (inputsOf m c) r k :=
  rd_xp (launchContents m c) (inputsOf m c) (fun _ _ => rfl) (fun _ _ => rfl) (fun _ => rfl) (fun _ _ => rfl) (fun _ => rfl)
    (fun e => by rw [rd_idx0]; exact hr 0 e) (fun e => by rw [rd_idx1]; exact (hr 1 e).1)
    (fun e => by rw [rd_idx0]; rfl) (fun e => by rw [rd_idx1]; rfl)
    (fun e q => by rw [rd_y (launchContents m c) hr e q]; rfl) r k

/-- The node result. -/
theorem ref_x (hr : InRange m c) (n : Fin 50000) (q : Fin 128) :
    (after (ops (F := Ideal)) (launchContents m c) (Proc.devRef .tc main_v109) : (⟨2, ![50000, 128]⟩ : Shape).Idx → EReal) (ix2 n q)
      = EdgeGate.xoutR (inputsOf m c) n q :=
  (rd_x (launchContents m c) (inputsOf m c).nf (EdgeGate.xp (inputsOf m c)) (inputsOf m c).gn (inputsOf m c).bn
    (fun _ _ => rfl) (xp_launch m c hr) (fun _ => rfl) (fun _ => rfl) n q).trans rfl
/-- The edge result. -/
theorem ref_y (hr : InRange m c) (e : Fin 800000) (q : Fin 128) :
    (after (ops (F := Ideal)) (launchContents m c) (Proc.devRef .tc main_v110) : (⟨2, ![800000, 128]⟩ : Shape).Idx → EReal) (ix2 e q)
      = EdgeGate.youtR (inputsOf m c) e q :=
  (rd_yout (launchContents m c) (inputsOf m c).ef (EdgeGate.y (inputsOf m c)) (inputsOf m c).ge (inputsOf m c).be
    (fun _ _ => rfl) (fun r k => by rw [rd_y (launchContents m c) hr r k]; rfl) (fun _ => rfl) (fun _ => rfl) e q).trans rfl
/-- No operation writes an argument. -/
theorem ref_arg (b : Ref sig .tc) (hb : b ∈ [main_arg0, main_arg1, main_arg2, main_arg3, main_arg4, main_arg5, main_arg6, main_arg7,
      main_arg8, main_arg9, main_arg10, main_arg11, main_arg12, main_arg13, main_arg14, main_arg15, main_arg16]) :
    after (ops (F := Ideal)) (launchContents m c) (Proc.devRef .tc b) = launchContents m c (Proc.devRef .tc b) :=
  read_args (F := Ideal) (launchContents m c) b hb

end Cert.ReferenceIdeal.Val

end
-- ==== Proof.Agree.lean ====
/-
  The two programs are run from memories that agree on the seventeen argument arrays; so the layer's data read off the
  one memory are the data read off the other, and a row-number range that holds of the one index table holds of the other.
-/
import proofs.«400967_j64424509440774_3_alg».proof.Proof.KInputs
import proofs.«400967_j64424509440774_3_alg».proof.Proof.RInputs

noncomputable section

namespace Cert.Proof

open Idealize.ShloMosaic Idealize.ShloMosaic.ValueIdx

variable (m : Cert.KernelIdeal.Val.Mem) (m' : Cert.ReferenceIdeal.Val.Mem) (c : Dev Cert.KernelIdeal.nD)

/-- Agreeing argument arrays are the same layer data. -/
theorem inputs_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Val.inputsOf m' c = Cert.KernelIdeal.Val.inputsOf m c := by
  unfold Cert.ReferenceIdeal.Val.inputsOf Cert.KernelIdeal.Val.inputsOf
  rw [h0, h1, h2, h3, h4, h5, h6, h7, h8, h9, h10, h11, h12, h13, h14, h15, h16]

/-- The index table's range carries over. -/
theorem inRange_agree
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hr : Cert.KernelIdeal.Val.InRange m c) : Cert.ReferenceIdeal.Val.InRange m' c := by
  unfold Cert.ReferenceIdeal.Val.InRange
  rw [h2]
  exact hr

end Cert.Proof

end
-- ==== Proof.lean ====
/-
  The certificate's five claims.

  The kernel program computes the graph layer in five launches with host operations between them; the reference
  computes it in one straight line of host operations. Entry by entry both results are the layer of Spec.lean: the
  kernel's with each batch variance written as the mean of the squares minus the squared mean (KStage0 … KStage3 follow
  the program segment by segment), the reference's with the variance as the mean of the squared deviations (RVal). Under
  the precondition every float datum is a real and every entry of the index table is a row number of the node table
  (PreDecode); on reals the two variances are one number (Algebra), and a row number in range is read by the kernel's
  guarded take exactly as by the reference's plain one. The three frames are the generated frames of the two kernel
  programs and the reference's run with its results dropped; the idealization rewrote nothing.
-/
import proofs.«400967_j64424509440774_3_alg».proof.Defs
import proofs.«400967_j64424509440774_3_alg».proof.Proof.Gen.Kernel.Frame
import proofs.«400967_j64424509440774_3_alg».proof.Proof.Gen.KernelIdeal.Frame
import proofs.«400967_j64424509440774_3_alg».proof.Proof.Gen.ReferenceIdeal
import proofs.«400967_j64424509440774_3_alg».proof.Proof.Gen.Pre_finite_inputs
import proofs.«400967_j64424509440774_3_alg».proof.Proof.KRun
import proofs.«400967_j64424509440774_3_alg».proof.Proof.KStage3
import proofs.«400967_j64424509440774_3_alg».proof.Proof.PreDecode
import proofs.«400967_j64424509440774_3_alg».proof.Proof.Algebra
import proofs.«400967_j64424509440774_3_alg».proof.Proof.RVal
import proofs.«400967_j64424509440774_3_alg».proof.Proof.Agree
import Idealize.ShloMosaic.Adequacy
import Idealize.ShloMosaic.Init

noncomputable section

namespace Cert.Proof

open Idealize.ShloMosaic Idealize.ShloMosaic.ValueIdx Idealize.ShloMosaic.StableHlo Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped; no operation writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.Val.ref_arg m c Cert.ReferenceIdeal.main_arg0 (by simp)),
      (h c Cert.ReferenceIdeal.main_arg1).trans (Cert.ReferenceIdeal.Val.ref_arg m c Cert.ReferenceIdeal.main_arg1 (by simp)),
      (h c Cert.ReferenceIdeal.main_arg2).trans (Cert.ReferenceIdeal.Val.ref_arg m c Cert.ReferenceIdeal.main_arg2 (by simp)),
      (h c Cert.ReferenceIdeal.main_arg3).trans (Cert.ReferenceIdeal.Val.ref_arg m c Cert.ReferenceIdeal.main_arg3 (by simp)),
      (h c Cert.ReferenceIdeal.main_arg4).trans (Cert.ReferenceIdeal.Val.ref_arg m c Cert.ReferenceIdeal.main_arg4 (by simp)),
      (h c Cert.ReferenceIdeal.main_arg5).trans (Cert.ReferenceIdeal.Val.ref_arg m c Cert.ReferenceIdeal.main_arg5 (by simp)),
      (h c Cert.ReferenceIdeal.main_arg6).trans (Cert.ReferenceIdeal.Val.ref_arg m c Cert.ReferenceIdeal.main_arg6 (by simp)),
      (h c Cert.ReferenceIdeal.main_arg7).trans (Cert.ReferenceIdeal.Val.ref_arg m c Cert.ReferenceIdeal.main_arg7 (by simp)),
      (h c Cert.ReferenceIdeal.main_arg8).trans (Cert.ReferenceIdeal.Val.ref_arg m c Cert.ReferenceIdeal.main_arg8 (by simp)),
      (h c Cert.ReferenceIdeal.main_arg9).trans (Cert.ReferenceIdeal.Val.ref_arg m c Cert.ReferenceIdeal.main_arg9 (by simp)),
      (h c Cert.ReferenceIdeal.main_arg10).trans (Cert.ReferenceIdeal.Val.ref_arg m c Cert.ReferenceIdeal.main_arg10 (by simp)),
      (h c Cert.ReferenceIdeal.main_arg11).trans (Cert.ReferenceIdeal.Val.ref_arg m c Cert.ReferenceIdeal.main_arg11 (by simp)),
      (h c Cert.ReferenceIdeal.main_arg12).trans (Cert.ReferenceIdeal.Val.ref_arg m c Cert.ReferenceIdeal.main_arg12 (by simp)),
      (h c Cert.ReferenceIdeal.main_arg13).trans (Cert.ReferenceIdeal.Val.ref_arg m c Cert.ReferenceIdeal.main_arg13 (by simp)),
      (h c Cert.ReferenceIdeal.main_arg14).trans (Cert.ReferenceIdeal.Val.ref_arg m c Cert.ReferenceIdeal.main_arg14 (by simp)),
      (h c Cert.ReferenceIdeal.main_arg15).trans (Cert.ReferenceIdeal.Val.ref_arg m c Cert.ReferenceIdeal.main_arg15 (by simp)),
      (h c Cert.ReferenceIdeal.main_arg16).trans (Cert.ReferenceIdeal.Val.ref_arg m c Cert.ReferenceIdeal.main_arg16 (by simp))⟩)
    (Cert.ReferenceIdeal.RefRun.run_main (F := Ideal) m ρ)

/-- The two programs end with equal results: entry by entry both are the layer's output on the data the memories share. -/
theorem algebraic : Cert.algebraic_KernelIdeal_ReferenceIdeal := by
  intro m ρ m' ρ' hpre hagree
  refine ⟨fun c => Cert.KernelIdeal.Gen.W11 m ρ c (Proc.devRef .tc Cert.KernelIdeal.main_v53),
    fun c => Cert.KernelIdeal.Gen.W11 m ρ c (Proc.devRef .tc Cert.KernelIdeal.main_v54), Cert.KernelIdeal.ValueRun.run_vals (F := Ideal) m ρ, ?_⟩
  refine (θ_run Cert.ReferenceIdeal.defs _ _).mono (fun r h c => ?_) (Cert.ReferenceIdeal.RefRun.run_main (F := Ideal) m' ρ')
  obtain ⟨a0, a1, a2, a3, a4, a5, a6, a7, a8, a9, a10, a11, a12, a13, a14, a15, a16⟩ := hagree c
  have hI : Cert.ReferenceIdeal.Val.inputsOf m' c = Cert.KernelIdeal.Val.inputsOf m c :=
    inputs_agree m m' c a0 a1 a2 a3 a4 a5 a6 a7 a8 a9 a10 a11 a12 a13 a14 a15 a16
  have hr : Cert.KernelIdeal.Val.InRange m c := Cert.KernelIdeal.Val.inRange_of_pre m hpre c
  have hr' : Cert.ReferenceIdeal.Val.InRange m' c := inRange_agree m m' c a2 hr
  have hF : (Cert.KernelIdeal.Val.inputsOf m c).Finite := Cert.KernelIdeal.Val.finite_of_pre m hpre c
  refine ⟨?_, ?_, (h c Cert.ReferenceIdeal.main_arg0).trans (Cert.ReferenceIdeal.Val.ref_arg m' c Cert.ReferenceIdeal.main_arg0 (by simp)),
    (h c Cert.ReferenceIdeal.main_arg1).trans (Cert.ReferenceIdeal.Val.ref_arg m' c Cert.ReferenceIdeal.main_arg1 (by simp)),
    (h c Cert.ReferenceIdeal.main_arg2).trans (Cert.ReferenceIdeal.Val.ref_arg m' c Cert.ReferenceIdeal.main_arg2 (by simp)),
    (h c Cert.ReferenceIdeal.main_arg3).trans (Cert.ReferenceIdeal.Val.ref_arg m' c Cert.ReferenceIdeal.main_arg3 (by simp)),
    (h c Cert.ReferenceIdeal.main_arg4).trans (Cert.ReferenceIdeal.Val.ref_arg m' c Cert.ReferenceIdeal.main_arg4 (by simp)),
    (h c Cert.ReferenceIdeal.main_arg5).trans (Cert.ReferenceIdeal.Val.ref_arg m' c Cert.ReferenceIdeal.main_arg5 (by simp)),
    (h c Cert.ReferenceIdeal.main_arg6).trans (Cert.ReferenceIdeal.Val.ref_arg m' c Cert.ReferenceIdeal.main_arg6 (by simp)),
    (h c Cert.ReferenceIdeal.main_arg7).trans (Cert.ReferenceIdeal.Val.ref_arg m' c Cert.ReferenceIdeal.main_arg7 (by simp)),
    (h c Cert.ReferenceIdeal.main_arg8).trans (Cert.ReferenceIdeal.Val.ref_arg m' c Cert.ReferenceIdeal.main_arg8 (by simp)),
    (h c Cert.ReferenceIdeal.main_arg9).trans (Cert.ReferenceIdeal.Val.ref_arg m' c Cert.ReferenceIdeal.main_arg9 (by simp)),
    (h c Cert.ReferenceIdeal.main_arg10).trans (Cert.ReferenceIdeal.Val.ref_arg m' c Cert.ReferenceIdeal.main_arg10 (by simp)),
    (h c Cert.ReferenceIdeal.main_arg11).trans (Cert.ReferenceIdeal.Val.ref_arg m' c Cert.ReferenceIdeal.main_arg11 (by simp)),
    (h c Cert.ReferenceIdeal.main_arg12).trans (Cert.ReferenceIdeal.Val.ref_arg m' c Cert.ReferenceIdeal.main_arg12 (by simp)),
    (h c Cert.ReferenceIdeal.main_arg13).trans (Cert.ReferenceIdeal.Val.ref_arg m' c Cert.ReferenceIdeal.main_arg13 (by simp)),
    (h c Cert.ReferenceIdeal.main_arg14).trans (Cert.ReferenceIdeal.Val.ref_arg m' c Cert.ReferenceIdeal.main_arg14 (by simp)),
    (h c Cert.ReferenceIdeal.main_arg15).trans (Cert.ReferenceIdeal.Val.ref_arg m' c Cert.ReferenceIdeal.main_arg15 (by simp)),
    (h c Cert.ReferenceIdeal.main_arg16).trans (Cert.ReferenceIdeal.Val.ref_arg m' c Cert.ReferenceIdeal.main_arg16 (by simp))⟩
  · refine (h c Cert.ReferenceIdeal.main_v109).trans ?_
    funext i
    obtain ⟨n, q, rfl⟩ : ∃ (n : Fin 50000) (q : Fin 128), i = ix2 n q := ⟨i 0, i 1, eq_ix2 i⟩
    refine (Cert.ReferenceIdeal.Val.ref_x m' c hr' n q).trans ?_
    rw [hI, ← EdgeGate.xoutK_eq _ hF]
    exact (Cert.KernelIdeal.Val.s3_x m ρ c hr n q).symm
  · refine (h c Cert.ReferenceIdeal.main_v110).trans ?_
    funext i
    obtain ⟨e, q, rfl⟩ : ∃ (e : Fin 800000) (q : Fin 128), i = ix2 e q := ⟨i 0, i 1, eq_ix2 i⟩
    refine (Cert.ReferenceIdeal.Val.ref_y m' c hr' e q).trans ?_
    rw [hI, ← EdgeGate.youtK_eq _ hF]
    exact (Cert.KernelIdeal.Val.s3_y m ρ c hr e q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
